-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x1 : Shape := ⟨2, ![640000, 1]⟩
abbrev S640000 : Shape := ⟨1, ![640000]⟩
abbrev S100 : Shape := ⟨1, ![100]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg2 : IVec S640000 32) (main_arg3 : IVec S640000 32) (main_v32 : IVec S_ 1) (main_c_12 : IVec S_ 32) : IVec S_ 1 :=
  let main_v33 : IVec S640000 32 := broadcastInDim S640000 ![] bcast_S_S640000 main_c_12
  let main_v34 : IVec S640000 1 := cmpi .slt main_arg2 main_v33
  let main_c_13 : IVec S_ 1 := constantI S_ 1 1#1
  let main_v35 : IVec S_ 1 := (fun x v => Host.reduce IntOp.andi x v reducesTo_S640000_S_d0 h_S_) main_v34 main_c_13
  let main_v36 : IVec S_ 1 := andi main_v32 main_v35
  let main_c_14 : IVec S_ 32 := constantI S_ 32 0#32
  let main_v37 : IVec S640000 32 := broadcastInDim S640000 ![] bcast_S_S640000 main_c_14
  let main_v38 : IVec S640000 1 := cmpi .sge main_arg3 main_v37
  let main_c_15 : IVec S_ 1 := constantI S_ 1 1#1
  let main_v39 : IVec S_ 1 := (fun x v => Host.reduce IntOp.andi x v reducesTo_S640000_S_d0 h_S_) main_v38 main_c_15
  let main_v40 : IVec S_ 1 := andi main_v36 main_v39
  let main_c_16 : IVec S_ 32 := constantI S_ 32 10000#32
  let main_v41 : IVec S640000 32 := broadcastInDim S640000 ![] bcast_S_S640000 main_c_16
  let main_v42 : IVec S640000 1 := cmpi .slt main_arg3 main_v41
  let main_c_17 : IVec S_ 1 := constantI S_ 1 1#1
  let main_v43 : IVec S_ 1 := (fun x v => Host.reduce IntOp.andi x v reducesTo_S640000_S_d0 h_S_) main_v42 main_c_17
  let main_v44 : IVec S_ 1 := andi main_v40 main_v43
  main_v44

def fn_part1 {F : FTy → Type} [FloatOps F] (main_arg2 : IVec S640000 32) (main_arg3 : IVec S640000 32) (main_arg8 : FVec F S512x128 .f32) (main_arg9 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg8
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S640000 32 := broadcastInDim S640000 ![] bcast_S_S640000 main_c_10
  let main_v30 : IVec S640000 1 := cmpi .sge main_arg2 main_v29
  let main_c_11 : IVec S_ 1 := constantI S_ 1 1#1
  let main_v31 : IVec S_ 1 := (fun x v => Host.reduce IntOp.andi x v reducesTo_S640000_S_d0 h_S_) main_v30 main_c_11
  let main_v32 : IVec S_ 1 := andi main_v28 main_v31
  let main_c_12 : IVec S_ 32 := constantI S_ 32 10000#32
  fn_part2 (F := F) main_arg2 main_arg3 main_v32 main_c_12

def fn {F : FTy → Type} [FloatOps F] (main_arg0 : FVec F S10000x128 .f32) (main_arg1 : FVec F S640000x1 .f32) (main_arg2 : IVec S640000 32) (main_arg3 : IVec S640000 32) (main_arg4 : IVec S100 32) (main_arg5 : IVec S100 32) (main_arg6 : FVec F S128x512 .f32) (main_arg7 : FVec F S512 .f32) (main_arg8 : FVec F S512x128 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x1 .f32 := Host.absf main_arg1
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S128x512 .f32 := Host.absf main_arg6
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg7
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg3 main_arg8 main_arg9 main_v13 main_v16
-- ==== Kernel.lean ====
abbrev S10000x128 : Shape := ⟨2, ![10000, 128]⟩
abbrev S640000x1 : Shape := ⟨2, ![640000, 1]⟩
abbrev S640000 : Shape := ⟨1, ![640000]⟩
abbrev S100 : Shape := ⟨1, ![100]⟩
abbrev S128x512 : Shape := ⟨2, ![128, 512]⟩
abbrev S512 : Shape := ⟨1, ![512]⟩
abbrev S512x128 : Shape := ⟨2, ![512, 128]⟩
abbrev S128 : Shape := ⟨1, ![128]⟩
abbrev S1x512 : Shape := ⟨2, ![1, 512]⟩
abbrev S1x128 : Shape := ⟨2, ![1, 128]⟩
abbrev S1000x128 : Shape := ⟨2, ![1000, 128]⟩
abbrev S1000x512 : Shape := ⟨2, ![1000, 512]⟩
abbrev S_ : Shape := ⟨0, ![]⟩
abbrev S10240x128 : Shape := ⟨2, ![10240, 128]⟩
abbrev S5000x128 : Shape := ⟨2, ![5000, 128]⟩
abbrev S8x128 : Shape := ⟨2, ![8, 128]⟩
abbrev S1x10240 : Shape := ⟨2, ![1, 10240]⟩
abbrev S128x1 : Shape := ⟨2, ![128, 1]⟩
abbrev S128x10240 : Shape := ⟨2, ![128, 10240]⟩
abbrev S128x128 : Shape := ⟨2, ![128, 128]⟩
abbrev S1 : Shape := ⟨1, ![1]⟩
abbrev S99 : Shape := ⟨1, ![99]⟩
abbrev S100x1 : Shape := ⟨2, ![100, 1]⟩
abbrev S1x1 : Shape := ⟨2, ![1, 1]⟩
abbrev S100x128 : Shape := ⟨2, ![100, 128]⟩

abbrev nBuf : Space → Nat
  | .hbm => 132
  | .vmem => 19
  | .smem => 0
  | _ => 0

abbrev hbmTy0_0 (i : Nat) : BufTy := match i % 128 with
  | 0 => ⟨S10000x128, .f32⟩
  | 1 => ⟨S640000x1, .f32⟩
  | 2 => ⟨S640000, .i32⟩
  | 3 => ⟨S640000, .i32⟩
  | 4 => ⟨S100, .i32⟩
  | 5 => ⟨S100, .i32⟩
  | 6 => ⟨S128x512, .f32⟩
  | 7 => ⟨S512, .f32⟩
  | 8 => ⟨S512x128, .f32⟩
  | 9 => ⟨S128, .f32⟩
  | 10 => ⟨S1x512, .f32⟩
  | 11 => ⟨S1x128, .f32⟩
  | 12 => ⟨S10000x128, .f32⟩
  | 13 => ⟨S10000x128, .bf16⟩
  | 14 => ⟨S_, .i32⟩
  | 15 => ⟨S_, .bf16⟩
  | 16 => ⟨S10240x128, .bf16⟩
  | 17 => ⟨S5000x128, .i32⟩
  | 18 => ⟨S5000x128, .i32⟩
  | 19 => ⟨S640000, .f32⟩
  | 20 => ⟨S5000x128, .f32⟩
  | 21 => ⟨S5000x128, .f32⟩
  | 22 => ⟨S640000, .f32⟩
  | 23 => ⟨S100, .i32⟩
  | 24 => ⟨S1, .i32⟩
  | 25 => ⟨S99, .i32⟩
  | 26 => ⟨S100, .i32⟩
  | 27 => ⟨S_, .i32⟩
  | 28 => ⟨S1, .i32⟩
  | 29 => ⟨S_, .i32⟩
  | 30 => ⟨S100, .i32⟩
  | 31 => ⟨S_, .i32⟩
  | 32 => ⟨S_, .i32⟩
  | 33 => ⟨S100, .i32⟩
  | 34 => ⟨S_, .i32⟩
  | 35 => ⟨S640000, .i32⟩
  | 36 => ⟨S_, .i32⟩
  | 37 => ⟨S100, .i32⟩
  | 38 => ⟨S100, .i1⟩
  | 39 => ⟨S_, .i32⟩
  | 40 => ⟨S100, .i32⟩
  | 41 => ⟨S100, .i32⟩
  | 42 => ⟨S100, .i32⟩
  | 43 => ⟨S100x1, .i32⟩
  | 44 => ⟨S_, .i32⟩
  | 45 => ⟨S100, .i32⟩
  | 46 => ⟨S640000, .i32⟩
  | 47 => ⟨S_, .i32⟩
  | 48 => ⟨S_, .i32⟩
  | 49 => ⟨S640000, .i32⟩
  | 50 => ⟨S_, .i32⟩
  | 51 => ⟨S640000, .i32⟩
  | 52 => ⟨S640000, .i32⟩
  | 53 => ⟨S_, .i32⟩
  | 54 => ⟨S640000, .i32⟩
  | 55 => ⟨S640000, .i1⟩
  | 56 => ⟨S_, .i32⟩
  | 57 => ⟨S640000, .i32⟩
  | 58 => ⟨S640000, .i32⟩
  | 59 => ⟨S640000, .i32⟩
  | 60 => ⟨S640000x1, .i32⟩
  | 61 => ⟨S1, .i32⟩
  | 62 => ⟨S_, .i32⟩
  | 63 => ⟨S640000x1, .i32⟩
  | 64 => ⟨S640000x1, .i1⟩
  | 65 => ⟨S1x1, .i32⟩
  | 66 => ⟨S640000x1, .i32⟩
  | 67 => ⟨S640000x1, .i1⟩
  | 68 => ⟨S640000x1, .i1⟩
  | 69 => ⟨S_, .i1⟩
  | 70 => ⟨S640000, .i1⟩
  | 71 => ⟨S640000, .i32⟩
  | 72 => ⟨S_, .i32⟩
  | 73 => ⟨S640000, .i32⟩
  | 74 => ⟨S640000, .i32⟩
  | 75 => ⟨S640000, .f32⟩
  | 76 => ⟨S_, .f32⟩
  | 77 => ⟨S100, .f32⟩
  | 78 => ⟨S640000x1, .i32⟩
  | 79 => ⟨S100, .f32⟩
  | 80 => ⟨S_, .f32⟩
  | 81 => ⟨S100, .f32⟩
  | 82 => ⟨S640000x1, .i32⟩
  | 83 => ⟨S100, .f32⟩
  | 84 => ⟨S_, .f32⟩
  | 85 => ⟨S100, .f32⟩
  | 86 => ⟨S100, .i1⟩
  | 87 => ⟨S_, .f32⟩
  | 88 => ⟨S100, .f32⟩
  | 89 => ⟨S100, .i1⟩
  | 90 => ⟨S_, .f32⟩
  | 91 => ⟨S_, .f32⟩
  | 92 => ⟨S100, .f32⟩
  | 93 => ⟨S100, .f32⟩
  | 94 => ⟨S100, .f32⟩
  | 95 => ⟨S_, .f32⟩
  | 96 => ⟨S_, .f32⟩
  | 97 => ⟨S100, .f32⟩
  | 98 => ⟨S100, .f32⟩
  | 99 => ⟨S_, .f32⟩
  | 100 => ⟨S_, .f32⟩
  | 101 => ⟨S_, .f32⟩
  | 102 => ⟨S_, .f32⟩
  | 103 => ⟨S_, .i32⟩
  | 104 => ⟨S_, .i32⟩
  | 105 => ⟨S100, .i32⟩
  | 106 => ⟨S_, .i32⟩
  | 107 => ⟨S100, .i32⟩
  | 108 => ⟨S100, .i32⟩
  | 109 => ⟨S_, .i32⟩
  | 110 => ⟨S100, .i32⟩
  | 111 => ⟨S100, .i1⟩
  | 112 => ⟨S_, .i32⟩
  | 113 => ⟨S100, .i32⟩
  | 114 => ⟨S100, .i32⟩
  | 115 => ⟨S100, .i32⟩
  | 116 => ⟨S100x1, .i32⟩
  | 117 => ⟨S1, .i32⟩
  | 118 => ⟨S_, .i32⟩
  | 119 => ⟨S100x1, .i32⟩
  | 120 => ⟨S100x1, .i1⟩
  | 121 => ⟨S1x1, .i32⟩
  | 122 => ⟨S100x1, .i32⟩
  | 123 => ⟨S100x1, .i1⟩
  | 124 => ⟨S100x1, .i1⟩
  | 125 => ⟨S_, .i1⟩
  | 126 => ⟨S100, .i1⟩
  | 127 => ⟨S100x128, .f32⟩
  | _ => ⟨S10000x128, .f32⟩

abbrev hbmTy0_1 (i : Nat) : BufTy := match i % 128 with
  | 0 => ⟨S100x128, .i1⟩
  | 1 => ⟨S_, .f32⟩
  | 2 => ⟨S100x128, .f32⟩
  | 3 => ⟨S100x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S1000x128, .f32⟩
  | .local _ .vmem, ⟨7, _⟩ => ⟨S1000x128, .f32⟩
  | .local _ .vmem, ⟨8, _⟩ => ⟨S1000x128, .bf16⟩
  | .local _ .vmem, ⟨9, _⟩ => ⟨S1000x128, .bf16⟩
  | .local _ .vmem, ⟨10, _⟩ => ⟨S8x128, .i32⟩
  | .local _ .vmem, ⟨11, _⟩ => ⟨S8x128, .i32⟩
  | .local _ .vmem, ⟨12, _⟩ => ⟨S8x128, .i32⟩
  | .local _ .vmem, ⟨13, _⟩ => ⟨S8x128, .i32⟩
  | .local _ .vmem, ⟨14, _⟩ => ⟨S8x128, .f32⟩
  | .local _ .vmem, ⟨15, _⟩ => ⟨S8x128, .f32⟩
  | .local _ .vmem, ⟨16, _⟩ => ⟨S10240x128, .bf16⟩
  | .local _ .vmem, ⟨17, _⟩ => ⟨S8x128, .f32⟩
  | .local _ .vmem, ⟨18, _⟩ => ⟨S8x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_v0 : Ref sig .tc := ⟨.hbm, 24, rfl⟩
abbrev main_call1_v1 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_call2_call0_c : Ref sig .tc := ⟨.hbm, 31, rfl⟩
abbrev main_call2_call0_v0 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_call3_call0_c : Ref sig .tc := ⟨.hbm, 47, rfl⟩
abbrev main_call3_call0_v0 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_call4_c : Ref sig .tc := ⟨.hbm, 53, rfl⟩
abbrev main_call4_v0 : Ref sig .tc := ⟨.hbm, 54, rfl⟩
abbrev main_call4_v1 : Ref sig .tc := ⟨.hbm, 55, rfl⟩
abbrev main_call4_c_0 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_call4_v5 : Ref sig .tc := ⟨.hbm, 60, rfl⟩
abbrev main_call4_c_1 : Ref sig .tc := ⟨.hbm, 61, rfl⟩
abbrev main_call4_c_2 : Ref sig .tc := ⟨.hbm, 62, rfl⟩
abbrev main_call4_v6 : Ref sig .tc := ⟨.hbm, 63, rfl⟩
abbrev main_call4_v7 : Ref sig .tc := ⟨.hbm, 64, rfl⟩
abbrev main_call4_v8 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_c_3 : Ref sig .tc := ⟨.hbm, 69, rfl⟩
abbrev main_call4_v12 : Ref sig .tc := ⟨.hbm, 70, rfl⟩
abbrev main_call4_v13 : Ref sig .tc := ⟨.hbm, 71, rfl⟩
abbrev main_call4_c_4 : Ref sig .tc := ⟨.hbm, 72, rfl⟩
abbrev main_call4_v14 : Ref sig .tc := ⟨.hbm, 73, rfl⟩
abbrev main_v27 : Ref sig .tc := ⟨.hbm, 74, rfl⟩
abbrev main_v28 : Ref sig .tc := ⟨.hbm, 75, rfl⟩
abbrev main_cst : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_7 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_8 : Ref sig .tc := ⟨.hbm, 84, rfl⟩
abbrev main_v35 : Ref sig .tc := ⟨.hbm, 85, rfl⟩
abbrev main_v36 : Ref sig .tc := ⟨.hbm, 86, rfl⟩
abbrev main_cst_9 : Ref sig .tc := ⟨.hbm, 87, rfl⟩
abbrev main_v37 : Ref sig .tc := ⟨.hbm, 88, rfl⟩
abbrev main_v38 : Ref sig .tc := ⟨.hbm, 89, rfl⟩
abbrev main_cst_10 : Ref sig .tc := ⟨.hbm, 90, rfl⟩
abbrev main_call5_v0 : Ref sig .tc := ⟨.hbm, 91, rfl⟩
abbrev main_call5_v1 : Ref sig .tc := ⟨.hbm, 92, rfl⟩
abbrev main_v39 : Ref sig .tc := ⟨.hbm, 93, rfl⟩
abbrev main_v40 : Ref sig .tc := ⟨.hbm, 94, rfl⟩
abbrev main_cst_11 : Ref sig .tc := ⟨.hbm, 95, rfl⟩
abbrev main_call6_v0 : Ref sig .tc := ⟨.hbm, 96, rfl⟩
abbrev main_call6_v1 : Ref sig .tc := ⟨.hbm, 97, rfl⟩
abbrev main_v41 : Ref sig .tc := ⟨.hbm, 98, rfl⟩
abbrev main_cst_12 : Ref sig .tc := ⟨.hbm, 99, rfl⟩
abbrev main_v42 : Ref sig .tc := ⟨.hbm, 100, rfl⟩
abbrev main_cst_13 : Ref sig .tc := ⟨.hbm, 101, rfl⟩
abbrev main_v43 : Ref sig .tc := ⟨.hbm, 102, rfl⟩
abbrev main_call7_call0_c : Ref sig .tc := ⟨.hbm, 103, rfl⟩
abbrev main_call7_call0_v0 : Ref sig .tc := ⟨.hbm, 104, rfl⟩
abbrev main_v44 : Ref sig .tc := ⟨.hbm, 105, rfl⟩
abbrev main_c_14 : Ref sig .tc := ⟨.hbm, 106, rfl⟩
abbrev main_v45 : Ref sig .tc := ⟨.hbm, 107, rfl⟩
abbrev main_v46 : Ref sig .tc := ⟨.hbm, 108, rfl⟩
abbrev main_call8_c : Ref sig .tc := ⟨.hbm, 109, rfl⟩
abbrev main_call8_v0 : Ref sig .tc := ⟨.hbm, 110, rfl⟩
abbrev main_call8_v1 : Ref sig .tc := ⟨.hbm, 111, rfl⟩
abbrev main_call8_c_0 : Ref sig .tc := ⟨.hbm, 112, rfl⟩
abbrev main_call8_v2 : Ref sig .tc := ⟨.hbm, 113, rfl⟩
abbrev main_call8_v3 : Ref sig .tc := ⟨.hbm, 114, rfl⟩
abbrev main_call8_v4 : Ref sig .tc := ⟨.hbm, 115, rfl⟩
abbrev main_call8_v5 : Ref sig .tc := ⟨.hbm, 116, rfl⟩
abbrev main_call8_c_1 : Ref sig .tc := ⟨.hbm, 117, rfl⟩
abbrev main_call8_c_2 : Ref sig .tc := ⟨.hbm, 118, rfl⟩
abbrev main_call8_v6 : Ref sig .tc := ⟨.hbm, 119, rfl⟩
abbrev main_call8_v7 : Ref sig .tc := ⟨.hbm, 120, rfl⟩
abbrev main_call8_v8 : Ref sig .tc := ⟨.hbm, 121, rfl⟩
abbrev main_call8_v9 : Ref sig .tc := ⟨.hbm, 122, rfl⟩
abbrev main_call8_v10 : Ref sig .tc := ⟨.hbm, 123, rfl⟩
abbrev main_call8_v11 : Ref sig .tc := ⟨.hbm, 124, rfl⟩
abbrev main_call8_c_3 : Ref sig .tc := ⟨.hbm, 125, rfl⟩
abbrev main_call8_v12 : Ref sig .tc := ⟨.hbm, 126, rfl⟩
abbrev main_call8_v13 : Ref sig .tc := ⟨.hbm, 127, rfl⟩
abbrev main_call8_v14 : Ref sig .tc := ⟨.hbm, 128, rfl⟩
abbrev main_call8_cst : Ref sig .tc := ⟨.hbm, 129, rfl⟩
abbrev main_call8_v15 : Ref sig .tc := ⟨.hbm, 130, rfl⟩
abbrev main_v47 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S10240x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S512_S1x512 : S512.ShapeCasts S1x512
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  packedbf16_S1000x128_S1000x128_0_0 : (Rect.unit (s := S1000x128) ![0, 0] S1000x128.size inb_S1000x128_S1000x128_0_0).PackedRows (EltTy.packing .bf16)
  pads_S10000x128_S10240x128_02400_000 : S10000x128.Pads (![0, 0] : Fin 2 → Nat) ![240, 0] ![0, 0] S10240x128
  h_S_ : 0 < S_.numel
  shapeCasts_S640000_S5000x128 : S640000.ShapeCasts S5000x128
  shapeCasts_S640000x1_S640000 : S640000x1.ShapeCasts S640000
  iota_S1x10240_d1_w32 : S1x10240.Iotas .tc 32 [1]
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S8x128_S1x128_0_0 : ∀ a, (![0, 0] : Fin 2 → Nat) a + S1x128.size a ≤ S8x128.size a
  transposes_S1x128_p1_0_S128x1 : S1x128.Transposes [1, 0] S128x1
  broadcasts_S128x1_S128x10240 : S128x1.Broadcasts S128x10240
  broadcasts_S1x10240_S128x10240 : S1x10240.Broadcasts S128x10240
  natLt_1_32 : 1 < 32
  reduces_S128x128_S128 : S128x128.Reduces [1] S128
  shapeCasts_S128_S128x1 : S128.ShapeCasts S128x1
  transposes_S128x1_p1_0_S1x128 : S128x1.Transposes [1, 0] S1x128
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  inb_S8x128_S1x128_4_0 : ∀ a, (![4, 0] : Fin 2 → Nat) a + S1x128.size a ≤ S8x128.size a
  inb_S8x128_S1x128_5_0 : ∀ a, (![5, 0] : Fin 2 → Nat) a + S1x128.size a ≤ S8x128.size a
  inb_S8x128_S1x128_6_0 : ∀ a, (![6, 0] : Fin 2 → Nat) a + S1x128.size a ≤ S8x128.size a
  inb_S8x128_S1x128_7_0 : ∀ a, (![7, 0] : Fin 2 → Nat) a + S1x128.size a ≤ S8x128.size a
  shapeCasts_S5000x128_S640000 : S5000x128.ShapeCasts S640000
  slices_S100_S1_99 : S100.Slices ![99] S1
  slices_S100_S99_0 : S100.Slices ![0] S99
  concatenates_S1_S99_S100_d0 : Shape.Concatenates [S1, S99] S100 0
  bcast_S_S1 : S_.BroadcastsInDim S1 (![] : Fin 0 → Fin S1.rank)
  bcast_S_S_ : S_.BroadcastsInDim S_ (![] : Fin 0 → Fin S_.rank)
  reduceWindows_S100_S100_w100s1p99_0 : S100.ReduceWindows (![100] : Fin 1 → Nat) ![1] ![99] ![0] S100
  bcast_S_S640000 : S_.BroadcastsInDim S640000 (![] : Fin 0 → Fin S640000.rank)
  bcast_S_S100 : S_.BroadcastsInDim S100 (![] : Fin 0 → Fin S100.rank)
  bcast_S100_S100x1_0 : S100.BroadcastsInDim S100x1 (![0] : Fin 1 → Fin S100x1.rank)
  reduceWindows_S640000_S640000_w640000s1p639999_0 : S640000.ReduceWindows (![640000] : Fin 1 → Nat) ![1] ![639999] ![0] S640000
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  reducesTo_S100_S_d0 : S100.ReducesTo [0] S_
  bcast_S_S100x1 : S_.BroadcastsInDim S100x1 (![] : Fin 0 → Fin S100x1.rank)
  bcast_S1x1_S100x1_0_1 : S1x1.BroadcastsInDim S100x1 (![0, 1] : Fin 2 → Fin S100x1.rank)
  reducesTo_S100x1_S100_d1 : S100x1.ReducesTo [1] S100
  bcast_S100_S100x128_0 : S100.BroadcastsInDim S100x128 (![0] : Fin 1 → Fin S100x128.rank)
  bcast_S_S100x128 : S_.BroadcastsInDim S100x128 (![] : Fin 0 → Fin S100x128.rank)
  dot_S1000x128_S128x512_S1000x512_1_0_0_1_n_n_wf : DotDims.WF S1000x128 S128x512 S1000x512 [1] [0] [0] [1] [] []
  dot_S1000x512_S512x128_S1000x128_1_0_0_1_n_n_wf : DotDims.WF S1000x512 S512x128 S1000x128 [1] [0] [0] [1] [] []
  dot_S128x10240_S10240x128_S128x128_1_0_0_1_n_n_wf : DotDims.WF S128x10240 S10240x128 S128x128 [1] [0] [0] [1] [] []
  scatter_S100_S1_S__n_0_0_0_wf : ScatterDims.WF S100 S1 S_ [] [0] [0] 0
  scatter_S640000_S100x1_S100_n_0_0_1_wf : ScatterDims.WF S640000 S100x1 S100 [] [0] [0] 1
  gather_S100_S640000x1_S640000_n_0_n_n_0_1_1_wf : GatherDims.WF S100 S640000x1 S640000 [] [0] [] [0] [] 1 ![1]
  scatter_S100_S640000x1_S640000_n_0_0_1_wf : ScatterDims.WF S100 S640000x1 S640000 [] [0] [0] 1
  gather_S10000x128_S100x1_S100x128_1_0_n_n_0_1_1128_wf : GatherDims.WF S10000x128 S100x1 S100x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S10000x128.size a
  hwx0_5 : ∀ i : grid0.Coords, EltTy.bits .f32 = 32 ∨ (Rect.block (s := S10000x128) S1000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S10000x128.size a
  hwx0_6 : ∀ i : grid0.Coords, EltTy.bits .bf16 = 32 ∨ (Rect.block (s := S10000x128) S1000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128.size a ≤ S5000x128.size a
  hwx1_0 : ∀ i : grid1.Coords, EltTy.bits .i32 = 32 ∨ (Rect.block (s := S5000x128) S8x128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S5000x128.size a
  hwx1_1 : ∀ i : grid1.Coords, EltTy.bits .i32 = 32 ∨ (Rect.block (s := S5000x128) S8x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S5000x128.size a
  hwx1_2 : ∀ i : grid1.Coords, EltTy.bits .f32 = 32 ∨ (Rect.block (s := S5000x128) S8x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10240x128.size a ≤ S10240x128.size a
  hwx1_3 : ∀ i : grid1.Coords, EltTy.bits .bf16 = 32 ∨ (Rect.block (s := S10240x128) S10240x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S5000x128.size a
  hwx1_4 : ∀ i : grid1.Coords, EltTy.bits .f32 = 32 ∨ (Rect.block (s := S5000x128) S8x128.size (cc1_transform_4 i) (hinb1_4 i)).WholeWords (EltTy.packing .f32)

variable [Facts₀]

def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def dot_S128x10240_S10240x128_S128x128_1_0_0_1_n_n : DotDims S128x10240 S10240x128 S128x128 where
  lhsContracting := [1]
  rhsContracting := [0]
  lhsNonContracting := [0]
  rhsNonContracting := [1]
  lhsBatch := []
  rhsBatch := []
  wf := dot_S128x10240_S10240x128_S128x128_1_0_0_1_n_n_wf
def scatter_S100_S1_S__n_0_0_0 : ScatterDims S100 S1 S_ where
  updateWindowDims := []
  insertedWindowDims := [0]
  scatterDimsToOperandDims := [0]
  indexVectorDim := 0
  wf := scatter_S100_S1_S__n_0_0_0_wf
def scatter_S640000_S100x1_S100_n_0_0_1 : ScatterDims S640000 S100x1 S100 where
  updateWindowDims := []
  insertedWindowDims := [0]
  scatterDimsToOperandDims := [0]
  indexVectorDim := 1
  wf := scatter_S640000_S100x1_S100_n_0_0_1_wf
def gather_S100_S640000x1_S640000_n_0_n_n_0_1_1 : GatherDims S100 S640000x1 S640000 where
  offsetDims := []
  collapsedSliceDims := [0]
  operandBatchingDims := []
  startIndicesBatchingDims := []
  startIndexMap := [0]
  indexVectorDim := 1
  sliceSizes := ![1]
  wf := gather_S100_S640000x1_S640000_n_0_n_n_0_1_1_wf
def scatter_S100_S640000x1_S640000_n_0_0_1 : ScatterDims S100 S640000x1 S640000 where
  updateWindowDims := []
  insertedWindowDims := [0]
  scatterDimsToOperandDims := [0]
  indexVectorDim := 1
  wf := scatter_S100_S640000x1_S640000_n_0_0_1_wf
def gather_S10000x128_S100x1_S100x128_1_0_n_n_0_1_1128 : GatherDims S10000x128 S100x1 S100x128 where
  offsetDims := [1]
  collapsedSliceDims := [0]
  operandBatchingDims := []
  startIndicesBatchingDims := []
  startIndexMap := [0]
  indexVectorDim := 1
  sliceSizes := ![1, 128]
  wf := gather_S10000x128_S100x1_S100x128_1_0_n_n_0_1_1128_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4) S8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10240x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000x1 : Shape := ⟨2, ![640000, 1]⟩
abbrev S640000 : Shape := ⟨1, ![640000]⟩
abbrev S100 : Shape := ⟨1, ![100]⟩
abbrev S128x512 : Shape := ⟨2, ![128, 512]⟩
abbrev S512 : Shape := ⟨1, ![512]⟩
abbrev S512x128 : Shape := ⟨2, ![512, 128]⟩
abbrev S128 : Shape := ⟨1, ![128]⟩
abbrev S1 : Shape := ⟨1, ![1]⟩
abbrev S99 : Shape := ⟨1, ![99]⟩
abbrev S_ : Shape := ⟨0, ![]⟩
abbrev S100x1 : Shape := ⟨2, ![100, 1]⟩
abbrev S1x1 : Shape := ⟨2, ![1, 1]⟩
abbrev S10000x512 : Shape := ⟨2, ![10000, 512]⟩
abbrev S1x512 : Shape := ⟨2, ![1, 512]⟩
abbrev S1x128 : Shape := ⟨2, ![1, 128]⟩
abbrev S640000x128 : Shape := ⟨2, ![640000, 128]⟩
abbrev S100x128 : Shape := ⟨2, ![100, 128]⟩

abbrev nBuf : Space → Nat
  | .hbm => 181
  | .vmem => 0
  | .smem => 0
  | _ => 0

abbrev hbmTy0_0 (i : Nat) : BufTy := match i % 128 with
  | 0 => ⟨S10000x128, .f32⟩
  | 1 => ⟨S640000x1, .f32⟩
  | 2 => ⟨S640000, .i32⟩
  | 3 => ⟨S640000, .i32⟩
  | 4 => ⟨S100, .i32⟩
  | 5 => ⟨S100, .i32⟩
  | 6 => ⟨S128x512, .f32⟩
  | 7 => ⟨S512, .f32⟩
  | 8 => ⟨S512x128, .f32⟩
  | 9 => ⟨S128, .f32⟩
  | 10 => ⟨S100, .i32⟩
  | 11 => ⟨S1, .i32⟩
  | 12 => ⟨S99, .i32⟩
  | 13 => ⟨S100, .i32⟩
  | 14 => ⟨S_, .i32⟩
  | 15 => ⟨S1, .i32⟩
  | 16 => ⟨S_, .i32⟩
  | 17 => ⟨S100, .i32⟩
  | 18 => ⟨S_, .i32⟩
  | 19 => ⟨S_, .i32⟩
  | 20 => ⟨S100, .i32⟩
  | 21 => ⟨S_, .i32⟩
  | 22 => ⟨S640000, .i32⟩
  | 23 => ⟨S_, .i32⟩
  | 24 => ⟨S100, .i32⟩
  | 25 => ⟨S100, .i1⟩
  | 26 => ⟨S_, .i32⟩
  | 27 => ⟨S100, .i32⟩
  | 28 => ⟨S100, .i32⟩
  | 29 => ⟨S100, .i32⟩
  | 30 => ⟨S100x1, .i32⟩
  | 31 => ⟨S_, .i32⟩
  | 32 => ⟨S100, .i32⟩
  | 33 => ⟨S640000, .i32⟩
  | 34 => ⟨S_, .i32⟩
  | 35 => ⟨S_, .i32⟩
  | 36 => ⟨S640000, .i32⟩
  | 37 => ⟨S_, .i32⟩
  | 38 => ⟨S640000, .i32⟩
  | 39 => ⟨S640000, .i32⟩
  | 40 => ⟨S_, .i32⟩
  | 41 => ⟨S640000, .i32⟩
  | 42 => ⟨S640000, .i1⟩
  | 43 => ⟨S_, .i32⟩
  | 44 => ⟨S640000, .i32⟩
  | 45 => ⟨S640000, .i32⟩
  | 46 => ⟨S640000, .i32⟩
  | 47 => ⟨S640000x1, .i32⟩
  | 48 => ⟨S1, .i32⟩
  | 49 => ⟨S_, .i32⟩
  | 50 => ⟨S640000x1, .i32⟩
  | 51 => ⟨S640000x1, .i1⟩
  | 52 => ⟨S1x1, .i32⟩
  | 53 => ⟨S640000x1, .i32⟩
  | 54 => ⟨S640000x1, .i1⟩
  | 55 => ⟨S640000x1, .i1⟩
  | 56 => ⟨S_, .i1⟩
  | 57 => ⟨S640000, .i1⟩
  | 58 => ⟨S640000, .i32⟩
  | 59 => ⟨S_, .i32⟩
  | 60 => ⟨S640000, .i32⟩
  | 61 => ⟨S640000, .i32⟩
  | 62 => ⟨S640000, .f32⟩
  | 63 => ⟨S_, .f32⟩
  | 64 => ⟨S100, .f32⟩
  | 65 => ⟨S640000x1, .i32⟩
  | 66 => ⟨S100, .f32⟩
  | 67 => ⟨S10000x512, .f32⟩
  | 68 => ⟨S1x512, .f32⟩
  | 69 => ⟨S10000x512, .f32⟩
  | 70 => ⟨S10000x512, .f32⟩
  | 71 => ⟨S_, .f32⟩
  | 72 => ⟨S10000x512, .f32⟩
  | 73 => ⟨S10000x512, .f32⟩
  | 74 => ⟨S10000x128, .f32⟩
  | 75 => ⟨S1x128, .f32⟩
  | 76 => ⟨S10000x128, .f32⟩
  | 77 => ⟨S10000x128, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S1, .i32⟩
  | 87 => ⟨S_, .i32⟩
  | 88 => ⟨S640000x1, .i32⟩
  | 89 => ⟨S640000x1, .i1⟩
  | 90 => ⟨S1x1, .i32⟩
  | 91 => ⟨S640000x1, .i32⟩
  | 92 => ⟨S640000x1, .i1⟩
  | 93 => ⟨S640000x1, .i1⟩
  | 94 => ⟨S_, .i1⟩
  | 95 => ⟨S640000, .i1⟩
  | 96 => ⟨S640000x128, .f32⟩
  | 97 => ⟨S640000x128, .i1⟩
  | 98 => ⟨S_, .f32⟩
  | 99 => ⟨S640000x128, .f32⟩
  | 100 => ⟨S640000x128, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S1, .i32⟩
  | 110 => ⟨S_, .i32⟩
  | 111 => ⟨S640000x1, .i32⟩
  | 112 => ⟨S640000x1, .i1⟩
  | 113 => ⟨S1x1, .i32⟩
  | 114 => ⟨S640000x1, .i32⟩
  | 115 => ⟨S640000x1, .i1⟩
  | 116 => ⟨S640000x1, .i1⟩
  | 117 => ⟨S_, .i1⟩
  | 118 => ⟨S640000, .i1⟩
  | 119 => ⟨S640000x128, .f32⟩
  | 120 => ⟨S640000x128, .i1⟩
  | 121 => ⟨S_, .f32⟩
  | 122 => ⟨S640000x128, .f32⟩
  | 123 => ⟨S640000x128, .f32⟩
  | 124 => ⟨S640000x128, .f32⟩
  | 125 => ⟨S640000x128, .f32⟩
  | 126 => ⟨S_, .f32⟩
  | 127 => ⟨S640000, .f32⟩
  | _ => ⟨S10000x128, .f32⟩

abbrev hbmTy0_1 (i : Nat) : BufTy := match i % 128 with
  | 0 => ⟨S640000, .f32⟩
  | 1 => ⟨S_, .f32⟩
  | 2 => ⟨S100, .f32⟩
  | 3 => ⟨S640000x1, .i32⟩
  | 4 => ⟨S100, .f32⟩
  | 5 => ⟨S_, .f32⟩
  | 6 => ⟨S100, .f32⟩
  | 7 => ⟨S100, .i1⟩
  | 8 => ⟨S_, .f32⟩
  | 9 => ⟨S100, .f32⟩
  | 10 => ⟨S100, .i1⟩
  | 11 => ⟨S_, .f32⟩
  | 12 => ⟨S_, .f32⟩
  | 13 => ⟨S100, .f32⟩
  | 14 => ⟨S100, .f32⟩
  | 15 => ⟨S100, .f32⟩
  | 16 => ⟨S_, .f32⟩
  | 17 => ⟨S_, .f32⟩
  | 18 => ⟨S100, .f32⟩
  | 19 => ⟨S100, .f32⟩
  | 20 => ⟨S_, .f32⟩
  | 21 => ⟨S_, .f32⟩
  | 22 => ⟨S_, .f32⟩
  | 23 => ⟨S_, .f32⟩
  | 24 => ⟨S_, .i32⟩
  | 25 => ⟨S_, .i32⟩
  | 26 => ⟨S100, .i32⟩
  | 27 => ⟨S_, .i32⟩
  | 28 => ⟨S100, .i32⟩
  | 29 => ⟨S100, .i32⟩
  | 30 => ⟨S_, .i32⟩
  | 31 => ⟨S100, .i32⟩
  | 32 => ⟨S100, .i1⟩
  | 33 => ⟨S_, .i32⟩
  | 34 => ⟨S100, .i32⟩
  | 35 => ⟨S100, .i32⟩
  | 36 => ⟨S100, .i32⟩
  | 37 => ⟨S100x1, .i32⟩
  | 38 => ⟨S1, .i32⟩
  | 39 => ⟨S_, .i32⟩
  | 40 => ⟨S100x1, .i32⟩
  | 41 => ⟨S100x1, .i1⟩
  | 42 => ⟨S1x1, .i32⟩
  | 43 => ⟨S100x1, .i32⟩
  | 44 => ⟨S100x1, .i1⟩
  | 45 => ⟨S100x1, .i1⟩
  | 46 => ⟨S_, .i1⟩
  | 47 => ⟨S100, .i1⟩
  | 48 => ⟨S100x128, .f32⟩
  | 49 => ⟨S100x128, .i1⟩
  | 50 => ⟨S_, .f32⟩
  | 51 => ⟨S100x128, .f32⟩
  | 52 => ⟨S100x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_call1_call0_c : Ref sig .tc := ⟨.hbm, 18, rfl⟩
abbrev main_call1_call0_v0 : Ref sig .tc := ⟨.hbm, 19, rfl⟩
abbrev main_v4 : Ref sig .tc := ⟨.hbm, 20, rfl⟩
abbrev main_c_1 : Ref sig .tc := ⟨.hbm, 21, rfl⟩
abbrev main_v5 : Ref sig .tc := ⟨.hbm, 22, rfl⟩
abbrev main_c_2 : Ref sig .tc := ⟨.hbm, 23, rfl⟩
abbrev main_v6 : Ref sig .tc := ⟨.hbm, 24, rfl⟩
abbrev main_v7 : Ref sig .tc := ⟨.hbm, 25, rfl⟩
abbrev main_c_3 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_4 : Ref sig .tc := ⟨.hbm, 31, rfl⟩
abbrev main_v12 : Ref sig .tc := ⟨.hbm, 32, rfl⟩
abbrev main_v13 : Ref sig .tc := ⟨.hbm, 33, rfl⟩
abbrev main_call2_call0_c : Ref sig .tc := ⟨.hbm, 34, rfl⟩
abbrev main_call2_call0_v0 : Ref sig .tc := ⟨.hbm, 35, rfl⟩
abbrev main_v14 : Ref sig .tc := ⟨.hbm, 36, rfl⟩
abbrev main_c_5 : Ref sig .tc := ⟨.hbm, 37, rfl⟩
abbrev main_v15 : Ref sig .tc := ⟨.hbm, 38, rfl⟩
abbrev main_v16 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_c_1 : Ref sig .tc := ⟨.hbm, 48, rfl⟩
abbrev main_call3_c_2 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_c_3 : Ref sig .tc := ⟨.hbm, 56, rfl⟩
abbrev main_call3_v12 : Ref sig .tc := ⟨.hbm, 57, rfl⟩
abbrev main_call3_v13 : Ref sig .tc := ⟨.hbm, 58, rfl⟩
abbrev main_call3_c_4 : Ref sig .tc := ⟨.hbm, 59, rfl⟩
abbrev main_call3_v14 : Ref sig .tc := ⟨.hbm, 60, rfl⟩
abbrev main_v17 : Ref sig .tc := ⟨.hbm, 61, rfl⟩
abbrev main_v18 : Ref sig .tc := ⟨.hbm, 62, rfl⟩
abbrev main_cst : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_call4_cst : Ref sig .tc := ⟨.hbm, 71, rfl⟩
abbrev main_call4_v0 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_call5_c : Ref sig .tc := ⟨.hbm, 78, rfl⟩
abbrev main_call5_v0 : Ref sig .tc := ⟨.hbm, 79, rfl⟩
abbrev main_call5_v1 : Ref sig .tc := ⟨.hbm, 80, rfl⟩
abbrev main_call5_c_0 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_call5_v5 : Ref sig .tc := ⟨.hbm, 85, rfl⟩
abbrev main_call5_c_1 : Ref sig .tc := ⟨.hbm, 86, rfl⟩
abbrev main_call5_c_2 : Ref sig .tc := ⟨.hbm, 87, rfl⟩
abbrev main_call5_v6 : Ref sig .tc := ⟨.hbm, 88, rfl⟩
abbrev main_call5_v7 : Ref sig .tc := ⟨.hbm, 89, rfl⟩
abbrev main_call5_v8 : Ref sig .tc := ⟨.hbm, 90, rfl⟩
abbrev main_call5_v9 : Ref sig .tc := ⟨.hbm, 91, rfl⟩
abbrev main_call5_v10 : Ref sig .tc := ⟨.hbm, 92, rfl⟩
abbrev main_call5_v11 : Ref sig .tc := ⟨.hbm, 93, rfl⟩
abbrev main_call5_c_3 : Ref sig .tc := ⟨.hbm, 94, rfl⟩
abbrev main_call5_v12 : Ref sig .tc := ⟨.hbm, 95, rfl⟩
abbrev main_call5_v13 : Ref sig .tc := ⟨.hbm, 96, rfl⟩
abbrev main_call5_v14 : Ref sig .tc := ⟨.hbm, 97, rfl⟩
abbrev main_call5_cst : Ref sig .tc := ⟨.hbm, 98, rfl⟩
abbrev main_call5_v15 : Ref sig .tc := ⟨.hbm, 99, rfl⟩
abbrev main_v31 : Ref sig .tc := ⟨.hbm, 100, rfl⟩
abbrev main_call6_c : Ref sig .tc := ⟨.hbm, 101, rfl⟩
abbrev main_call6_v0 : Ref sig .tc := ⟨.hbm, 102, rfl⟩
abbrev main_call6_v1 : Ref sig .tc := ⟨.hbm, 103, rfl⟩
abbrev main_call6_c_0 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_call6_v5 : Ref sig .tc := ⟨.hbm, 108, rfl⟩
abbrev main_call6_c_1 : Ref sig .tc := ⟨.hbm, 109, rfl⟩
abbrev main_call6_c_2 : Ref sig .tc := ⟨.hbm, 110, rfl⟩
abbrev main_call6_v6 : Ref sig .tc := ⟨.hbm, 111, rfl⟩
abbrev main_call6_v7 : Ref sig .tc := ⟨.hbm, 112, rfl⟩
abbrev main_call6_v8 : Ref sig .tc := ⟨.hbm, 113, rfl⟩
abbrev main_call6_v9 : Ref sig .tc := ⟨.hbm, 114, rfl⟩
abbrev main_call6_v10 : Ref sig .tc := ⟨.hbm, 115, rfl⟩
abbrev main_call6_v11 : Ref sig .tc := ⟨.hbm, 116, rfl⟩
abbrev main_call6_c_3 : Ref sig .tc := ⟨.hbm, 117, rfl⟩
abbrev main_call6_v12 : Ref sig .tc := ⟨.hbm, 118, rfl⟩
abbrev main_call6_v13 : Ref sig .tc := ⟨.hbm, 119, rfl⟩
abbrev main_call6_v14 : Ref sig .tc := ⟨.hbm, 120, rfl⟩
abbrev main_call6_cst : Ref sig .tc := ⟨.hbm, 121, rfl⟩
abbrev main_call6_v15 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_cst_6 : Ref sig .tc := ⟨.hbm, 126, rfl⟩
abbrev main_v35 : Ref sig .tc := ⟨.hbm, 127, rfl⟩
abbrev main_v36 : Ref sig .tc := ⟨.hbm, 128, rfl⟩
abbrev main_cst_7 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_v40 : Ref sig .tc := ⟨.hbm, 134, rfl⟩
abbrev main_v41 : Ref sig .tc := ⟨.hbm, 135, rfl⟩
abbrev main_cst_9 : Ref sig .tc := ⟨.hbm, 136, rfl⟩
abbrev main_v42 : Ref sig .tc := ⟨.hbm, 137, rfl⟩
abbrev main_v43 : Ref sig .tc := ⟨.hbm, 138, rfl⟩
abbrev main_cst_10 : Ref sig .tc := ⟨.hbm, 139, rfl⟩
abbrev main_call7_v0 : Ref sig .tc := ⟨.hbm, 140, rfl⟩
abbrev main_call7_v1 : Ref sig .tc := ⟨.hbm, 141, rfl⟩
abbrev main_v44 : Ref sig .tc := ⟨.hbm, 142, rfl⟩
abbrev main_v45 : Ref sig .tc := ⟨.hbm, 143, rfl⟩
abbrev main_cst_11 : Ref sig .tc := ⟨.hbm, 144, rfl⟩
abbrev main_call8_v0 : Ref sig .tc := ⟨.hbm, 145, rfl⟩
abbrev main_call8_v1 : Ref sig .tc := ⟨.hbm, 146, rfl⟩
abbrev main_v46 : Ref sig .tc := ⟨.hbm, 147, rfl⟩
abbrev main_cst_12 : Ref sig .tc := ⟨.hbm, 148, rfl⟩
abbrev main_v47 : Ref sig .tc := ⟨.hbm, 149, rfl⟩
abbrev main_cst_13 : Ref sig .tc := ⟨.hbm, 150, rfl⟩
abbrev main_v48 : Ref sig .tc := ⟨.hbm, 151, rfl⟩
abbrev main_call9_call0_c : Ref sig .tc := ⟨.hbm, 152, rfl⟩
abbrev main_call9_call0_v0 : Ref sig .tc := ⟨.hbm, 153, rfl⟩
abbrev main_v49 : Ref sig .tc := ⟨.hbm, 154, rfl⟩
abbrev main_c_14 : Ref sig .tc := ⟨.hbm, 155, rfl⟩
abbrev main_v50 : Ref sig .tc := ⟨.hbm, 156, rfl⟩
abbrev main_v51 : Ref sig .tc := ⟨.hbm, 157, rfl⟩
abbrev main_call10_c : Ref sig .tc := ⟨.hbm, 158, rfl⟩
abbrev main_call10_v0 : Ref sig .tc := ⟨.hbm, 159, rfl⟩
abbrev main_call10_v1 : Ref sig .tc := ⟨.hbm, 160, rfl⟩
abbrev main_call10_c_0 : Ref sig .tc := ⟨.hbm, 161, rfl⟩
abbrev main_call10_v2 : Ref sig .tc := ⟨.hbm, 162, rfl⟩
abbrev main_call10_v3 : Ref sig .tc := ⟨.hbm, 163, rfl⟩
abbrev main_call10_v4 : Ref sig .tc := ⟨.hbm, 164, rfl⟩
abbrev main_call10_v5 : Ref sig .tc := ⟨.hbm, 165, rfl⟩
abbrev main_call10_c_1 : Ref sig .tc := ⟨.hbm, 166, rfl⟩
abbrev main_call10_c_2 : Ref sig .tc := ⟨.hbm, 167, rfl⟩
abbrev main_call10_v6 : Ref sig .tc := ⟨.hbm, 168, rfl⟩
abbrev main_call10_v7 : Ref sig .tc := ⟨.hbm, 169, rfl⟩
abbrev main_call10_v8 : Ref sig .tc := ⟨.hbm, 170, rfl⟩
abbrev main_call10_v9 : Ref sig .tc := ⟨.hbm, 171, rfl⟩
abbrev main_call10_v10 : Ref sig .tc := ⟨.hbm, 172, rfl⟩
abbrev main_call10_v11 : Ref sig .tc := ⟨.hbm, 173, rfl⟩
abbrev main_call10_c_3 : Ref sig .tc := ⟨.hbm, 174, rfl⟩
abbrev main_call10_v12 : Ref sig .tc := ⟨.hbm, 175, rfl⟩
abbrev main_call10_v13 : Ref sig .tc := ⟨.hbm, 176, rfl⟩
abbrev main_call10_v14 : Ref sig .tc := ⟨.hbm, 177, rfl⟩
abbrev main_call10_cst : Ref sig .tc := ⟨.hbm, 178, rfl⟩
abbrev main_call10_v15 : Ref sig .tc := ⟨.hbm, 179, rfl⟩
abbrev main_v52 : Ref sig .tc := ⟨.hbm, 180, rfl⟩

abbrev nD : Nat := 1
abbrev τ : Topo := Topo.v7x

variable {F : FTy → Type} [FloatOps F]

class Facts₀ : Prop where
  slices_S100_S1_99 : S100.Slices ![99] S1
  slices_S100_S99_0 : S100.Slices ![0] S99
  concatenates_S1_S99_S100_d0 : Shape.Concatenates [S1, S99] S100 0
  bcast_S_S1 : S_.BroadcastsInDim S1 (![] : Fin 0 → Fin S1.rank)
  bcast_S_S_ : S_.BroadcastsInDim S_ (![] : Fin 0 → Fin S_.rank)
  reduceWindows_S100_S100_w100s1p99_0 : S100.ReduceWindows (![100] : Fin 1 → Nat) ![1] ![99] ![0] S100
  h_S_ : 0 < S_.numel
  bcast_S_S640000 : S_.BroadcastsInDim S640000 (![] : Fin 0 → Fin S640000.rank)
  bcast_S_S100 : S_.BroadcastsInDim S100 (![] : Fin 0 → Fin S100.rank)
  bcast_S100_S100x1_0 : S100.BroadcastsInDim S100x1 (![0] : Fin 1 → Fin S100x1.rank)
  reduceWindows_S640000_S640000_w640000s1p639999_0 : S640000.ReduceWindows (![640000] : Fin 1 → Nat) ![1] ![639999] ![0] S640000
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  shapeCasts_S640000x1_S640000 : S640000x1.ShapeCasts S640000
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S640000_S640000x128_0 : S640000.BroadcastsInDim S640000x128 (![0] : Fin 1 → Fin S640000x128.rank)
  bcast_S_S640000x128 : S_.BroadcastsInDim S640000x128 (![] : Fin 0 → Fin S640000x128.rank)
  reducesTo_S640000x128_S640000_d1 : S640000x128.ReducesTo [1] S640000
  reducesTo_S100_S_d0 : S100.ReducesTo [0] S_
  bcast_S_S100x1 : S_.BroadcastsInDim S100x1 (![] : Fin 0 → Fin S100x1.rank)
  bcast_S1x1_S100x1_0_1 : S1x1.BroadcastsInDim S100x1 (![0, 1] : Fin 2 → Fin S100x1.rank)
  reducesTo_S100x1_S100_d1 : S100x1.ReducesTo [1] S100
  bcast_S100_S100x128_0 : S100.BroadcastsInDim S100x128 (![0] : Fin 1 → Fin S100x128.rank)
  bcast_S_S100x128 : S_.BroadcastsInDim S100x128 (![] : Fin 0 → Fin S100x128.rank)
  scatter_S100_S1_S__n_0_0_0_wf : ScatterDims.WF S100 S1 S_ [] [0] [0] 0
  scatter_S640000_S100x1_S100_n_0_0_1_wf : ScatterDims.WF S640000 S100x1 S100 [] [0] [0] 1
  gather_S100_S640000x1_S640000_n_0_n_n_0_1_1_wf : GatherDims.WF S100 S640000x1 S640000 [] [0] [] [0] [] 1 ![1]
  scatter_S100_S640000x1_S640000_n_0_0_1_wf : ScatterDims.WF S100 S640000x1 S640000 [] [0] [0] 1
  dot_S10000x128_S128x512_S10000x512_1_0_0_1_n_n_wf : DotDims.WF S10000x128 S128x512 S10000x512 [1] [0] [0] [1] [] []
  dot_S10000x512_S512x128_S10000x128_1_0_0_1_n_n_wf : DotDims.WF S10000x512 S512x128 S10000x128 [1] [0] [0] [1] [] []
  gather_S10000x128_S640000x1_S640000x128_1_0_n_n_0_1_1128_wf : GatherDims.WF S10000x128 S640000x1 S640000x128 [1] [0] [] [0] [] 1 ![1, 128]
  gather_S10000x128_S100x1_S100x128_1_0_n_n_0_1_1128_wf : GatherDims.WF S10000x128 S100x1 S100x128 [1] [0] [] [0] [] 1 ![1, 128]

variable [Facts₀]

def scatter_S100_S1_S__n_0_0_0 : ScatterDims S100 S1 S_ where
  updateWindowDims := []
  insertedWindowDims := [0]
  scatterDimsToOperandDims := [0]
  indexVectorDim := 0
  wf := scatter_S100_S1_S__n_0_0_0_wf
def scatter_S640000_S100x1_S100_n_0_0_1 : ScatterDims S640000 S100x1 S100 where
  updateWindowDims := []
  insertedWindowDims := [0]
  scatterDimsToOperandDims := [0]
  indexVectorDim := 1
  wf := scatter_S640000_S100x1_S100_n_0_0_1_wf
def gather_S100_S640000x1_S640000_n_0_n_n_0_1_1 : GatherDims S100 S640000x1 S640000 where
  offsetDims := []
  collapsedSliceDims := [0]
  operandBatchingDims := []
  startIndicesBatchingDims := []
  startIndexMap := [0]
  indexVectorDim := 1
  sliceSizes := ![1]
  wf := gather_S100_S640000x1_S640000_n_0_n_n_0_1_1_wf
def scatter_S100_S640000x1_S640000_n_0_0_1 : ScatterDims S100 S640000x1 S640000 where
  updateWindowDims := []
  insertedWindowDims := [0]
  scatterDimsToOperandDims := [0]
  indexVectorDim := 1
  wf := scatter_S100_S640000x1_S640000_n_0_0_1_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def gather_S10000x128_S100x1_S100x128_1_0_n_n_0_1_1128 : GatherDims S10000x128 S100x1 S100x128 where
  offsetDims := [1]
  collapsedSliceDims := [0]
  operandBatchingDims := []
  startIndicesBatchingDims := []
  startIndexMap := [0]
  indexVectorDim := 1
  sliceSizes := ![1, 128]
  wf := gather_S10000x128_S100x1_S100x128_1_0_n_n_0_1_1128_wf

class Facts : Prop extends Facts₀ where

variable [Facts]
-- ==== Proof.Spec.lean ====
/-
  What both programs compute, written once over plain functions of indices, on the extended reals.

  A graph has 10000 nodes with 128 features each and 640000 edges. Every node's features pass through a
  two-layer perceptron (`mlp`): a 128 → 512 affine map, the positive part, a 512 → 128 affine map. Every
  edge then carries its weight times the squared Euclidean distance between the perceptron's rows at its
  sender and at its receiver (`edge`). A row is looked up by a 32-bit word (`look`): the row of that
  number when the number is below the table's height, and the zero row otherwise — which is what a sum
  against a one-hot indicator over the table's rows gives, and what a gather gives when the word is in range.
-/
import Idealize.ShloMosaic.PureOps.Ideal
import Idealize.ShloMosaic.Lib.ValueIdx
import Mathlib.Algebra.BigOperators.Fin

noncomputable section

namespace Cert.Spec

open Idealize.ShloMosaic

/-- Every entry of a two-index table is a real number (not an infinity). -/
def Real2 {α β : Type} (f : α → β → EReal) : Prop := ∀ a b, ∃ r : ℝ, f a b = (r : EReal)

/-- Every entry of a one-index table is a real number. -/
def Real1 {α : Type} (f : α → EReal) : Prop := ∀ a, ∃ r : ℝ, f a = (r : EReal)

/-- The hidden layer: row `p` of `x` against column `k` of `w1`, plus the bias, positive part. -/
def hidden (x : Fin 10000 → Fin 128 → EReal) (w1 : Fin 128 → Fin 512 → EReal) (b1 : Fin 512 → EReal)
    (p : Fin 10000) (k : Fin 512) : EReal :=
  max ((∑ j : Fin 128, x p j * w1 j k) + b1 k) 0

/-- The perceptron's output at node `p`, feature `q`. -/
def mlp (x : Fin 10000 → Fin 128 → EReal) (w1 : Fin 128 → Fin 512 → EReal) (b1 : Fin 512 → EReal)
    (w2 : Fin 512 → Fin 128 → EReal) (b2 : Fin 128 → EReal) (p : Fin 10000) (q : Fin 128) : EReal :=
  (∑ k : Fin 512, hidden x w1 b1 p k * w2 k q) + b2 q

/-- Row `v` of a table of `N` rows, read by a 32-bit word: the zero row when the word is `N` or more. -/
def look {N : ℕ} (g : Fin N → Fin 128 → EReal) (v : BitVec 32) (d : Fin 128) : EReal :=
  if hv : v.toNat < N then g ⟨v.toNat, hv⟩ d else 0

/-- Edge `e`'s output: its weight times the squared distance between its sender's and its receiver's rows. -/
def edge {N : ℕ} (g : Fin N → Fin 128 → EReal) (s r : Fin 640000 → BitVec 32) (w : Fin 640000 → EReal)
    (e : Fin 640000) : EReal :=
  w e * ∑ d : Fin 128, (look g (s e) d - look g (r e) d) * (look g (s e) d - look g (r e) d)

/-- A table padded with zero rows below looks up the same. -/
theorem look_pad {N M : ℕ} (hNM : N ≤ M) (g : Fin N → Fin 128 → EReal) (gp : Fin M → Fin 128 → EReal)
    (hlo : ∀ (n : Fin M) (hn : n.val < N) d, gp n d = g ⟨n.val, hn⟩ d)
    (hhi : ∀ (n : Fin M), N ≤ n.val → ∀ d, gp n d = 0) (v : BitVec 32) (d : Fin 128) :
    look gp v d = look g v d := by
  unfold look
  by_cases hv : v.toNat < N
  · have hv' : v.toNat < M := lt_of_lt_of_le hv hNM
    rw [dif_pos hv', dif_pos hv]; exact hlo ⟨v.toNat, hv'⟩ hv d
  · rw [dif_neg hv]
    by_cases hv' : v.toNat < M
    · rw [dif_pos hv']; exact hhi ⟨v.toNat, hv'⟩ (Nat.le_of_not_lt hv) d
    · rw [dif_neg hv']

end Cert.Spec

end
-- ==== Proof.PreDecode.lean ====
/-
  What the precondition says, read back into plain facts about the ten inputs.

  The precondition is one truth value: the conjunction of ten "for all entries" tests. Six of them say, of one
  floating-point input each (the node features, the edge weights, the two weight matrices and the two bias
  vectors of the perceptron), that the absolute value of every entry lies strictly below plus infinity. On the
  extended reals that is exactly: every entry is a real number, neither infinity. The other four say, of the
  sender words and of the receiver words, that every word is at least 0 and below 10000 when read as a signed
  32-bit number. A signed word that is at least 0 has its top bit clear, so it reads the same unsigned; and then
  "below 10000 signed" is "below 10000 as a natural number".

  A conjunction of bits that equals 1 has every conjunct equal to 1; an "and" over all entries of a table of
  bits that equals 1 has every entry equal to 1. So the single hypothesis splits into the ten tests, each test
  into its entries, and each entry into the fact above.
-/
import proofs.«426342_j11098195493609_3_alg».proof.Proof.Gen.Pre_finite_inputs
import proofs.«426342_j11098195493609_3_alg».proof.Proof.Spec
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

/-- The empty shape has exactly one index. -/
instance : Subsingleton S_.Idx := ⟨fun _ _ => funext fun d => d.elim0⟩

/-- An extended real whose absolute value lies strictly below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 denotes the top element. -/
theorem inf_pattern : Ideal.ofBits .f32 0x7F800000#32 = (⊤ : EReal) := by
  simp [Ideal.ofBits, Ideal.ieee]

/-- One entry of the mask `|x| < +inf` being set says that entry of `x` is a real number. -/
theorem real_of_mask {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  apply real_of_abs_lt_top
  have h' : Ideal.cmp .olt (max (x i) (-(x i))) (Ideal.ofBits .f32 0x7F800000#32) = 1#1 := h
  rw [inf_pattern] at h'
  unfold Ideal.cmp at h'
  rw [StableHlo.Predicate.ofBool_eq_one_iff] at h'
  exact of_decide_eq_true h'

/-- `jnp.all (|x| < +inf)` being true says every entry of `x` is a real number. -/
theorem real_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf x) (broadcastInDim s ![] hb (constant (F := Ideal) S_ .f32 0x7F800000#32)))
      init hr hu ix0 = 1#1) (i : s.Idx) : ∃ r : ℝ, x i = (r : EReal) :=
  real_of_mask x hb i (Host.reduce_andi_all _ init hr hu ix0 e i)

/-- A 32-bit word that is at least 0 and below 10000 as a signed number is below 10000 as a natural number. -/
theorem toNat_lt_of_signed (w : BitVec 32) (h0 : IntOp.cmpi .sge w 0#32 = 1#1) (h1 : IntOp.cmpi .slt w 10000#32 = 1#1) :
    w.toNat < 10000 := by
  have hlt : w.toNat < 2 ^ 31 := by
    by_contra hc
    have hm : w.msb = true := by
      rw [BitVec.msb_eq_true_iff_two_mul_ge]; omega
    unfold IntOp.cmpi at h0
    rw [StableHlo.Predicate.ofBool_eq_one_iff] at h0
    have h0' : (0#32 : BitVec 32).toInt ≤ w.toInt := by simpa [BitVec.sle] using h0
    have hz : (0#32 : BitVec 32).toInt = 0 := by decide
    rw [hz, BitVec.toInt_eq_msb_cond, hm] at h0'
    have := w.isLt
    simp at h0'
    omega
  exact (StableHlo.Predicate.slt_iff_toNat hlt (by decide)).1 h1

/-- The two range masks of an index vector being all true says every word is below 10000. -/
theorem range_of_all {s : Shape} {axes : List (Fin s.rank)} (v : IVec s 32)
    (hb : S_.BroadcastsInDim s (![] : Fin 0 → Fin s.rank)) (hr : s.ReducesTo axes S_) (hu : 0 < S_.numel) (i0 i1 : IVec S_ 1)
    (e0 : Host.reduce IntOp.andi (cmpi .sge v (broadcastInDim s ![] hb (constantI S_ 32 0#32))) i0 hr hu ix0 = 1#1)
    (e1 : Host.reduce IntOp.andi (cmpi .slt v (broadcastInDim s ![] hb (constantI S_ 32 10000#32))) i1 hr hu ix0 = 1#1)
    (i : s.Idx) : (v i).toNat < 10000 :=
  toNat_lt_of_signed (v i) (Host.reduce_andi_all _ i0 hr hu ix0 e0 i) (Host.reduce_andi_all _ i1 hr hu ix0 e1 i)

/-- THE PRECONDITION DECODED: every floating-point input is a table of real numbers, and every sender and
    every receiver word is below 10000. -/
theorem decode (a0 : FVec Ideal S10000x128 .f32) (a1 : FVec Ideal S640000x1 .f32) (a2 a3 : IVec S640000 32)
    (a4 a5 : IVec S100 32) (a6 : FVec Ideal S128x512 .f32) (a7 : FVec Ideal S512 .f32) (a8 : FVec Ideal S512x128 .f32)
    (a9 : FVec Ideal S128 .f32)
    (h : Cert.Pre_finite_inputs.fn (F := Ideal) a0 a1 a2 a3 a4 a5 a6 a7 a8 a9 = (fun _ => 1#1)) :
    Cert.Spec.Real2 (fun (p : Fin 10000) (q : Fin 128) => a0 (ix2 p q))
      ∧ Cert.Spec.Real2 (fun (e : Fin 640000) (z : Fin 1) => a1 (ix2 e z))
      ∧ Cert.Spec.Real2 (fun (j : Fin 128) (k : Fin 512) => a6 (ix2 j k))
      ∧ Cert.Spec.Real1 (fun (k : Fin 512) => a7 (ix1 k))
      ∧ Cert.Spec.Real2 (fun (k : Fin 512) (q : Fin 128) => a8 (ix2 k q))
      ∧ Cert.Spec.Real1 (fun (q : Fin 128) => a9 (ix1 q))
      ∧ (∀ e : Fin 640000, (a2 (ix1 e)).toNat < 10000)
      ∧ (∀ e : Fin 640000, (a3 (ix1 e)).toNat < 10000) := by
  -- the one truth value, written out as the conjunction of the ten tests
  have e := congrFun h ix0
  dsimp only [Cert.Pre_finite_inputs.fn, Cert.Pre_finite_inputs.fn_part1, Cert.Pre_finite_inputs.fn_part2] at e
  -- a conjunction of bits that is 1: each of the ten tests is 1
  simp only [andi, IntOp.andi_eq_one] at e
  obtain ⟨⟨⟨⟨⟨⟨⟨⟨⟨h0, h1⟩, h6⟩, h7⟩, h8⟩, h9⟩, h2lo⟩, h2hi⟩, h3lo⟩, h3hi⟩ := e
  refine ⟨?_, ?_, ?_, ?_, ?_, ?_, ?_, ?_⟩
  · intro p q; exact real_of_all a0 _ _ _ _ h0 (ix2 p q)
  · intro p q; exact real_of_all a1 _ _ _ _ h1 (ix2 p q)
  · intro p q; exact real_of_all a6 _ _ _ _ h6 (ix2 p q)
  · intro k; exact real_of_all a7 _ _ _ _ h7 (ix1 k)
  · intro p q; exact real_of_all a8 _ _ _ _ h8 (ix2 p q)
  · intro k; exact real_of_all a9 _ _ _ _ h9 (ix1 k)
  · intro e; exact range_of_all a2 _ _ _ _ _ h2lo h2hi (ix1 e)
  · intro e; exact range_of_all a3 _ _ _ _ _ h3lo h3hi (ix1 e)

end Cert.PreDecode

end
-- ==== Proof.TailDefs.lean ====
/-
  The last stretch of both programs, as two functions of what it reads.

  After the two device computations both programs run the same chain of array operations. From the
  per-graph edge counts it makes, for every one of the 640000 edges, the number of the graph the edge
  belongs to: the counts are rotated by one place and their first place zeroed, running sums give each
  graph's first edge, a one is added at each such edge, running sums again count the graphs begun so
  far, one is subtracted, and the numbers 0 … 99 are looked up at the result. With these graph numbers
  the edge weights and the edge outputs are summed per graph; where a graph's weight sum is not zero
  its output sum is divided by it, elsewhere zero is taken, and the loss is the mean of these hundred
  quotients. From the per-graph node counts it takes running sums less one, the last node of every
  graph, and looks the perceptron's rows up there.

  `lossOf` and `nodeOf` are these two chains written once, operation by operation, over the shapes and
  shape relations of the first program. Nothing that uses them opens an operation.
-/
import proofs.«426342_j11098195493609_3_alg».proof.Proof.Gen.KernelIdeal
import Idealize.ShloMosaic.Lib.StableHlo.Run
import Idealize.ShloMosaic.PureOps.Ideal

set_option maxRecDepth 16384

noncomputable section

namespace Cert.Tail

open Idealize.ShloMosaic Idealize.ShloMosaic.StableHlo Idealize.SL.Sem
open Cert.KernelIdeal Cert.KernelIdeal.Facts₀ Cert.KernelIdeal.Facts

/-- The contents of an array of shape `s` and element type `e`, floats being extended reals. -/
abbrev T (s : Shape) (e : EltTy) : Type := (⟨s, e⟩ : BufTy).Contents (Elt Ideal)

/-! ## From the edge counts to every edge's graph number -/

/-- The numbers 0 … 99. -/
def graphIds : T S100 .i32 := iotaInDim S100 32 0

/-- The counts rotated by one place: the last count first, then the first ninety-nine. -/
def rolled (n : T S100 .i32) : T S100 .i32 :=
  concatenate S100 0 [⟨S1, extractStridedSlice S1 ![99] n slices_S100_S1_99⟩, ⟨S99, extractStridedSlice S99 ![0] n slices_S100_S99_0⟩] concatenates_S1_S99_S100_d0

/-- The first place set to zero. -/
def headZero (x : T S100 .i32) : T S100 .i32 :=
  Host.scatter scatter_S100_S1_S__n_0_0_0 (fun _ b => b) x
    ((broadcastInDim S1 ![] bcast_S_S1 : T S_ .i32 → T S1 .i32) (constantI S_ 32 0#32)) (constantI S_ 32 0#32)

/-- Running sums over a hundred places. -/
def runSum100 (x : T S100 .i32) : T S100 .i32 :=
  Host.reduceWindow IntOp.addi ![100] ![1] ![99] ![0] x
    ((broadcastInDim S_ ![] bcast_S_S_ : T S_ .i32 → T S_ .i32) (constantI S_ 32 0#32)) reduceWindows_S100_S100_w100s1p99_0 h_S_

/-- A one added at each graph's first edge (a negative start counted from the end), zero elsewhere. -/
def marks (s : T S100 .i32) : T S640000 .i32 :=
  Host.scatter scatter_S640000_S100x1_S100_n_0_0_1 IntOp.addi
    ((broadcastInDim S640000 ![] bcast_S_S640000 : T S_ .i32 → T S640000 .i32) (constantI S_ 32 0#32))
    ((broadcastInDim S100x1 ![0] bcast_S100_S100x1_0 : T S100 .i32 → T S100x1 .i32)
      ((select : T S100 .i1 → T S100 .i32 → T S100 .i32 → T S100 .i32)
        ((cmpi .slt : T S100 .i32 → T S100 .i32 → T S100 .i1) s
          ((broadcastInDim S100 ![] bcast_S_S100 : T S_ .i32 → T S100 .i32) (constantI S_ 32 0#32)))
        ((addi : T S100 .i32 → T S100 .i32 → T S100 .i32) s
          ((broadcastInDim S100 ![] bcast_S_S100 : T S_ .i32 → T S100 .i32) (constantI S_ 32 640000#32)))
        s))
    ((broadcastInDim S100 ![] bcast_S_S100 : T S_ .i32 → T S100 .i32) (constantI S_ 32 1#32))

/-- Running sums over all edges. -/
def runSumEdges (x : T S640000 .i32) : T S640000 .i32 :=
  Host.reduceWindow IntOp.addi ![640000] ![1] ![639999] ![0] x
    ((broadcastInDim S_ ![] bcast_S_S_ : T S_ .i32 → T S_ .i32) (constantI S_ 32 0#32)) reduceWindows_S640000_S640000_w640000s1p639999_0 h_S_

/-- One less at every edge. -/
def lessOneEdges (x : T S640000 .i32) : T S640000 .i32 :=
  (subi : T S640000 .i32 → T S640000 .i32 → T S640000 .i32) x
    ((broadcastInDim S640000 ![] bcast_S_S640000 : T S_ .i32 → T S640000 .i32) (constantI S_ 32 1#32))

/-- A position into a table of a hundred rows, a negative one counted from the end, as a column. -/
def posEdges (i : T S640000 .i32) : T S640000x1 .i32 :=
  (broadcastInDim S640000x1 ![0] bcast_S640000_S640000x1_0 : T S640000 .i32 → T S640000x1 .i32)
    ((select : T S640000 .i1 → T S640000 .i32 → T S640000 .i32 → T S640000 .i32)
      ((cmpi .slt : T S640000 .i32 → T S640000 .i32 → T S640000 .i1) i
        ((broadcastInDim S640000 ![] bcast_S_S640000 : T S_ .i32 → T S640000 .i32) (constantI S_ 32 0#32)))
      ((addi : T S640000 .i32 → T S640000 .i32 → T S640000 .i32) i
        ((broadcastInDim S640000 ![] bcast_S_S640000 : T S_ .i32 → T S640000 .i32) (constantI S_ 32 100#32)))
      i)

/-- Whether a position lies in 0 … 99. -/
def inTableEdges (j : T S640000x1 .i32) : T S640000 .i1 :=
  Host.reduce IntOp.andi
    ((andi : T S640000x1 .i1 → T S640000x1 .i1 → T S640000x1 .i1)
      ((cmpi .sge : T S640000x1 .i32 → T S640000x1 .i32 → T S640000x1 .i1) j
        ((broadcastInDim S640000x1 ![] bcast_S_S640000x1 : T S_ .i32 → T S640000x1 .i32) (constantI S_ 32 0#32)))
      ((cmpi .sle : T S640000x1 .i32 → T S640000x1 .i32 → T S640000x1 .i1) j
        ((broadcastInDim S640000x1 ![0, 1] bcast_S1x1_S640000x1_0_1 : T S1x1 .i32 → T S640000x1 .i32)
          ((broadcastInDim S1x1 ![1] bcast_S1_S1x1_1 : T S1 .i32 → T S1x1 .i32) (constantI S1 32 99#32)))))
    (constantI S_ 1 1#1) reducesTo_S640000x1_S640000_d1 h_S_

/-- The table's entry at every edge's position, and a filler word where the position is outside the table. -/
def lookEdges (tbl : T S100 .i32) (i : T S640000 .i32) : T S640000 .i32 :=
  (select : T S640000 .i1 → T S640000 .i32 → T S640000 .i32 → T S640000 .i32)
    (inTableEdges (posEdges i))
    (Host.gather gather_S100_S640000x1_S640000_n_0_n_n_0_1_1 tbl (posEdges i))
    ((broadcastInDim S640000 ![] bcast_S_S640000 : T S_ .i32 → T S640000 .i32) (constantI S_ 32 2147483648#32))

/-- Every edge's graph number, from the per-graph edge counts. -/
def graphOfEdge (n_edge : T S100 .i32) : T S640000 .i32 :=
  lookEdges graphIds (lessOneEdges (runSumEdges (marks (runSum100 (headZero (rolled n_edge))))))

/-! ## The loss -/

/-- Per-graph sums of a value carried by the edges. -/
def graphSum (gid : T S640000 .i32) (x : T S640000 .f32) : T S100 .f32 :=
  Host.scatterAdd (F := Ideal) (φ := .f32) scatter_S100_S640000x1_S640000_n_0_0_1
    ((broadcastInDim S100 ![] bcast_S_S100 : T S_ .f32 → T S100 .f32) (constant (F := Ideal) S_ .f32 0x00000000#32))
    ((broadcastInDim S640000x1 ![0] bcast_S640000_S640000x1_0 : T S640000 .i32 → T S640000x1 .i32) gid) x

/-- Where a per-graph value is not zero. -/
def nonzero (w : T S100 .f32) : T S100 .i1 :=
  (cmpf (F := Ideal) (φ := .f32) .une : T S100 .f32 → T S100 .f32 → T S100 .i1) w
    ((broadcastInDim S100 ![] bcast_S_S100 : T S_ .f32 → T S100 .f32) (constant (F := Ideal) S_ .f32 0x00000000#32))

/-- The per-graph value where the flag is set, a given constant elsewhere. -/
def orElse (c : T S100 .i1) (x : T S100 .f32) (k : T S_ .f32) : T S100 .f32 :=
  (select : T S100 .i1 → T S100 .f32 → T S100 .f32 → T S100 .f32) c x
    ((broadcastInDim S100 ![] bcast_S_S100 : T S_ .f32 → T S100 .f32) (id k))

/-- The edge weights as a flat array. -/
def flatWeights (edges : T S640000x1 .f32) : T S640000 .f32 :=
  fun i => shapeCast S640000 edges shapeCasts_S640000x1_S640000 i

/-- The sum of a hundred values over a hundred. -/
def meanOf (q : T S100 .f32) : T S_ .f32 :=
  (Host.divf (F := Ideal) (φ := .f32) : T S_ .f32 → T S_ .f32 → T S_ .f32)
    (Host.reduceAdd (F := Ideal) (φ := .f32) q (constant (F := Ideal) S_ .f32 0x00000000#32) reducesTo_S100_S_d0 h_S_)
    (constant (F := Ideal) S_ .f32 0x42C80000#32)

/-- The per-graph quotient of output sum `a` by weight sum `w`, zero where the weight sum is zero, averaged. -/
def lossFrom (w a : T S100 .f32) : T S_ .f32 :=
  meanOf (orElse (nonzero w)
    ((Host.divf (F := Ideal) (φ := .f32) : T S100 .f32 → T S100 .f32 → T S100 .f32) a (orElse (nonzero w) w (constant (F := Ideal) S_ .f32 0x3F800000#32)))
    (constant (F := Ideal) S_ .f32 0x00000000#32))

/-- The loss, from the per-graph edge counts, the edge weights and the edge outputs. -/
def lossOf (n_edge : IVec S100 32) (edges : FVec Ideal S640000x1 .f32) (eo : FVec Ideal S640000 .f32) : FVec Ideal S_ .f32 :=
  lossFrom (graphSum (graphOfEdge n_edge) (flatWeights edges)) (graphSum (graphOfEdge n_edge) eo)

/-! ## The last node of every graph -/

/-- One less at every graph. -/
def lessOne100 (x : T S100 .i32) : T S100 .i32 :=
  (subi : T S100 .i32 → T S100 .i32 → T S100 .i32) x
    ((broadcastInDim S100 ![] bcast_S_S100 : T S_ .i32 → T S100 .i32) (constantI S_ 32 1#32))

/-- A position into a table of ten thousand rows, a negative one counted from the end, as a column. -/
def posNodes (i : T S100 .i32) : T S100x1 .i32 :=
  (broadcastInDim S100x1 ![0] bcast_S100_S100x1_0 : T S100 .i32 → T S100x1 .i32)
    ((select : T S100 .i1 → T S100 .i32 → T S100 .i32 → T S100 .i32)
      ((cmpi .slt : T S100 .i32 → T S100 .i32 → T S100 .i1) i
        ((broadcastInDim S100 ![] bcast_S_S100 : T S_ .i32 → T S100 .i32) (constantI S_ 32 0#32)))
      ((addi : T S100 .i32 → T S100 .i32 → T S100 .i32) i
        ((broadcastInDim S100 ![] bcast_S_S100 : T S_ .i32 → T S100 .i32) (constantI S_ 32 10000#32)))
      i)

/-- Whether a position lies in 0 … 9999. -/
def inTableNodes (j : T S100x1 .i32) : T S100 .i1 :=
  Host.reduce IntOp.andi
    ((andi : T S100x1 .i1 → T S100x1 .i1 → T S100x1 .i1)
      ((cmpi .sge : T S100x1 .i32 → T S100x1 .i32 → T S100x1 .i1) j
        ((broadcastInDim S100x1 ![] bcast_S_S100x1 : T S_ .i32 → T S100x1 .i32) (constantI S_ 32 0#32)))
      ((cmpi .sle : T S100x1 .i32 → T S100x1 .i32 → T S100x1 .i1) j
        ((broadcastInDim S100x1 ![0, 1] bcast_S1x1_S100x1_0_1 : T S1x1 .i32 → T S100x1 .i32)
          ((broadcastInDim S1x1 ![1] bcast_S1_S1x1_1 : T S1 .i32 → T S1x1 .i32) (constantI S1 32 9999#32)))))
    (constantI S_ 1 1#1) reducesTo_S100x1_S100_d1 h_S_

/-- The table's rows at a hundred positions, and a filler row where the position is outside the table. -/
def lookNodes (h : T S10000x128 .f32) (i : T S100 .i32) : T S100x128 .f32 :=
  (select : T S100x128 .i1 → T S100x128 .f32 → T S100x128 .f32 → T S100x128 .f32)
    ((broadcastInDim S100x128 ![0] bcast_S100_S100x128_0 : T S100 .i1 → T S100x128 .i1) (inTableNodes (posNodes i)))
    (Host.gather gather_S10000x128_S100x1_S100x128_1_0_n_n_0_1_1128 h (posNodes i))
    ((broadcastInDim S100x128 ![] bcast_S_S100x128 : T S_ .f32 → T S100x128 .f32) (constant (F := Ideal) S_ .f32 0x7FC00000#32))

/-- The perceptron's rows at the last node of every graph, from the per-graph node counts. -/
def nodeOf (n_node : IVec S100 32) (h : FVec Ideal S10000x128 .f32) : FVec Ideal S100x128 .f32 :=
  lookNodes h (lessOne100 (runSum100 n_node))

/-- Reads one buffer after a stretch of operations: every operation's result at its own buffer is its function of
    its operands' contents, elsewhere what was there; the casts between a buffer's contents and a typed operand
    are identities. -/
macro "stretch" : tactic =>
  `(tactic| (after_results <;> (try simp only [TRef.ofBuf, TRef.toBuf, cast_eq]) <;> (try rfl)))

end Cert.Tail

end
-- ==== Proof.Tail.lean ====
/-
  The last stretch of both programs is the same chain of operations (the functions of the definitions
  module), applied to what each program's buffers hold when the chain begins.

  For the first program the chain is run in sixteen stretches. Each stretch is read on its own, from any
  contents of the buffers: the buffer it ends in holds one piece of the chain applied to the buffers it reads.
  A buffer that no later operation writes keeps its contents to the end. Composing the pieces gives the loss
  and the rows at every graph's last node as `lossOf` and `nodeOf` of the buffers as they stood after the
  second device computation.
-/
import proofs.«426342_j11098195493609_3_alg».proof.Proof.TailDefs
import proofs.«426342_j11098195493609_3_alg».proof.Proof.Gen.KernelIdeal.Frame
import Idealize.ShloMosaic.Lib.StableHlo.Run
import Idealize.ShloMosaic.PureOps.Ideal

set_option maxRecDepth 16384

noncomputable section

namespace Cert.Tail

open Idealize.ShloMosaic Idealize.ShloMosaic.StableHlo Idealize.SL.Sem
open Cert.KernelIdeal Cert.KernelIdeal.Facts₀ Cert.KernelIdeal.Facts
open Cert.KernelIdeal.Gen (hostOps2 hostOps2_1 hostOps2_2 hostOps2_3 hostOps2_4 hostOps2_5 hostOps2_6 hostOps2_7 hostOps2_8 hostOps2_9 hostOps2_10 hostOps2_11 hostOps2_12 hostOps2_13 hostOps2_14 hostOps2_15 W6 W7 W8 W9 W10 W11 W12 W13 W14 W15 W16 W17 W18 W19 W20 W21 W22)

/-- The same reading as `stretch`, every buffer's contents worked out once: for the long stretches. -/
macro "stretchLong" : tactic =>
  `(tactic| (after_results_simp <;> (try simp only [TRef.ofBuf, TRef.toBuf, cast_eq]) <;> (try rfl)))

/-! ## Each stretch of operations, from any contents of the buffers -/

section Stretches

variable (V : Valuation τ sig (Elt Ideal))

theorem s0_v10 : StableHlo.after hostOps2 V (Proc.devRef .tc main_v10) = graphIds := by
  stretch
theorem s1_v11 : StableHlo.after hostOps2_1 V (Proc.devRef .tc main_v11) = rolled (V (Proc.devRef .tc main_arg5)) := by
  stretch
theorem s2_v13 : StableHlo.after hostOps2_2 V (Proc.devRef .tc main_v13) = headZero (V (Proc.devRef .tc main_v11)) := by
  stretch
theorem s3_v14 : StableHlo.after hostOps2_3 V (Proc.devRef .tc main_v14) = runSum100 (V (Proc.devRef .tc main_v13)) := by
  stretch
theorem s4_v23 : StableHlo.after hostOps2_4 V (Proc.devRef .tc main_v23) = marks (V (Proc.devRef .tc main_v14)) := by
  stretch
theorem s5_v24 : StableHlo.after hostOps2_5 V (Proc.devRef .tc main_v24) = runSumEdges (V (Proc.devRef .tc main_v23)) := by
  stretch
theorem s6_v26 : StableHlo.after hostOps2_6 V (Proc.devRef .tc main_v26) = lessOneEdges (V (Proc.devRef .tc main_v24)) := by
  stretch
set_option maxHeartbeats 8000000 in
theorem s7_v27 : StableHlo.after hostOps2_7 V (Proc.devRef .tc main_v27)
    = lookEdges (V (Proc.devRef .tc main_v10)) (V (Proc.devRef .tc main_v26)) := by
  stretchLong
theorem s8_v31 : StableHlo.after hostOps2_8 V (Proc.devRef .tc main_v31)
    = graphSum (V (Proc.devRef .tc main_v27)) (flatWeights (V (Proc.devRef .tc main_arg1))) := by
  stretch
theorem s8_v34 : StableHlo.after hostOps2_8 V (Proc.devRef .tc main_v34)
    = graphSum (V (Proc.devRef .tc main_v27)) (V (Proc.devRef .tc main_v9)) := by
  stretch
theorem s8_v36 : StableHlo.after hostOps2_8 V (Proc.devRef .tc main_v36)
    = nonzero (graphSum (V (Proc.devRef .tc main_v27)) (flatWeights (V (Proc.devRef .tc main_arg1)))) := by
  stretch
theorem s8_v38 : StableHlo.after hostOps2_8 V (Proc.devRef .tc main_v38)
    = nonzero (graphSum (V (Proc.devRef .tc main_v27)) (flatWeights (V (Proc.devRef .tc main_arg1)))) := by
  stretch
theorem s8_cst_10 : StableHlo.after hostOps2_8 V (Proc.devRef .tc main_cst_10) = constant (F := Ideal) S_ .f32 0x3F800000#32 := by
  stretch
theorem s9_v39 : StableHlo.after hostOps2_9 V (Proc.devRef .tc main_v39)
    = orElse (V (Proc.devRef .tc main_v38)) (V (Proc.devRef .tc main_v31)) (V (Proc.devRef .tc main_cst_10)) := by
  stretch
theorem s10_v40 : StableHlo.after hostOps2_10 V (Proc.devRef .tc main_v40)
    = (Host.divf (F := Ideal) (φ := .f32) : T S100 .f32 → T S100 .f32 → T S100 .f32) (V (Proc.devRef .tc main_v34)) (V (Proc.devRef .tc main_v39)) := by
  stretch
theorem s10_cst_11 : StableHlo.after hostOps2_10 V (Proc.devRef .tc main_cst_11) = constant (F := Ideal) S_ .f32 0x00000000#32 := by
  stretch
theorem s11_v41 : StableHlo.after hostOps2_11 V (Proc.devRef .tc main_v41)
    = orElse (V (Proc.devRef .tc main_v36)) (V (Proc.devRef .tc main_v40)) (V (Proc.devRef .tc main_cst_11)) := by
  stretch
theorem s12_v43 : StableHlo.after hostOps2_12 V (Proc.devRef .tc main_v43) = meanOf (V (Proc.devRef .tc main_v41)) := by
  stretch
theorem s13_v44 : StableHlo.after hostOps2_13 V (Proc.devRef .tc main_v44) = runSum100 (V (Proc.devRef .tc main_arg4)) := by
  stretch
theorem s14_v46 : StableHlo.after hostOps2_14 V (Proc.devRef .tc main_v46) = lessOne100 (V (Proc.devRef .tc main_v44)) := by
  stretch
set_option maxHeartbeats 8000000 in
theorem s15_v47 : StableHlo.after hostOps2_15 V (Proc.devRef .tc main_v47)
    = lookNodes (V (Proc.devRef .tc main_v2_0)) (V (Proc.devRef .tc main_v46)) := by
  stretchLong

end Stretches

/-! ## The first program's buffers after its last stretch -/

section KernelRun

variable (m : (ℓ : Loc nD τ sig) → Buf (Elt Ideal) ℓ) (ρ : Dev nD → PrngReg)

/-- Every edge's graph number, in the buffer the program keeps it in. -/
theorem W14_v27 (c : Dev nD) :
    W14 m ρ c (Proc.devRef .tc main_v27) = graphOfEdge (W6 m ρ c (Proc.devRef .tc main_arg5)) := by
  have e5 : W7 m ρ c (Proc.devRef .tc main_arg5) = W6 m ρ c (Proc.devRef .tc main_arg5) := by after_results
  have e10 : W13 m ρ c (Proc.devRef .tc main_v10) = graphIds := by stretch
  rw [show W14 m ρ c (Proc.devRef .tc main_v27) = _ from s7_v27 (W13 m ρ c), e10,
    show W13 m ρ c (Proc.devRef .tc main_v26) = _ from s6_v26 (W12 m ρ c),
    show W12 m ρ c (Proc.devRef .tc main_v24) = _ from s5_v24 (W11 m ρ c),
    show W11 m ρ c (Proc.devRef .tc main_v23) = _ from s4_v23 (W10 m ρ c),
    show W10 m ρ c (Proc.devRef .tc main_v14) = _ from s3_v14 (W9 m ρ c),
    show W9 m ρ c (Proc.devRef .tc main_v13) = _ from s2_v13 (W8 m ρ c),
    show W8 m ρ c (Proc.devRef .tc main_v11) = _ from s1_v11 (W7 m ρ c), e5]
  rfl

/-- No operation of the last three stretches writes the loss. -/
theorem keep_v43 (X : Valuation τ sig (Elt Ideal)) :
    StableHlo.after hostOps2_15 (StableHlo.after hostOps2_14 (StableHlo.after hostOps2_13 X)) (Proc.devRef .tc main_v43)
      = X (Proc.devRef .tc main_v43) := by after_results
/-- The stretch between them leaves the per-graph output sums alone. -/
theorem keep_v34 (X : Valuation τ sig (Elt Ideal)) :
    StableHlo.after hostOps2_9 X (Proc.devRef .tc main_v34) = X (Proc.devRef .tc main_v34) := by after_results
/-- The two stretches between them leave the flags alone. -/
theorem keep_v36 (X : Valuation τ sig (Elt Ideal)) :
    StableHlo.after hostOps2_10 (StableHlo.after hostOps2_9 X) (Proc.devRef .tc main_v36) = X (Proc.devRef .tc main_v36) := by
  after_results

/-- The loss the first program returns. -/
theorem ker_loss (c : Dev nD) :
    W22 m ρ c (Proc.devRef .tc main_v43)
      = lossOf (W6 m ρ c (Proc.devRef .tc main_arg5)) (W6 m ρ c (Proc.devRef .tc main_arg1))
          (W7 m ρ c (Proc.devRef .tc main_v9)) := by
  have e1 : W14 m ρ c (Proc.devRef .tc main_arg1) = W6 m ρ c (Proc.devRef .tc main_arg1) := by after_results
  have e9 : W14 m ρ c (Proc.devRef .tc main_v9) = W7 m ρ c (Proc.devRef .tc main_v9) := by after_results
  rw [show W22 m ρ c (Proc.devRef .tc main_v43) = _ from keep_v43 (W19 m ρ c),
    show W19 m ρ c (Proc.devRef .tc main_v43) = _ from s12_v43 (W18 m ρ c),
    show W18 m ρ c (Proc.devRef .tc main_v41) = _ from s11_v41 (W17 m ρ c),
    show W17 m ρ c (Proc.devRef .tc main_v40) = _ from s10_v40 (W16 m ρ c),
    show W17 m ρ c (Proc.devRef .tc main_cst_11) = _ from s10_cst_11 (W16 m ρ c),
    show W17 m ρ c (Proc.devRef .tc main_v36) = _ from keep_v36 (W15 m ρ c),
    show W16 m ρ c (Proc.devRef .tc main_v39) = _ from s9_v39 (W15 m ρ c),
    show W16 m ρ c (Proc.devRef .tc main_v34) = _ from keep_v34 (W15 m ρ c),
    show W15 m ρ c (Proc.devRef .tc main_v36) = _ from s8_v36 (W14 m ρ c),
    show W15 m ρ c (Proc.devRef .tc main_v38) = _ from s8_v38 (W14 m ρ c),
    show W15 m ρ c (Proc.devRef .tc main_v34) = _ from s8_v34 (W14 m ρ c),
    show W15 m ρ c (Proc.devRef .tc main_v31) = _ from s8_v31 (W14 m ρ c),
    show W15 m ρ c (Proc.devRef .tc main_cst_10) = _ from s8_cst_10 (W14 m ρ c),
    W14_v27 m ρ c, e1, e9]
  rfl

/-- The rows the first program returns. -/
theorem ker_nodes (c : Dev nD) :
    W22 m ρ c (Proc.devRef .tc main_v47)
      = nodeOf (W6 m ρ c (Proc.devRef .tc main_arg4)) (W6 m ρ c (Proc.devRef .tc main_v2_0)) := by
  have e4 : W19 m ρ c (Proc.devRef .tc main_arg4) = W6 m ρ c (Proc.devRef .tc main_arg4) := by after_results
  have eh : W21 m ρ c (Proc.devRef .tc main_v2_0) = W6 m ρ c (Proc.devRef .tc main_v2_0) := by after_results
  rw [show W22 m ρ c (Proc.devRef .tc main_v47) = _ from s15_v47 (W21 m ρ c),
    show W21 m ρ c (Proc.devRef .tc main_v46) = _ from s14_v46 (W20 m ρ c),
    show W20 m ρ c (Proc.devRef .tc main_v44) = _ from s13_v44 (W19 m ρ c), e4, eh]
  rfl

end KernelRun

end Cert.Tail

end
-- ==== Proof.KernelGlue.lean ====
/-
  The kernel program's host steps around its two regions, read entry by entry.

  Before the first region the two biases are recast as tables of one row. Between the regions the
  perceptron's rows in the short format get 240 rows of zeros below (10000 rows become 10240), and the three
  edge lists of 640000 entries (senders, receivers, weights) are recast as 5000 rows of 128. After the second
  region its 5000 × 128 table is recast as one list of 640000. A recast keeps every entry's row-major
  position, so entry (p, l) of a 5000 × 128 table is entry 128 p + l of the list. Everything else a region is
  entered with, or that is read after the second region, is what was launched or what a region wrote.
-/
import proofs.«426342_j11098195493609_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.KernelVsHost

set_option maxRecDepth 16384

noncomputable section

namespace Cert.KernelIdeal.Glue

open Idealize.ShloMosaic Idealize.ShloMosaic.TcCoe
open Idealize.ShloMosaic.ValueIdx
open Cert.KernelIdeal Cert.KernelIdeal.Gen

variable (m : (ℓ : Loc nD τ sig) → Buf (Elt Ideal) ℓ) (ρ : Dev nD → PrngReg) (c : Dev nD)

/-! ## Region 0's entry: three arguments as launched, the two biases as one-row tables -/

/-- The node features enter region 0 as launched: no host operation before it writes them. -/
theorem entry0_nodes : V1 m ρ c (Pipeline.arrRef spec0 0) = m ((c : Thread nD τ).loc main_arg0) := by
  show W1 m ρ c (Proc.devRef .tc main_arg0) = _
  dsimp only [W1, hostOps0]
  after_results

/-- The first layer's weights enter region 0 as launched. -/
theorem entry0_w1 : V1 m ρ c (Pipeline.arrRef spec0 1) = m ((c : Thread nD τ).loc main_arg6) := by
  show W1 m ρ c (Proc.devRef .tc main_arg6) = _
  dsimp only [W1, hostOps0]
  after_results

/-- The second layer's weights enter region 0 as launched. -/
theorem entry0_w2 : V1 m ρ c (Pipeline.arrRef spec0 3) = m ((c : Thread nD τ).loc main_arg8) := by
  show W1 m ρ c (Proc.devRef .tc main_arg8) = _
  dsimp only [W1, hostOps0]
  after_results

/-- The first bias enters region 0 as a table of one row: entry `(0, k)` is the launched bias at `k`. -/
theorem entry0_b1 (k : Fin 512) :
    (V1 m ρ c (Pipeline.arrRef spec0 2) : S1x512.Idx → EReal) (ix2 0 k)
      = (m ((c : Thread nD τ).loc main_arg7) : S512.Idx → EReal) (ix1 k) := by
  have e : (V1 m ρ c (Pipeline.arrRef spec0 2) : S1x512.Idx → EReal)
      = shapeCast S1x512 (m ((c : Thread nD τ).loc main_arg7) : S512.Idx → EReal) shapeCasts_S512_S1x512 := by
    show W1 m ρ c (Proc.devRef .tc main_v0) = _
    dsimp only [W1, hostOps0]
    after_results
    rfl
  rw [e]
  exact shapeCast_apply (s := S512) (t := S1x512) _ _ _ _ (by
    rw [Shape.rowMajor_val_two, Shape.rowMajor_val_one]; show k.val = 0 * 512 + k.val; omega)

/-- The second bias enters region 0 as a table of one row. -/
theorem entry0_b2 (k : Fin 128) :
    (V1 m ρ c (Pipeline.arrRef spec0 4) : S1x128.Idx → EReal) (ix2 0 k)
      = (m ((c : Thread nD τ).loc main_arg9) : S128.Idx → EReal) (ix1 k) := by
  have e : (V1 m ρ c (Pipeline.arrRef spec0 4) : S1x128.Idx → EReal)
      = shapeCast S1x128 (m ((c : Thread nD τ).loc main_arg9) : S128.Idx → EReal) shapeCasts_S128_S1x128 := by
    show W1 m ρ c (Proc.devRef .tc main_v1) = _
    dsimp only [W1, hostOps0]
    after_results
    rfl
  rw [e]
  exact shapeCast_apply (s := S128) (t := S1x128) _ _ _ _ (by
    rw [Shape.rowMajor_val_two, Shape.rowMajor_val_one]; show k.val = 0 * 128 + k.val; omega)

/-! ## Arguments that no host operation and no region writes before region 1 is entered -/

/-- The sender ids at region 1's entry are the launched ones. -/
theorem W5_senders : W5 m ρ c (Proc.devRef .tc main_arg2) = m ((c : Thread nD τ).loc main_arg2) := by
  dsimp only [W5, W4, W3, hostOps1_2, hostOps1_1, hostOps1]
  after_results
  rw [W2_of_ne m ρ c main_arg2 (by decide)]
  dsimp only [W1, hostOps0]
  after_results

/-- The receiver ids at region 1's entry are the launched ones. -/
theorem W5_receivers : W5 m ρ c (Proc.devRef .tc main_arg3) = m ((c : Thread nD τ).loc main_arg3) := by
  dsimp only [W5, W4, W3, hostOps1_2, hostOps1_1, hostOps1]
  after_results
  rw [W2_of_ne m ρ c main_arg3 (by decide)]
  dsimp only [W1, hostOps0]
  after_results

/-- The edge weights at region 1's entry are the launched ones. -/
theorem W5_weights : W5 m ρ c (Proc.devRef .tc main_arg1) = m ((c : Thread nD τ).loc main_arg1) := by
  dsimp only [W5, W4, W3, hostOps1_2, hostOps1_1, hostOps1]
  after_results
  rw [W2_of_ne m ρ c main_arg1 (by decide)]
  dsimp only [W1, hostOps0]
  after_results

/-- The fourth argument at region 1's entry is the launched one. -/
theorem W5_arg4 : W5 m ρ c (Proc.devRef .tc main_arg4) = m ((c : Thread nD τ).loc main_arg4) := by
  dsimp only [W5, W4, W3, hostOps1_2, hostOps1_1, hostOps1]
  after_results
  rw [W2_of_ne m ρ c main_arg4 (by decide)]
  dsimp only [W1, hostOps0]
  after_results

/-- The fifth argument at region 1's entry is the launched one. -/
theorem W5_arg5 : W5 m ρ c (Proc.devRef .tc main_arg5) = m ((c : Thread nD τ).loc main_arg5) := by
  dsimp only [W5, W4, W3, hostOps1_2, hostOps1_1, hostOps1]
  after_results
  rw [W2_of_ne m ρ c main_arg5 (by decide)]
  dsimp only [W1, hostOps0]
  after_results

/-! ## Region 1's entry: the edge lists as 5000 rows of 128, the padded table -/

/-- Row-major positions of a 5000 × 128 table in a list of 640000. -/
theorem flat_lt (p : Fin 5000) (l : Fin 128) : 128 * p.val + l.val < 640000 := by
  have := p.isLt; have := l.isLt; omega

/-- The sender ids enter region 1 as 5000 rows of 128: entry `(p, l)` is edge `128 p + l`'s. -/
theorem entry1_senders (p : Fin 5000) (l : Fin 128) :
    (V5 m ρ c (Pipeline.arrRef spec1 0) : S5000x128.Idx → BitVec 32) (ix2 p l)
      = (m ((c : Thread nD τ).loc main_arg2) : S640000.Idx → BitVec 32) (ix1 ⟨128 * p.val + l.val, flat_lt p l⟩) := by
  have e : (V5 m ρ c (Pipeline.arrRef spec1 0) : S5000x128.Idx → BitVec 32)
      = shapeCast S5000x128 (W5 m ρ c (Proc.devRef .tc main_arg2) : S640000.Idx → BitVec 32) shapeCasts_S640000_S5000x128 := by
    show W5 m ρ c (Proc.devRef .tc main_v4) = _
    dsimp only [W5, hostOps1_2]
    after_results
    rfl
  rw [e, W5_senders]
  exact shapeCast_apply (s := S640000) (t := S5000x128) _ _ _ _ (by
    rw [Shape.rowMajor_val_two, Shape.rowMajor_val_one]; show 128 * p.val + l.val = p.val * 128 + l.val; omega)

/-- The receiver ids enter region 1 as 5000 rows of 128. -/
theorem entry1_receivers (p : Fin 5000) (l : Fin 128) :
    (V5 m ρ c (Pipeline.arrRef spec1 1) : S5000x128.Idx → BitVec 32) (ix2 p l)
      = (m ((c : Thread nD τ).loc main_arg3) : S640000.Idx → BitVec 32) (ix1 ⟨128 * p.val + l.val, flat_lt p l⟩) := by
  have e : (V5 m ρ c (Pipeline.arrRef spec1 1) : S5000x128.Idx → BitVec 32)
      = shapeCast S5000x128 (W5 m ρ c (Proc.devRef .tc main_arg3) : S640000.Idx → BitVec 32) shapeCasts_S640000_S5000x128 := by
    show W5 m ρ c (Proc.devRef .tc main_v5) = _
    dsimp only [W5, hostOps1_2]
    after_results
    rfl
  rw [e, W5_receivers]
  exact shapeCast_apply (s := S640000) (t := S5000x128) _ _ _ _ (by
    rw [Shape.rowMajor_val_two, Shape.rowMajor_val_one]; show 128 * p.val + l.val = p.val * 128 + l.val; omega)

/-- The edge weights, launched as a column of 640000, enter region 1 as 5000 rows of 128: two changes of shape,
    each keeping the row-major position. -/
theorem entry1_weights (p : Fin 5000) (l : Fin 128) :
    (V5 m ρ c (Pipeline.arrRef spec1 2) : S5000x128.Idx → EReal) (ix2 p l)
      = (m ((c : Thread nD τ).loc main_arg1) : S640000x1.Idx → EReal) (ix2 ⟨128 * p.val + l.val, flat_lt p l⟩ 0) := by
  have e : (V5 m ρ c (Pipeline.arrRef spec1 2) : S5000x128.Idx → EReal)
      = shapeCast S5000x128
          (shapeCast S640000 (W5 m ρ c (Proc.devRef .tc main_arg1) : S640000x1.Idx → EReal) shapeCasts_S640000x1_S640000)
          shapeCasts_S640000_S5000x128 := by
    show W5 m ρ c (Proc.devRef .tc main_v7) = _
    dsimp only [W5, hostOps1_2]
    after_results
    rfl
  rw [e, W5_weights]
  rw [shapeCast_apply (s := S640000) (t := S5000x128) _ _ (ix2 p l) (ix1 ⟨128 * p.val + l.val, flat_lt p l⟩) (by
    rw [Shape.rowMajor_val_two, Shape.rowMajor_val_one]; show 128 * p.val + l.val = p.val * 128 + l.val; omega)]
  exact shapeCast_apply (s := S640000x1) (t := S640000) _ _ _ _ (by
    rw [Shape.rowMajor_val_two, Shape.rowMajor_val_one]; show (128 * p.val + l.val) * 1 + 0 = 128 * p.val + l.val; omega)

/-- The table region 1 looks rows up in: region 0's second output (the perceptron's rows in the short format) with
    240 rows of the padding value below; the padding value is the integer zero converted, the real number zero. -/
theorem entry1_table (n : Fin 10240) (d : Fin 128) :
    (V5 m ρ c (Pipeline.arrRef spec1 3) : S10240x128.Idx → EReal) (ix2 n d)
      = (if hn : n.val < 10000 then
          (((dat0 (V1 m ρ) c).arrAt 6 cfg0.N : S10000x128.Idx → EReal) (ix2 ⟨n.val, hn⟩ d) : EReal)
        else (0 : EReal)) := by
  have e : (V5 m ρ c (Pipeline.arrRef spec1 3) : S10240x128.Idx → EReal)
      = pad S10240x128 ![0, 0] ![240, 0] ![0, 0]
          ((dat0 (V1 m ρ) c).arrAt 6 cfg0.N : S10000x128.Idx → EReal)
          (sitofp .bf16 (constantI S_ 32 0#32) : FVec Ideal S_ .bf16)
          pads_S10000x128_S10240x128_02400_000 h_S_ := by
    show W5 m ρ c (Proc.devRef .tc main_v3) = _
    dsimp only [W5, W4, W3, hostOps1_2, hostOps1_1, hostOps1]
    after_results
    rw [show W2 m ρ c (Proc.devRef .tc main_v2_1) = (dat0 (V1 m ρ) c).arrAt 6 cfg0.N from W2_arr m ρ c 6]
    rfl
  rw [e]
  by_cases hn : n.val < 10000
  · rw [dif_pos hn]
    exact pad_apply_of_inside _ _ _ _ _ _ _ (ix2 n d) (ix2 ⟨n.val, hn⟩ d) (fun a => by
      match a with
      | ⟨0, _⟩ => show n.val = 0 + n.val * (0 + 1); omega
      | ⟨1, _⟩ => show d.val = 0 + d.val * (0 + 1); omega)
  · rw [dif_neg hn]
    rw [pad_apply_of_not_inside _ _ _ _ _ _ _ (ix2 n d) (0 : Fin 2) (fun h => hn (by
      have h3 := h.2.2
      have : ((ix2 n d) ((0 : Fin 2).cast pads_S10000x128_S10240x128_02400_000.1)).val = n.val := rfl
      rw [this] at h3
      have h4 : (n.val - 0) / (0 + 1) < 10000 := h3
      simpa using h4))]
    exact sitofp_zero (φ := .bf16)

/-! ## What the host operations after region 1 find -/

/-- The perceptron's rows in the long format (region 0's first output) are still in place when region 1 is left. -/
theorem kept_rows : W6 m ρ c (Proc.devRef .tc main_v2_0) = (dat0 (V1 m ρ) c).arrAt 5 cfg0.N := by
  rw [W6_of_ne m ρ c main_v2_0 (by decide)]
  dsimp only [W5, W4, W3, hostOps1_2, hostOps1_1, hostOps1]
  after_results
  exact W2_arr m ρ c 5

/-- Region 1's output, as its write-backs leave it. -/
theorem kept_edges : W6 m ρ c (Proc.devRef .tc main_v8) = (dat1 (V5 m ρ) c).arrAt 4 cfg1.N :=
  W6_arr m ρ c 4

/-- The edge weights are as launched when region 1 is left. -/
theorem kept_weights : W6 m ρ c (Proc.devRef .tc main_arg1) = m ((c : Thread nD τ).loc main_arg1) :=
  (W6_of_ne m ρ c main_arg1 (by decide)).trans (W5_weights m ρ c)

/-- The fourth argument is as launched when region 1 is left. -/
theorem kept_arg4 : W6 m ρ c (Proc.devRef .tc main_arg4) = m ((c : Thread nD τ).loc main_arg4) :=
  (W6_of_ne m ρ c main_arg4 (by decide)).trans (W5_arg4 m ρ c)

/-- The fifth argument is as launched when region 1 is left. -/
theorem kept_arg5 : W6 m ρ c (Proc.devRef .tc main_arg5) = m ((c : Thread nD τ).loc main_arg5) :=
  (W6_of_ne m ρ c main_arg5 (by decide)).trans (W5_arg5 m ρ c)

/-! ## The first host operation after region 1: the 5000 rows of 128 as one list of 640000 -/

/-- An edge's row in the 5000 × 128 table. -/
theorem row_lt (e : Fin 640000) : e.val / 128 < 5000 := by have := e.isLt; omega
/-- An edge's column in the 5000 × 128 table. -/
theorem col_lt (e : Fin 640000) : e.val % 128 < 128 := Nat.mod_lt _ (by decide)

/-- Edge `e`'s output is entry `(e / 128, e % 128)` of region 1's table. -/
theorem flat_edges (e : Fin 640000) :
    (W7 m ρ c (Proc.devRef .tc main_v9) : S640000.Idx → EReal) (ix1 e)
      = (W6 m ρ c (Proc.devRef .tc main_v8) : S5000x128.Idx → EReal) (ix2 ⟨e.val / 128, row_lt e⟩ ⟨e.val % 128, col_lt e⟩) := by
  have h : (W7 m ρ c (Proc.devRef .tc main_v9) : S640000.Idx → EReal)
      = shapeCast S640000 (W6 m ρ c (Proc.devRef .tc main_v8) : S5000x128.Idx → EReal) shapeCasts_S5000x128_S640000 := by
    dsimp only [W7, hostOps2]
    after_results
    rfl
  rw [h]
  exact shapeCast_apply (s := S5000x128) (t := S640000) _ _ _ _ (by
    rw [Shape.rowMajor_val_two, Shape.rowMajor_val_one]
    show e.val / 128 * 128 + e.val % 128 = e.val
    have := Nat.div_add_mod e.val 128; omega)

end Cert.KernelIdeal.Glue
end
-- ==== Proof.NodeValue.lean ====
/-
  The node perceptron, read off the first pipeline's arrays.

  The first region walks the 10000 nodes in ten blocks of 1000 rows. At each block it multiplies the block of node
  features by the first weight matrix, adds the first bias row, takes the positive part, multiplies by the second
  weight matrix and adds the second bias row; the result is stored twice, once per output window. On the extended
  reals a product into a zero accumulator is the plain sum over the contracted axis and a change of float format is
  the identity, so that each stored entry is the perceptron of the specification at its node and feature, and the
  ten blocks tile the 10000 rows.
-/
import proofs.«426342_j11098195493609_3_alg».proof.Proof.Gen.KernelIdeal.Frame
import proofs.«426342_j11098195493609_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.NodeValue

open Cert.KernelIdeal Cert.KernelIdeal.Gen Idealize.ShloMosaic Idealize.ShloMosaic.TcCoe Idealize.SL.Sem
open Idealize.ShloMosaic.ValueIdx
open Idealize.ShloMosaic.Pipeline (Dat)

/-! ## The two products at an index -/

/-- The first product's dimension numbers: [1000,128] against [128,512], contracting the 128. -/
abbrev dotA : DotDims S1000x128 S128x512 S1000x512 := dot_S1000x128_S128x512_S1000x512_1_0_0_1_n_n
/-- The second product's dimension numbers: [1000,512] against [512,128], contracting the 512. -/
abbrev dotB : DotDims S1000x512 S512x128 S1000x128 := dot_S1000x512_S512x128_S1000x128_1_0_0_1_n_n

/-- The left operand's row is the result's row. -/
theorem lhsA_0 (j : S1000x512.Idx) (k : dotA.contr.Idx) :
    (dot_S1000x128_S128x512_S1000x512_1_0_0_1_n_n.lhsIdx j k 0).val = (j 0).val := by
  unfold DotDims.lhsIdx
  rw [dif_neg (show ¬(0 : Fin S1000x128.rank) ∈ dot_S1000x128_S128x512_S1000x512_1_0_0_1_n_n.lhsBatch by decide),
    dif_pos (show (0 : Fin S1000x128.rank) ∈ dot_S1000x128_S128x512_S1000x512_1_0_0_1_n_n.lhsNonContracting by decide)]
  rfl
/-- The left operand's column is the contracted coordinate. -/
theorem lhsA_1 (j : S1000x512.Idx) (k : dotA.contr.Idx) :
    (dot_S1000x128_S128x512_S1000x512_1_0_0_1_n_n.lhsIdx j k 1).val = (k ⟨0, by decide⟩).val :=
  dot_S1000x128_S128x512_S1000x512_1_0_0_1_n_n.lhsIdx_val_of_single rfl j k
/-- The right operand's row is the contracted coordinate. -/
theorem rhsA_0 (j : S1000x512.Idx) (k : dotA.contr.Idx) :
    (dot_S1000x128_S128x512_S1000x512_1_0_0_1_n_n.rhsIdx j k 0).val = (k ⟨0, by decide⟩).val :=
  dot_S1000x128_S128x512_S1000x512_1_0_0_1_n_n.rhsIdx_val_of_single rfl j k
/-- The right operand's column is the result's column. -/
theorem rhsA_1 (j : S1000x512.Idx) (k : dotA.contr.Idx) :
    (dot_S1000x128_S128x512_S1000x512_1_0_0_1_n_n.rhsIdx j k 1).val = (j 1).val := by
  unfold DotDims.rhsIdx
  rw [dif_neg (show ¬(1 : Fin S128x512.rank) ∈ dot_S1000x128_S128x512_S1000x512_1_0_0_1_n_n.rhsBatch by decide),
    dif_pos (show (1 : Fin S128x512.rank) ∈ dot_S1000x128_S128x512_S1000x512_1_0_0_1_n_n.rhsNonContracting by decide)]
  rfl

/-- The first product into the zero accumulator, at row `p` and column `k`: the sum over the 128 contracted
    coordinates of the products of the entries. -/
theorem matmulA_apply (A : FVec Ideal S1000x128 .bf16) (B : FVec Ideal S128x512 .bf16) (p : Fin 1000) (k : Fin 512) :
    matmul dot_S1000x128_S128x512_S1000x512_1_0_0_1_n_n none A B (constant (F := Ideal) S1000x512 .f32 0x00000000#32) (ix2 p k)
      = ∑ j : Fin 128, A (ix2 p j) * B (ix2 j k) := by
  show FloatOps.matmul _ none A B _ (ix2 p k) = _
  rw [Ideal.matmul_constant_zero_apply, ← Equiv.sum_comp (contrEquiv1 dotA 128 rfl rfl).symm]
  refine Finset.sum_congr rfl fun j _ => ?_
  have cj := contrEquiv1_symm_val dotA 128 rfl rfl j
  have l : dot_S1000x128_S128x512_S1000x512_1_0_0_1_n_n.lhsIdx (ix2 p k) ((contrEquiv1 dotA 128 rfl rfl).symm j) = ix2 p j := by
    funext ax; apply Fin.ext
    match ax with
    | ⟨0, _⟩ => exact lhsA_0 _ _
    | ⟨1, _⟩ => exact (lhsA_1 _ _).trans cj
  have r : dot_S1000x128_S128x512_S1000x512_1_0_0_1_n_n.rhsIdx (ix2 p k) ((contrEquiv1 dotA 128 rfl rfl).symm j) = ix2 j k := by
    funext ax; apply Fin.ext
    match ax with
    | ⟨0, _⟩ => exact (rhsA_0 _ _).trans cj
    | ⟨1, _⟩ => exact rhsA_1 _ _
  rw [l, r]

/-- The left operand's row is the result's row. -/
theorem lhsB_0 (j : S1000x128.Idx) (k : dotB.contr.Idx) :
    (dot_S1000x512_S512x128_S1000x128_1_0_0_1_n_n.lhsIdx j k 0).val = (j 0).val := by
  unfold DotDims.lhsIdx
  rw [dif_neg (show ¬(0 : Fin S1000x512.rank) ∈ dot_S1000x512_S512x128_S1000x128_1_0_0_1_n_n.lhsBatch by decide),
    dif_pos (show (0 : Fin S1000x512.rank) ∈ dot_S1000x512_S512x128_S1000x128_1_0_0_1_n_n.lhsNonContracting by decide)]
  rfl
/-- The left operand's column is the contracted coordinate. -/
theorem lhsB_1 (j : S1000x128.Idx) (k : dotB.contr.Idx) :
    (dot_S1000x512_S512x128_S1000x128_1_0_0_1_n_n.lhsIdx j k 1).val = (k ⟨0, by decide⟩).val :=
  dot_S1000x512_S512x128_S1000x128_1_0_0_1_n_n.lhsIdx_val_of_single rfl j k
/-- The right operand's row is the contracted coordinate. -/
theorem rhsB_0 (j : S1000x128.Idx) (k : dotB.contr.Idx) :
    (dot_S1000x512_S512x128_S1000x128_1_0_0_1_n_n.rhsIdx j k 0).val = (k ⟨0, by decide⟩).val :=
  dot_S1000x512_S512x128_S1000x128_1_0_0_1_n_n.rhsIdx_val_of_single rfl j k
/-- The right operand's column is the result's column. -/
theorem rhsB_1 (j : S1000x128.Idx) (k : dotB.contr.Idx) :
    (dot_S1000x512_S512x128_S1000x128_1_0_0_1_n_n.rhsIdx j k 1).val = (j 1).val := by
  unfold DotDims.rhsIdx
  rw [dif_neg (show ¬(1 : Fin S512x128.rank) ∈ dot_S1000x512_S512x128_S1000x128_1_0_0_1_n_n.rhsBatch by decide),
    dif_pos (show (1 : Fin S512x128.rank) ∈ dot_S1000x512_S512x128_S1000x128_1_0_0_1_n_n.rhsNonContracting by decide)]
  rfl

/-- The second product into the zero accumulator, at row `p` and column `q`: the sum over the 512 contracted
    coordinates of the products of the entries. -/
theorem matmulB_apply (A : FVec Ideal S1000x512 .bf16) (B : FVec Ideal S512x128 .bf16) (p : Fin 1000) (q : Fin 128) :
    matmul dot_S1000x512_S512x128_S1000x128_1_0_0_1_n_n none A B (constant (F := Ideal) S1000x128 .f32 0x00000000#32) (ix2 p q)
      = ∑ k : Fin 512, A (ix2 p k) * B (ix2 k q) := by
  show FloatOps.matmul _ none A B _ (ix2 p q) = _
  rw [Ideal.matmul_constant_zero_apply, ← Equiv.sum_comp (contrEquiv1 dotB 512 rfl rfl).symm]
  refine Finset.sum_congr rfl fun k _ => ?_
  have ck := contrEquiv1_symm_val dotB 512 rfl rfl k
  have l : dot_S1000x512_S512x128_S1000x128_1_0_0_1_n_n.lhsIdx (ix2 p q) ((contrEquiv1 dotB 512 rfl rfl).symm k) = ix2 p k := by
    funext ax; apply Fin.ext
    match ax with
    | ⟨0, _⟩ => exact lhsB_0 _ _
    | ⟨1, _⟩ => exact (lhsB_1 _ _).trans ck
  have r : dot_S1000x512_S512x128_S1000x128_1_0_0_1_n_n.rhsIdx (ix2 p q) ((contrEquiv1 dotB 512 rfl rfl).symm k) = ix2 k q := by
    funext ax; apply Fin.ext
    match ax with
    | ⟨0, _⟩ => exact (rhsB_0 _ _).trans ck
    | ⟨1, _⟩ => exact rhsB_1 _ _
  rw [l, r]

/-! ## What the body stores, entry by entry -/

/-- The perceptron of one block: row `p` of the block of features against the two weight matrices and bias rows. -/
def blockMlp (x0 : FVec Ideal S1000x128 .f32) (x1 : FVec Ideal S128x512 .f32) (x2 : FVec Ideal S1x512 .f32)
    (x3 : FVec Ideal S512x128 .f32) (x4 : FVec Ideal S1x128 .f32) (p : Fin 1000) (q : Fin 128) : EReal :=
  (∑ k : Fin 512, max ((∑ j : Fin 128, x0 (ix2 p j) * x1 (ix2 j k)) + x2 (ix2 (0 : Fin 1) k)) 0 * x3 (ix2 k q))
    + x4 (ix2 (0 : Fin 1) q)

/-- The f32 payload at row `p`, feature `q` of the block. -/
theorem pay1_apply (x0 : FVec Ideal S1000x128 .f32) (x1 : FVec Ideal S128x512 .f32) (x2 : FVec Ideal S1x512 .f32)
    (x3 : FVec Ideal S512x128 .f32) (x4 : FVec Ideal S1x128 .f32) (p : Fin 1000) (q : Fin 128) :
    k0_pay1 (F := Ideal) x0 x1 x2 x3 x4 (ix2 p q) = blockMlp x0 x1 x2 x3 x4 p q := by
  unfold k0_pay1 blockMlp
  simp only [shapeCast_self]
  rw [addf_apply, matmulB_apply, broadcastTo_1b_ab_apply]
  congr 1
  refine Finset.sum_congr rfl fun k _ => ?_
  rw [truncf_apply, truncf_apply, maximumf_apply, addf_apply, matmulA_apply, broadcastTo_1b_ab_apply, broadcast_apply]
  simp only [truncf_apply]
  show max _ (Ideal.ofBits .f32 0x00000000#32) * _ = _
  rw [Ideal.ofBits_zero_f32]

/-- The bf16 payload is the same extended real: a change of format is the identity. -/
theorem pay2_apply (x0 : FVec Ideal S1000x128 .f32) (x1 : FVec Ideal S128x512 .f32) (x2 : FVec Ideal S1x512 .f32)
    (x3 : FVec Ideal S512x128 .f32) (x4 : FVec Ideal S1x128 .f32) (p : Fin 1000) (q : Fin 128) :
    k0_pay2 (F := Ideal) x0 x1 x2 x3 x4 (ix2 p q) = blockMlp x0 x1 x2 x3 x4 p q := by
  unfold k0_pay2
  rw [truncf_apply, pay1_apply]

/-! ## Each window's block as rows of its array -/

variable (V : (c : Dev nD) → (b : Ref sig .tc) → Buf (Elt Ideal) ((c : Thread nD τ).loc b))

theorem hz : (![0, 0] : Fin 2 → Nat) = fun _ => 0 := funext fun a => by fin_cases a <;> rfl

/-- The block index maps over the ten grid points: the node features and both outputs move one block of rows per
    point, the two weight matrices and the two bias rows stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The block of node features at point `t` is rows `1000 t … 1000 t + 999` of the array. -/
theorem blk_nodes (c : Dev nD) (t : Fin cfg0.N) (x : S1000x128.Idx) (k : S10000x128.Idx)
    (hk0 : (k 0).val = 1000 * t.val + (x 0).val) (hk1 : (k 1).val = (x 1).val) :
    (iblk0 (F := Ideal) V c 0 t : FVec Ideal S1000x128 .f32) x
      = (V c (Pipeline.arrRef spec0 0) : S10000x128.Idx → EReal) k := by
  obtain ⟨e0, e1, -⟩ := idx_facts t
  unfold iblk0
  rw [View.read_apply]
  show (V c (Pipeline.arrRef spec0 0) : S10000x128.Idx → EReal) _ = _
  congr 1
  funext a
  apply Fin.ext
  match a with
  | ⟨0, _⟩ => show win0_0.index t (0 : Fin 2) * 1000 + 1 * (x 0).val = (k 0).val; rw [e0, hk0]; omega
  | ⟨1, _⟩ => show win0_0.index t (1 : Fin 2) * 128 + 1 * (x 1).val = (k 1).val; rw [e1, hk1]; omega

/-- The first weight matrix's one block is the whole array. -/
theorem blk_w1 (c : Dev nD) (t : Fin cfg0.N) (x : S128x512.Idx) :
    (iblk0 (F := Ideal) V c 1 t : FVec Ideal S128x512 .f32) x
      = (V c (Pipeline.arrRef spec0 1) : S128x512.Idx → EReal) x := by
  obtain ⟨-, -, e0, e1, -⟩ := idx_facts t
  unfold iblk0
  rw [View.read_apply]
  show (V c (Pipeline.arrRef spec0 1) : S128x512.Idx → EReal) _ = _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 512 + 1 * (x 1).val = (x 1).val; rw [e1]; omega

/-- The first bias row's one block is the whole array. -/
theorem blk_b1 (c : Dev nD) (t : Fin cfg0.N) (x : S1x512.Idx) :
    (iblk0 (F := Ideal) V c 2 t : FVec Ideal S1x512 .f32) x
      = (V c (Pipeline.arrRef spec0 2) : S1x512.Idx → EReal) x := by
  obtain ⟨-, -, -, -, e0, e1, -⟩ := idx_facts t
  unfold iblk0
  rw [View.read_apply]
  show (V c (Pipeline.arrRef spec0 2) : S1x512.Idx → EReal) _ = _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 512 + 1 * (x 1).val = (x 1).val; rw [e1]; omega

/-- The second weight matrix's one block is the whole array. -/
theorem blk_w2 (c : Dev nD) (t : Fin cfg0.N) (x : S512x128.Idx) :
    (iblk0 (F := Ideal) V c 3 t : FVec Ideal S512x128 .f32) x
      = (V c (Pipeline.arrRef spec0 3) : S512x128.Idx → EReal) x := by
  obtain ⟨-, -, -, -, -, -, e0, e1, -⟩ := idx_facts t
  unfold iblk0
  rw [View.read_apply]
  show (V c (Pipeline.arrRef spec0 3) : S512x128.Idx → EReal) _ = _
  congr 1
  funext a
  apply Fin.ext
  match a with
  | ⟨0, _⟩ => show win0_3.index t (0 : Fin 2) * 512 + 1 * (x 0).val = (x 0).val; rw [e0]; omega
  | ⟨1, _⟩ => show win0_3.index t (1 : Fin 2) * 128 + 1 * (x 1).val = (x 1).val; rw [e1]; omega

/-- The second bias row's one block is the whole array. -/
theorem blk_b2 (c : Dev nD) (t : Fin cfg0.N) (x : S1x128.Idx) :
    (iblk0 (F := Ideal) V c 4 t : FVec Ideal S1x128 .f32) x
      = (V c (Pipeline.arrRef spec0 4) : S1x128.Idx → EReal) x := by
  obtain ⟨-, -, -, -, -, -, -, -, e0, e1, -⟩ := idx_facts t
  unfold iblk0
  rw [View.read_apply]
  show (V c (Pipeline.arrRef spec0 4) : S1x128.Idx → EReal) _ = _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-! ## The two output arrays -/

/-- The perceptron's table over the whole array of nodes: at index `i`, the specification's perceptron of the
    five arrays the region finds, at node `i 0` and feature `i 1`. -/
def table (c : Dev nD) : S10000x128.Idx → EReal := fun i =>
  Cert.Spec.mlp (fun a b => V c (Pipeline.arrRef spec0 0) (ix2 a b)) (fun a b => V c (Pipeline.arrRef spec0 1) (ix2 a b))
    (fun k => V c (Pipeline.arrRef spec0 2) (ix2 0 k)) (fun a b => V c (Pipeline.arrRef spec0 3) (ix2 a b))
    (fun k => V c (Pipeline.arrRef spec0 4) (ix2 0 k)) ⟨(i 0).val, idx2_lt0 i⟩ ⟨(i 1).val, idx2_lt1 i⟩

/-- The perceptron of the five blocks at point `t`, at row `p` of the block, is the table at row `1000 t + p`. -/
theorem blockMlp_eq (c : Dev nD) (t : Fin cfg0.N) (p : Fin 1000) (q : Fin 128) (i : S10000x128.Idx)
    (hi0 : (i 0).val = 1000 * t.val + p.val) (hi1 : (i 1).val = q.val) :
    blockMlp (iblk0 (F := Ideal) V c 0 t) (iblk0 (F := Ideal) V c 1 t) (iblk0 (F := Ideal) V c 2 t)
      (iblk0 (F := Ideal) V c 3 t) (iblk0 (F := Ideal) V c 4 t) p q = table V c i := by
  have hq : (⟨(i 1).val, idx2_lt1 i⟩ : Fin 128) = q := Fin.ext hi1
  have hn : ∀ j : Fin 128, (iblk0 (F := Ideal) V c 0 t : FVec Ideal S1000x128 .f32) (ix2 p j)
      = (V c (Pipeline.arrRef spec0 0) : S10000x128.Idx → EReal) (ix2 (⟨(i 0).val, idx2_lt0 i⟩ : Fin 10000) j) :=
    fun j => blk_nodes V c t (ix2 p j) (ix2 (⟨(i 0).val, idx2_lt0 i⟩ : Fin 10000) j) hi0 rfl
  unfold blockMlp table Cert.Spec.mlp Cert.Spec.hidden
  rw [hq]
  simp only [hn, blk_w1, blk_b1, blk_w2, blk_b2]

/-- The f32 payload of the blocks at point `t`, at an index of the block, is the table at the index it is written to. -/
theorem pay1_table (c : Dev nD) (t : Fin cfg0.N) (j : S1000x128.Idx) (i : S10000x128.Idx)
    (hi0 : (i 0).val = 1000 * t.val + (j 0).val) (hi1 : (i 1).val = (j 1).val) :
    k0_pay1 (F := Ideal) (iblk0 (F := Ideal) V c 0 t) (iblk0 (F := Ideal) V c 1 t) (iblk0 (F := Ideal) V c 2 t)
      (iblk0 (F := Ideal) V c 3 t) (iblk0 (F := Ideal) V c 4 t) j = table V c i := by
  obtain ⟨p, q, rfl⟩ : ∃ (p : Fin 1000) (q : Fin 128), j = ix2 p q := ⟨j 0, j 1, eq_ix2 j⟩
  rw [pay1_apply]
  exact blockMlp_eq V c t p q i hi0 hi1

/-- The bf16 payload likewise. -/
theorem pay2_table (c : Dev nD) (t : Fin cfg0.N) (j : S1000x128.Idx) (i : S10000x128.Idx)
    (hi0 : (i 0).val = 1000 * t.val + (j 0).val) (hi1 : (i 1).val = (j 1).val) :
    k0_pay2 (F := Ideal) (iblk0 (F := Ideal) V c 0 t) (iblk0 (F := Ideal) V c 1 t) (iblk0 (F := Ideal) V c 2 t)
      (iblk0 (F := Ideal) V c 3 t) (iblk0 (F := Ideal) V c 4 t) j = table V c i := by
  obtain ⟨p, q, rfl⟩ : ∃ (p : Fin 1000) (q : Fin 128), j = ix2 p q := ⟨j 0, j 1, eq_ix2 j⟩
  rw [pay2_apply]
  exact blockMlp_eq V c t p q i hi0 hi1

/-- What point `t` writes back to output window 5's array is block `t` of the perceptron's table. -/
theorem flushed5_eq (c : Dev nD) (t : Fin cfg0.N) :
    (dat0 (F := Ideal) V c).flushed 5 t = ((cfg0.win 5).blk t).view.read (Elt Ideal) (table V c) := by
  show (cfg0.win 5).cut (grid0.coords t) ((dat0 V c).after 5 t) = _
  rw [after0_5]
  unfold out0_5
  rw [View.canon_unit_zero hz]
  simp only [View.ld_unit_zero (S := S1000x128) hz, View.ld_unit_zero (S := S128x512) hz,
    View.ld_unit_zero (S := S1x512) hz, View.ld_unit_zero (S := S512x128) hz, View.ld_unit_zero (S := S1x128) hz]
  obtain ⟨-, -, -, -, -, -, -, -, -, -, e50, e51, e60, e61⟩ := idx_facts t
  funext j
  show k0_pay1 (F := Ideal) (iblk0 V c 0 t) (iblk0 V c 1 t) (iblk0 V c 2 t) (iblk0 V c 3 t) (iblk0 V c 4 t) j
    = table V c (((cfg0.win 5).blk t).view.emb j)
  refine pay1_table V c t j _ ?_ ?_
  · show win0_5.index t (0 : Fin 2) * 1000 + 1 * (j 0).val = 1000 * t.val + (j 0).val; rw [e50]; omega
  · show win0_5.index t (1 : Fin 2) * 128 + 1 * (j 1).val = (j 1).val; rw [e51]; omega

/-- An index of the array is in point `t`'s block iff each coordinate is in the block's range on its axis. -/
theorem mem_blk5 (t : Fin cfg0.N) (i : S10000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v2_0).slice (win0_5.rect t)).set ↔ _
  rw [View.set_slice_whole, Rect.mem_set_unit]
  exact Iff.rfl

/-- The ten blocks of 1000 rows tile the 10000 rows: row `r` is in the block of point `r / 1000`. -/
theorem cover5 (i : S10000x128.Idx) :
    ∃ t : Fin cfg0.N, (cfg0.win 5).flush t = true ∧ i ∈ ((cfg0.win 5).blk t).view.set := by
  have hi0 : (i 0).val < 10000 := idx2_lt0 i
  have hi1 : (i 1).val < 128 := idx2_lt1 i
  have hlt : (i 0).val / 1000 < cfg0.N := by show _ < 10; omega
  obtain ⟨-, -, -, -, -, -, -, -, -, -, e50, e51, e60, e61⟩ := idx_facts ⟨(i 0).val / 1000, hlt⟩
  refine ⟨⟨(i 0).val / 1000, hlt⟩, flush0_5 _, ?_⟩
  rw [mem_blk5]
  intro a
  match a with
  | ⟨0, _⟩ =>
    show win0_5.index ⟨(i 0).val / 1000, hlt⟩ (0 : Fin 2) * 1000 ≤ (i 0).val
      ∧ (i 0).val < win0_5.index ⟨(i 0).val / 1000, hlt⟩ (0 : Fin 2) * 1000 + 1000
    rw [e50]; show (i 0).val / 1000 * 1000 ≤ (i 0).val ∧ (i 0).val < (i 0).val / 1000 * 1000 + 1000; omega
  | ⟨1, _⟩ =>
    show win0_5.index ⟨(i 0).val / 1000, hlt⟩ (1 : Fin 2) * 128 ≤ (i 1).val
      ∧ (i 1).val < win0_5.index ⟨(i 0).val / 1000, hlt⟩ (1 : Fin 2) * 128 + 128
    rw [e51]; omega

/-- So output window 5's array ends holding the perceptron's table. -/
theorem final5 (c : Dev nD) : (dat0 (F := Ideal) V c).arrAt 5 cfg0.N = table V c :=
  (dat0 (F := Ideal) V c).arrAt_eq_of_cover 5 (table V c) (fun t _ => flushed5_eq V c t) (cover5)

/-- What point `t` writes back to output window 6's array is block `t` of the perceptron's table. -/
theorem flushed6_eq (c : Dev nD) (t : Fin cfg0.N) :
    (dat0 (F := Ideal) V c).flushed 6 t = ((cfg0.win 6).blk t).view.read (Elt Ideal) (table V c) := by
  show (cfg0.win 6).cut (grid0.coords t) ((dat0 V c).after 6 t) = _
  rw [after0_6]
  unfold out0_6
  rw [View.canon_unit_zero hz]
  simp only [View.ld_unit_zero (S := S1000x128) hz, View.ld_unit_zero (S := S128x512) hz,
    View.ld_unit_zero (S := S1x512) hz, View.ld_unit_zero (S := S512x128) hz, View.ld_unit_zero (S := S1x128) hz]
  obtain ⟨-, -, -, -, -, -, -, -, -, -, e50, e51, e60, e61⟩ := idx_facts t
  funext j
  show k0_pay2 (F := Ideal) (iblk0 V c 0 t) (iblk0 V c 1 t) (iblk0 V c 2 t) (iblk0 V c 3 t) (iblk0 V c 4 t) j
    = table V c (((cfg0.win 6).blk t).view.emb j)
  refine pay2_table V c t j _ ?_ ?_
  · show win0_6.index t (0 : Fin 2) * 1000 + 1 * (j 0).val = 1000 * t.val + (j 0).val; rw [e60]; omega
  · show win0_6.index t (1 : Fin 2) * 128 + 1 * (j 1).val = (j 1).val; rw [e61]; omega

/-- An index of the array is in point `t`'s block iff each coordinate is in the block's range on its axis. -/
theorem mem_blk6 (t : Fin cfg0.N) (i : S10000x128.Idx) :
    i ∈ ((cfg0.win 6).blk t).view.set ↔ ∀ a : Fin 2, win0_6.index t a * S1000x128.size a ≤ (i a).val
      ∧ (i a).val < win0_6.index t a * S1000x128.size a + S1000x128.size a := by
  show i ∈ ((View.whole main_v2_1).slice (win0_6.rect t)).set ↔ _
  rw [View.set_slice_whole, Rect.mem_set_unit]
  exact Iff.rfl

/-- The ten blocks of 1000 rows tile the 10000 rows: row `r` is in the block of point `r / 1000`. -/
theorem cover6 (i : S10000x128.Idx) :
    ∃ t : Fin cfg0.N, (cfg0.win 6).flush t = true ∧ i ∈ ((cfg0.win 6).blk t).view.set := by
  have hi0 : (i 0).val < 10000 := idx2_lt0 i
  have hi1 : (i 1).val < 128 := idx2_lt1 i
  have hlt : (i 0).val / 1000 < cfg0.N := by show _ < 10; omega
  obtain ⟨-, -, -, -, -, -, -, -, -, -, e50, e51, e60, e61⟩ := idx_facts ⟨(i 0).val / 1000, hlt⟩
  refine ⟨⟨(i 0).val / 1000, hlt⟩, flush0_6 _, ?_⟩
  rw [mem_blk6]
  intro a
  match a with
  | ⟨0, _⟩ =>
    show win0_6.index ⟨(i 0).val / 1000, hlt⟩ (0 : Fin 2) * 1000 ≤ (i 0).val
      ∧ (i 0).val < win0_6.index ⟨(i 0).val / 1000, hlt⟩ (0 : Fin 2) * 1000 + 1000
    rw [e60]; show (i 0).val / 1000 * 1000 ≤ (i 0).val ∧ (i 0).val < (i 0).val / 1000 * 1000 + 1000; omega
  | ⟨1, _⟩ =>
    show win0_6.index ⟨(i 0).val / 1000, hlt⟩ (1 : Fin 2) * 128 ≤ (i 1).val
      ∧ (i 1).val < win0_6.index ⟨(i 0).val / 1000, hlt⟩ (1 : Fin 2) * 128 + 128
    rw [e61]; omega

/-- So output window 6's array ends holding the perceptron's table. -/
theorem final6 (c : Dev nD) : (dat0 (F := Ideal) V c).arrAt 6 cfg0.N = table V c :=
  (dat0 (F := Ideal) V c).arrAt_eq_of_cover 6 (table V c) (fun t _ => flushed6_eq V c t) (cover6)

/-! ## The region's value -/

/-- The f32 output array after the region, at node `p` and feature `q`, is the specification's perceptron of the five
    arrays the region finds. -/
theorem node_f32 (c : Dev nD) (p : Fin 10000) (q : Fin 128) :
    ((dat0 (F := Ideal) V c).arrAt 5 cfg0.N : S10000x128.Idx → EReal) (ix2 p q)
      = Cert.Spec.mlp (fun a b => V c (Pipeline.arrRef spec0 0) (ix2 a b)) (fun a b => V c (Pipeline.arrRef spec0 1) (ix2 a b))
          (fun k => V c (Pipeline.arrRef spec0 2) (ix2 0 k)) (fun a b => V c (Pipeline.arrRef spec0 3) (ix2 a b))
          (fun k => V c (Pipeline.arrRef spec0 4) (ix2 0 k)) p q :=
  congrFun (final5 V c) (ix2 p q)

/-- The bf16 output array holds the same extended reals. -/
theorem node_bf16 (c : Dev nD) (p : Fin 10000) (q : Fin 128) :
    ((dat0 (F := Ideal) V c).arrAt 6 cfg0.N : S10000x128.Idx → EReal) (ix2 p q)
      = Cert.Spec.mlp (fun a b => V c (Pipeline.arrRef spec0 0) (ix2 a b)) (fun a b => V c (Pipeline.arrRef spec0 1) (ix2 a b))
          (fun k => V c (Pipeline.arrRef spec0 2) (ix2 0 k)) (fun a b => V c (Pipeline.arrRef spec0 3) (ix2 a b))
          (fun k => V c (Pipeline.arrRef spec0 4) (ix2 0 k)) p q :=
  congrFun (final6 V c) (ix2 p q)

end Cert.KernelIdeal.NodeValue

end
-- ==== Proof.Arrays.lean ====
/-
  The two arrays both programs end up feeding to their common tail, as plain functions of the argument arrays:
  the perceptron's output for every node and feature, and every edge's weighted squared distance between the
  perceptron's rows at its sender and at its receiver.
-/
import proofs.«426342_j11098195493609_3_alg».proof.Proof.Spec
import Idealize.ShloMosaic.PureOps.Ideal
import Idealize.ShloMosaic.Lib.ValueIdx

noncomputable section

namespace Cert.Spec

open Idealize.ShloMosaic Idealize.ShloMosaic.ValueIdx

/-- The perceptron at node `p`, feature `q`, from the five parameter arrays as the programs receive them. -/
def hArr (a0 : FVec Ideal ⟨2, ![10000, 128]⟩ .f32) (a6 : FVec Ideal ⟨2, ![128, 512]⟩ .f32) (a7 : FVec Ideal ⟨1, ![512]⟩ .f32)
    (a8 : FVec Ideal ⟨2, ![512, 128]⟩ .f32) (a9 : FVec Ideal ⟨1, ![128]⟩ .f32) (p : Fin 10000) (q : Fin 128) : EReal :=
  mlp (fun a b => a0 (ix2 a b)) (fun a b => a6 (ix2 a b)) (fun k => a7 (ix1 k)) (fun a b => a8 (ix2 a b)) (fun k => a9 (ix1 k)) p q

/-- The same as a [10000, 128] array. -/
def hVec (a0 : FVec Ideal ⟨2, ![10000, 128]⟩ .f32) (a6 : FVec Ideal ⟨2, ![128, 512]⟩ .f32) (a7 : FVec Ideal ⟨1, ![512]⟩ .f32)
    (a8 : FVec Ideal ⟨2, ![512, 128]⟩ .f32) (a9 : FVec Ideal ⟨1, ![128]⟩ .f32) : FVec Ideal ⟨2, ![10000, 128]⟩ .f32 :=
  fun i => hArr a0 a6 a7 a8 a9 (i 0) (i 1)

theorem hVec_apply (a0 : FVec Ideal ⟨2, ![10000, 128]⟩ .f32) (a6 : FVec Ideal ⟨2, ![128, 512]⟩ .f32) (a7 : FVec Ideal ⟨1, ![512]⟩ .f32)
    (a8 : FVec Ideal ⟨2, ![512, 128]⟩ .f32) (a9 : FVec Ideal ⟨1, ![128]⟩ .f32) (p : Fin 10000) (q : Fin 128) :
    hVec a0 a6 a7 a8 a9 (ix2 p q) = hArr a0 a6 a7 a8 a9 p q := rfl

/-- Every edge's output as a [640000] array: its weight times the squared distance of its two rows of `g`. -/
def eVec (g : Fin 10000 → Fin 128 → EReal) (a2 a3 : IVec ⟨1, ![640000]⟩ 32) (a1 : FVec Ideal ⟨2, ![640000, 1]⟩ .f32) :
    FVec Ideal ⟨1, ![640000]⟩ .f32 :=
  fun i => edge g (fun e => a2 (ix1 e)) (fun e => a3 (ix1 e)) (fun e => a1 (ix2 e 0)) (i 0)

theorem eVec_apply (g : Fin 10000 → Fin 128 → EReal) (a2 a3 : IVec ⟨1, ![640000]⟩ 32) (a1 : FVec Ideal ⟨2, ![640000, 1]⟩ .f32)
    (e : Fin 640000) :
    eVec g a2 a3 a1 (ix1 e) = edge g (fun e => a2 (ix1 e)) (fun e => a3 (ix1 e)) (fun e => a1 (ix2 e 0)) e := rfl

/-- A [10240]-row table that is `g` on its first 10000 rows and zero below gives the same edge outputs. -/
theorem edge_of_padded (g : Fin 10000 → Fin 128 → EReal) (T : Fin 10240 → Fin 128 → EReal)
    (hT : ∀ (n : Fin 10240) (d : Fin 128), T n d = if hn : n.val < 10000 then g ⟨n.val, hn⟩ d else 0)
    (s r : Fin 640000 → BitVec 32) (w : Fin 640000 → EReal) (e : Fin 640000) :
    w e * ∑ d : Fin 128, (look T (s e) d - look T (r e) d) * (look T (s e) d - look T (r e) d) = edge g s r w e := by
  have hpad : ∀ (v : BitVec 32) (d : Fin 128), look T v d = look g v d := fun v d =>
    look_pad (by norm_num) g T (fun n hn d => by rw [hT n d, dif_pos hn])
      (fun n hn d => by rw [hT n d, dif_neg (Nat.not_lt.mpr hn)]) v d
  simp only [edge, hpad]

end Cert.Spec

end
-- ==== Proof.Algebra.lean ====
/-
  Arithmetic on the extended reals for tables whose entries are all real numbers.

  On the extended reals a product does not distribute over a sum and `x - x` is not `0` once an
  infinity is involved, so every identity below is obtained by naming the real number behind each
  entry, moving the inclusion of the reals to the outside of the expression, and concluding among the
  reals.  Three facts are recorded: a sum against the difference of two row indicators reads off the
  difference of the two looked-up rows; the perceptron of real tables is a real table; a looked-up
  entry of a real table is a real number.
-/
import proofs.«426342_j11098195493609_3_alg».proof.Proof.Spec
import Mathlib.Data.EReal.Basic
import Mathlib.Data.EReal.Operations
import Mathlib.Algebra.BigOperators.Fin
import Mathlib.Algebra.BigOperators.Group.Finset.Basic

noncomputable section

namespace Cert.Spec

open Idealize.ShloMosaic

/-- The inclusion of the reals into the extended reals commutes with a finite sum. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real number. -/
theorem real_sum {ι : Type} (s : Finset ι) (f : ι → EReal) (hf : ∀ i, ∃ r : ℝ, f i = (r : EReal)) :
    ∃ r : ℝ, ∑ i ∈ s, f i = (r : EReal) := by
  choose F hF using hf
  exact ⟨∑ i ∈ s, F i, by rw [coe_finset_sum]; exact Finset.sum_congr rfl (fun i _ => hF i)⟩

/-- Among the reals: a sum against the indicator of the row numbered `k` reads off that row when
`k` is below the height, and is `0` otherwise. -/
theorem sum_indicator_real {N : ℕ} (G : Fin N → ℝ) (k : ℕ) :
    ∑ n : Fin N, (if k = n.val then (1 : ℝ) else 0) * G n = if h : k < N then G ⟨k, h⟩ else 0 := by
  by_cases h : k < N
  · rw [dif_pos h, Finset.sum_eq_single (⟨k, h⟩ : Fin N)]
    · simp
    · intro b _ hb
      have hne : k ≠ b.val := fun e => hb (Fin.ext e.symm)
      rw [if_neg hne, zero_mul]
    · intro hnot
      exact absurd (Finset.mem_univ _) hnot
  · rw [dif_neg h]
    apply Finset.sum_eq_zero
    intro n _
    have hne : k ≠ n.val := fun e => h (e ▸ n.isLt)
    rw [if_neg hne, zero_mul]

/-- A looked-up entry of a table with real witnesses `G` is the inclusion of the same look-up
made among the reals. -/
theorem look_coe {N : ℕ} (g : Fin N → Fin 128 → EReal) (G : Fin N → Fin 128 → ℝ)
    (hG : ∀ n d, g n d = (G n d : EReal)) (v : BitVec 32) (d : Fin 128) :
    look g v d = ((if h : v.toNat < N then G ⟨v.toNat, h⟩ d else 0 : ℝ) : EReal) := by
  unfold look
  by_cases h : v.toNat < N
  · rw [dif_pos h, dif_pos h]; exact hG _ _
  · rw [dif_neg h, dif_neg h]; rfl

/-- A sum over the rows of a real table against the difference of the indicators of rows `s` and
`r` is the difference of the two looked-up rows. -/
theorem onehot_look {N : ℕ} (g : Fin N → Fin 128 → EReal) (hg : Real2 g) (a b : Fin N → EReal) (s r : BitVec 32) (ha : ∀ n : Fin N, a n = if s.toNat = n.val then 1 else 0) (hb : ∀ n : Fin N, b n = if r.toNat = n.val then 1 else 0) (d : Fin 128) : ∑ n : Fin N, (a n - b n) * g n d = look g s d - look g r d := by
  choose G hG using hg
  have hterm : ∀ n : Fin N, (a n - b n) * g n d =
      (((if s.toNat = n.val then (1 : ℝ) else 0) * G n d
        - (if r.toNat = n.val then (1 : ℝ) else 0) * G n d : ℝ) : EReal) := by
    intro n
    have ha' : a n = ((if s.toNat = n.val then (1 : ℝ) else 0 : ℝ) : EReal) := by
      rw [ha n]; split_ifs <;> rfl
    have hb' : b n = ((if r.toNat = n.val then (1 : ℝ) else 0 : ℝ) : EReal) := by
      rw [hb n]; split_ifs <;> rfl
    rw [ha', hb', hG n d, ← EReal.coe_sub, ← EReal.coe_mul, sub_mul]
  rw [Finset.sum_congr rfl (fun n _ => hterm n), ← coe_finset_sum, Finset.sum_sub_distrib,
    sum_indicator_real (fun n => G n d) s.toNat, sum_indicator_real (fun n => G n d) r.toNat,
    look_coe g G hG s d, look_coe g G hG r d, ← EReal.coe_sub]

/-- A looked-up entry of a real table is a real number. -/
theorem look_real {N : ℕ} (g : Fin N → Fin 128 → EReal) (hg : Real2 g) (v : BitVec 32) (d : Fin 128) : ∃ x : ℝ, look g v d = (x : EReal) := by
  choose G hG using hg
  exact ⟨_, look_coe g G hG v d⟩

/-- The positive part of a real number is a real number. -/
theorem real_max_zero (x : EReal) (hx : ∃ r : ℝ, x = (r : EReal)) :
    ∃ r : ℝ, max x 0 = (r : EReal) := by
  obtain ⟨r, rfl⟩ := hx
  rcases le_total ((r : ℝ) : EReal) 0 with h | h
  · exact ⟨0, by rw [max_eq_right h]; rfl⟩
  · exact ⟨r, by rw [max_eq_left h]⟩

/-- The hidden layer of real tables is a real table. -/
theorem hidden_real (x : Fin 10000 → Fin 128 → EReal) (w1 : Fin 128 → Fin 512 → EReal)
    (b1 : Fin 512 → EReal) (hx : Real2 x) (hw1 : Real2 w1) (hb1 : Real1 b1) :
    Real2 (hidden x w1 b1) := by
  intro p k
  unfold hidden
  apply real_max_zero
  obtain ⟨S, hS⟩ := real_sum Finset.univ (fun j : Fin 128 => x p j * w1 j k) (fun j => by
    obtain ⟨u, hu⟩ := hx p j
    obtain ⟨v, hv⟩ := hw1 j k
    exact ⟨u * v, by rw [hu, hv, EReal.coe_mul]⟩)
  obtain ⟨c, hc⟩ := hb1 k
  exact ⟨S + c, by rw [hS, hc, EReal.coe_add]⟩

/-- The perceptron of real tables is a real table. -/
theorem mlp_real (x : Fin 10000 → Fin 128 → EReal) (w1 : Fin 128 → Fin 512 → EReal) (b1 : Fin 512 → EReal) (w2 : Fin 512 → Fin 128 → EReal) (b2 : Fin 128 → EReal) (hx : Real2 x) (hw1 : Real2 w1) (hb1 : Real1 b1) (hw2 : Real2 w2) (hb2 : Real1 b2) : Real2 (mlp x w1 b1 w2 b2) := by
  intro p q
  unfold mlp
  have hh := hidden_real x w1 b1 hx hw1 hb1
  obtain ⟨S, hS⟩ := real_sum Finset.univ (fun k : Fin 512 => hidden x w1 b1 p k * w2 k q) (fun k => by
    obtain ⟨u, hu⟩ := hh p k
    obtain ⟨v, hv⟩ := hw2 k q
    exact ⟨u * v, by rw [hu, hv, EReal.coe_mul]⟩)
  obtain ⟨c, hc⟩ := hb2 q
  exact ⟨S + c, by rw [hS, hc, EReal.coe_add]⟩

end Cert.Spec

end
-- ==== Proof.KernelH.lean ====
/-
  What the first region leaves, in terms of the launched arguments.

  The first region finds the node features and the two weight matrices as launched, and the two biases
  recast as tables of one row; it leaves, in both of its outputs, the perceptron of what it finds. So
  both outputs are the perceptron of the five launched arrays, and the table the second region looks
  rows up in — the second output with 240 rows of zeros below — is that perceptron on its first 10000
  rows and zero below. When the five launched arrays hold real numbers only, so does that table.
-/
import proofs.«426342_j11098195493609_3_alg».proof.Proof.Gen.KernelIdeal.Frame
import proofs.«426342_j11098195493609_3_alg».proof.Proof.NodeValue
import proofs.«426342_j11098195493609_3_alg».proof.Proof.KernelGlue
import proofs.«426342_j11098195493609_3_alg».proof.Proof.Arrays
import proofs.«426342_j11098195493609_3_alg».proof.Proof.Algebra
import Idealize.ShloMosaic.Lib.ValueIdx

set_option maxRecDepth 16384

noncomputable section

namespace Cert.KernelIdeal.KernelH

open Idealize.ShloMosaic Idealize.ShloMosaic.TcCoe
open Idealize.ShloMosaic.ValueIdx
open Cert.KernelIdeal Cert.KernelIdeal.Gen

variable (m : (ℓ : Loc nD τ sig) → Buf (Elt Ideal) ℓ) (ρ : Dev nD → PrngReg) (c : Dev nD)

/-- The perceptron of the five arrays the first region finds is the perceptron of the five launched
    arrays: three are found as launched, and a one-row table's entry `(0, k)` is the bias at `k`. -/
theorem mlp_entry (p : Fin 10000) (q : Fin 128) :
    Cert.Spec.mlp
        (fun a b => (V1 m ρ c (Pipeline.arrRef spec0 0) : S10000x128.Idx → EReal) (ix2 a b))
        (fun a b => (V1 m ρ c (Pipeline.arrRef spec0 1) : S128x512.Idx → EReal) (ix2 a b))
        (fun k => (V1 m ρ c (Pipeline.arrRef spec0 2) : S1x512.Idx → EReal) (ix2 0 k))
        (fun a b => (V1 m ρ c (Pipeline.arrRef spec0 3) : S512x128.Idx → EReal) (ix2 a b))
        (fun k => (V1 m ρ c (Pipeline.arrRef spec0 4) : S1x128.Idx → EReal) (ix2 0 k)) p q
      = Cert.Spec.hArr (m ((c : Thread nD τ).loc main_arg0)) (m ((c : Thread nD τ).loc main_arg6))
          (m ((c : Thread nD τ).loc main_arg7)) (m ((c : Thread nD τ).loc main_arg8))
          (m ((c : Thread nD τ).loc main_arg9)) p q := by
  have e2 : (fun k : Fin 512 => (V1 m ρ c (Pipeline.arrRef spec0 2) : S1x512.Idx → EReal) (ix2 0 k))
      = fun k => (m ((c : Thread nD τ).loc main_arg7) : S512.Idx → EReal) (ix1 k) :=
    funext (Glue.entry0_b1 m ρ c)
  have e4 : (fun k : Fin 128 => (V1 m ρ c (Pipeline.arrRef spec0 4) : S1x128.Idx → EReal) (ix2 0 k))
      = fun k => (m ((c : Thread nD τ).loc main_arg9) : S128.Idx → EReal) (ix1 k) :=
    funext (Glue.entry0_b2 m ρ c)
  rw [e2, e4, Glue.entry0_nodes, Glue.entry0_w1, Glue.entry0_w2]
  rfl

/-- The first region's long-format output is the perceptron of the launched arrays. -/
theorem rows_f32 :
    ((dat0 (F := Ideal) (V1 m ρ) c).arrAt 5 cfg0.N : S10000x128.Idx → EReal)
      = Cert.Spec.hVec (m ((c : Thread nD τ).loc main_arg0)) (m ((c : Thread nD τ).loc main_arg6))
          (m ((c : Thread nD τ).loc main_arg7)) (m ((c : Thread nD τ).loc main_arg8))
          (m ((c : Thread nD τ).loc main_arg9)) := by
  funext i
  obtain ⟨p, q, rfl⟩ : ∃ (p : Fin 10000) (q : Fin 128), i = ix2 p q := ⟨i 0, i 1, eq_ix2 i⟩
  rw [Cert.Spec.hVec_apply]
  exact (NodeValue.node_f32 (V1 m ρ) c p q).trans (mlp_entry m ρ c p q)

/-- The first region's short-format output holds the same extended reals. -/
theorem rows_bf16 :
    ((dat0 (F := Ideal) (V1 m ρ) c).arrAt 6 cfg0.N : S10000x128.Idx → EReal)
      = Cert.Spec.hVec (m ((c : Thread nD τ).loc main_arg0)) (m ((c : Thread nD τ).loc main_arg6))
          (m ((c : Thread nD τ).loc main_arg7)) (m ((c : Thread nD τ).loc main_arg8))
          (m ((c : Thread nD τ).loc main_arg9)) := by
  funext i
  obtain ⟨p, q, rfl⟩ : ∃ (p : Fin 10000) (q : Fin 128), i = ix2 p q := ⟨i 0, i 1, eq_ix2 i⟩
  rw [Cert.Spec.hVec_apply]
  exact (NodeValue.node_bf16 (V1 m ρ) c p q).trans (mlp_entry m ρ c p q)

/-- The table the second region looks rows up in: the perceptron of the launched arrays on its first
    10000 rows, zero on the 240 rows below. -/
theorem table_eq (n : Fin 10240) (d : Fin 128) :
    (V5 m ρ c (Pipeline.arrRef spec1 3) : S10240x128.Idx → EReal) (ix2 n d)
      = if hn : n.val < 10000 then
          Cert.Spec.hArr (m ((c : Thread nD τ).loc main_arg0)) (m ((c : Thread nD τ).loc main_arg6))
            (m ((c : Thread nD τ).loc main_arg7)) (m ((c : Thread nD τ).loc main_arg8))
            (m ((c : Thread nD τ).loc main_arg9)) ⟨n.val, hn⟩ d
        else 0 := by
  rw [Glue.entry1_table m ρ c n d]
  by_cases hn : n.val < 10000
  · rw [dif_pos hn, dif_pos hn, rows_bf16 m ρ c, Cert.Spec.hVec_apply]
  · rw [dif_neg hn, dif_neg hn]

/-- When the five launched arrays hold real numbers only, so does that table. -/
theorem table_real
    (hx : Cert.Spec.Real2 (fun (p : Fin 10000) (q : Fin 128) =>
      (m ((c : Thread nD τ).loc main_arg0) : S10000x128.Idx → EReal) (ix2 p q)))
    (hw1 : Cert.Spec.Real2 (fun (j : Fin 128) (k : Fin 512) =>
      (m ((c : Thread nD τ).loc main_arg6) : S128x512.Idx → EReal) (ix2 j k)))
    (hb1 : Cert.Spec.Real1 (fun (k : Fin 512) =>
      (m ((c : Thread nD τ).loc main_arg7) : S512.Idx → EReal) (ix1 k)))
    (hw2 : Cert.Spec.Real2 (fun (k : Fin 512) (q : Fin 128) =>
      (m ((c : Thread nD τ).loc main_arg8) : S512x128.Idx → EReal) (ix2 k q)))
    (hb2 : Cert.Spec.Real1 (fun (q : Fin 128) =>
      (m ((c : Thread nD τ).loc main_arg9) : S128.Idx → EReal) (ix1 q))) :
    Cert.Spec.Real2 (fun (n : Fin 10240) (d : Fin 128) =>
      (V5 m ρ c (Pipeline.arrRef spec1 3) : S10240x128.Idx → EReal) (ix2 n d)) := by
  intro n d
  show ∃ r : ℝ, (V5 m ρ c (Pipeline.arrRef spec1 3) : S10240x128.Idx → EReal) (ix2 n d) = (r : EReal)
  rw [table_eq m ρ c n d]
  by_cases hn : n.val < 10000
  · rw [dif_pos hn]
    exact Cert.Spec.mlp_real _ _ _ _ _ hx hw1 hb1 hw2 hb2 ⟨n.val, hn⟩ d
  · rw [dif_neg hn]
    exact ⟨0, rfl⟩

end Cert.KernelIdeal.KernelH

end
-- ==== Proof.EdgeValue.lean ====
/-
  Region 1's value: the edge step. For the 640000 edges laid out as 5000 rows of 128 lanes, the kernel builds, row by
  row, the matrix whose entry (lane, node) is [the sender's word is the node's number] − [the receiver's word is the node's
  number], multiplies it with the zero-padded table of node features, squares, sums over the 128 features and scales by
  the edge's weight. A sum against such an indicator over the table's rows is the total lookup `Cert.Spec.look` — the row
  of that number when the word is below the table's height, the zero row otherwise — so each output entry is the edge's
  weight times the squared distance between the two looked-up rows. This module proves that for the output array as the
  pipeline leaves it, at whatever contents the region finds its arrays in, the table's entries being real numbers.
-/
import proofs.«426342_j11098195493609_3_alg».proof.Proof.Gen.KernelIdeal.Frame
import proofs.«426342_j11098195493609_3_alg».proof.Proof.Spec
import proofs.«426342_j11098195493609_3_alg».proof.Proof.Algebra
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat)

/-- A row of 128 words stood up as a column. -/
def colI (x : IVec S1x128 32) : IVec S128x1 32 :=
  transpose S128x1 [1, 0] (shapeCast S1x128 x shapeCasts_S1x128_S1x128) transposes_S1x128_p1_0_S128x1

/-- A row of 128 numbers stood up as a column. -/
def colF (x : FVec Ideal S1x128 .f32) : FVec Ideal S128x1 .f32 :=
  transpose S128x1 [1, 0] (shapeCast S1x128 x shapeCasts_S1x128_S1x128) transposes_S1x128_p1_0_S128x1

/-- The indicator matrix of a column of words against the node numbers: 1 where the word is the number. -/
def hot (ids : IVec S1x10240 32) (c : IVec S128x1 32) : FVec Ideal S128x10240 .bf16 :=
  truncf .bf16 (sitofp .f32 (extui 32 (cmpi .eq (broadcastTo S128x10240 c broadcasts_S128x1_S128x10240)
    (broadcastTo S128x10240 ids broadcasts_S1x10240_S128x10240)) natLt_1_32)) bitsLt_bf16_f32

/-- The signed indicator matrix times the table. -/
def diffRows (ids : IVec S1x10240 32) (tb : FVec Ideal S10240x128 .bf16) (sc rc : IVec S128x1 32) : FVec Ideal S128x128 .f32 :=
  matmul dot_S128x10240_S10240x128_S128x128_1_0_0_1_n_n none (subf (hot ids sc) (hot ids rc)) tb (constant S128x128 .f32 0x00000000#32)

/-- The squared length of each row of the product, as a column. -/
def sqCol (ids : IVec S1x10240 32) (tb : FVec Ideal S10240x128 .bf16) (sc rc : IVec S128x1 32) : FVec Ideal S128x1 .f32 :=
  shapeCast S128x1 (multiReduction .add [1] S128 (mulf (diffRows ids tb sc rc) (diffRows ids tb sc rc)) 0x00000000#32 reduces_S128x128_S128 (.inl rfl) rfl) shapeCasts_S128_S128x1

/-- A weights column times a column, laid back down as a row. -/
def rowOut (wc cr : FVec Ideal S128x1 .f32) : FVec Ideal S1x128 .f32 :=
  transpose S1x128 [1, 0] (mulf wc cr) transposes_S128x1_p1_0_S1x128

abbrev ids0 : IVec S1x10240 32 := iota .tc S1x10240 32 [1] iota_S1x10240_d1_w32

theorem pay3_eq (t : Vec Ideal S10240x128 .bf16) (s r : Vec Ideal S1x128 .i32) (w : Vec Ideal S1x128 .f32) :
    k1_pay3 (F := Ideal) t s r w = rowOut (colF w) (sqCol ids0 (k1_pay2 t) (colI s) (colI r)) := rfl

theorem pay7_eq (ids : IVec S1x10240 32) (tb : FVec Ideal S10240x128 .bf16) (s r : Vec Ideal S1x128 .i32) (w : Vec Ideal S1x128 .f32) :
    k1_pay7 (F := Ideal) ids tb (k1_pay4 s) (k1_pay5 r) (k1_pay6 w) = rowOut (colF w) (sqCol ids tb (colI s) (colI r)) := rfl

theorem pay10_eq (ids : IVec S1x10240 32) (tb : FVec Ideal S10240x128 .bf16) (s r : Vec Ideal S1x128 .i32) (w : Vec Ideal S1x128 .f32) :
    k1_pay10 (F := Ideal) (k1_pay8 w) (k1_pay9 ids tb s r) = rowOut (colF w) (sqCol ids tb (colI s) (colI r)) := rfl

theorem pay11_eq (ids : IVec S1x10240 32) (tb : FVec Ideal S10240x128 .bf16) (s r : Vec Ideal S1x128 .i32) (w : Vec Ideal S1x128 .f32) :
    k1_pay11 (F := Ideal) ids tb s r w = rowOut (colF w) (sqCol ids tb (colI s) (colI r)) := rfl

theorem pay15_eq (ids : IVec S1x10240 32) (tb : FVec Ideal S10240x128 .bf16) (s r : Vec Ideal S1x128 .i32) (w : Vec Ideal S1x128 .f32) :
    k1_pay15 (F := Ideal) ids tb (k1_pay12 s) (k1_pay13 r) (k1_pay14 w) = rowOut (colF w) (sqCol ids tb (colI s) (colI r)) := rfl

theorem pay18_eq (ids : IVec S1x10240 32) (tb : FVec Ideal S10240x128 .bf16) (s r : Vec Ideal S1x128 .i32) (w : Vec Ideal S1x128 .f32) :
    k1_pay18 (F := Ideal) (k1_pay16 w) (k1_pay17 ids tb s r) = rowOut (colF w) (sqCol ids tb (colI s) (colI r)) := rfl

theorem pay19_eq (ids : IVec S1x10240 32) (tb : FVec Ideal S10240x128 .bf16) (s r : Vec Ideal S1x128 .i32) (w : Vec Ideal S1x128 .f32) :
    k1_pay19 (F := Ideal) ids tb s r w = rowOut (colF w) (sqCol ids tb (colI s) (colI r)) := rfl

theorem pay1_eq (ids : IVec S1x10240 32) (tb : FVec Ideal S10240x128 .bf16) (s r : Vec Ideal S1x128 .i32) (w : Vec Ideal S1x128 .f32) :
    k1_pay1 (F := Ideal) ids tb (k1_pay20 s) (k1_pay21 r) (k1_pay22 w) = rowOut (colF w) (sqCol ids tb (colI s) (colI r)) := rfl

/-! ## Layout operations at an index, in the column forms this kernel uses -/

/-- A vector of `a` entries cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The indicator of a word against a node number -/

/-- The bit of "the word is the number `n`", widened and read as a number, is the indicator of `x.toNat = n`. -/
theorem indicator_word (x : BitVec 32) (n : ℕ) (hn : n < 2 ^ 32) :
    (FloatOps.sitofp (F := Ideal) .f32 ((IntOp.cmpi .eq x (BitVec.ofNat 32 n)).setWidth 32) : EReal) = if x.toNat = n then 1 else 0 := by
  have hiff : x = BitVec.ofNat 32 n ↔ x.toNat = n := by
    constructor
    · intro h; rw [h, BitVec.toNat_ofNat]; exact Nat.mod_eq_of_lt hn
    · intro h; apply BitVec.eq_of_toNat_eq; rw [BitVec.toNat_ofNat, h]; exact (Nat.mod_eq_of_lt hn).symm
  by_cases hx : x = BitVec.ofNat 32 n
  · rw [if_pos (hiff.mp hx), StableHlo.Predicate.cmpi_eq_iff.mpr hx]
    show ((((1#1 : BitVec 1).setWidth 32).toInt : ℝ) : EReal) = 1
    have e : ((1#1 : BitVec 1).setWidth 32).toInt = 1 := by decide
    rw [e, Int.cast_one, EReal.coe_one]
  · rw [if_neg (fun h => hx (hiff.mpr h)), eq_zero_of_ne_one (fun h => hx (StableHlo.Predicate.cmpi_eq_iff.mp h))]
    show ((((0#1 : BitVec 1).setWidth 32).toInt : ℝ) : EReal) = 0
    have e : ((0#1 : BitVec 1).setWidth 32).toInt = 0 := by decide
    rw [e, Int.cast_zero, EReal.coe_zero]

/-- The indicator matrix at `(l, n)`: 1 when row `l`'s word is the number `n`. -/
theorem hot_apply (ids : IVec S1x10240 32) (c : IVec S128x1 32) (hids : ∀ n : Fin 10240, ids (ix2 (0 : Fin 1) n) = BitVec.ofNat 32 n.val)
    (l : Fin 128) (n : Fin 10240) :
    hot ids c (ix2 l n) = if (c (ix2 l (0 : Fin 1))).toNat = n.val then 1 else 0 := by
  unfold hot
  rw [truncf_apply, sitofp_apply, extui_apply]
  show FloatOps.sitofp (F := Ideal) .f32 ((IntOp.cmpi .eq (broadcastTo S128x10240 c broadcasts_S128x1_S128x10240 (ix2 l n))
    (broadcastTo S128x10240 ids broadcasts_S1x10240_S128x10240 (ix2 l n))).setWidth 32) = _
  rw [broadcastTo_a1_ab_apply, broadcastTo_1b_ab_apply, hids n]
  exact indicator_word _ n.val (by have := n.isLt; omega)

/-! ## The product's operand indices -/

abbrev dotD : DotDims S128x10240 S10240x128 S128x128 := dot_S128x10240_S10240x128_S128x128_1_0_0_1_n_n

theorem lhs_dotD_0 (j : S128x128.Idx) (q : dotD.contr.Idx) : (dotD.lhsIdx j q 0).val = (j 0).val := by
  simp [DotDims.lhsIdx, dotD, dot_S128x10240_S10240x128_S128x128_1_0_0_1_n_n]; rfl
theorem lhs_dotD_1 (j : S128x128.Idx) (q : dotD.contr.Idx) : (dotD.lhsIdx j q 1).val = (q ⟨0, by decide⟩).val :=
  DotDims.lhsIdx_val_of_single (d := dotD) (cl := 1) rfl j q
theorem rhs_dotD_0 (j : S128x128.Idx) (q : dotD.contr.Idx) : (dotD.rhsIdx j q 0).val = (q ⟨0, by decide⟩).val :=
  DotDims.rhsIdx_val_of_single (d := dotD) (cr := 0) rfl j q
theorem rhs_dotD_1 (j : S128x128.Idx) (q : dotD.contr.Idx) : (dotD.rhsIdx j q 1).val = (j 1).val := by
  simp [DotDims.rhsIdx, dotD, dot_S128x10240_S10240x128_S128x128_1_0_0_1_n_n]; rfl

/-! ## One row's computation at a lane -/

/-- The table as a function of row and feature. -/
abbrev tab (tb : FVec Ideal S10240x128 .bf16) : Fin 10240 → Fin 128 → EReal := fun n d => tb (ix2 n d)

/-- The signed indicator matrix times the table, at `(l, k)`: the looked-up row of the sender's word less the
    receiver's, at feature `k`. -/
theorem diffRows_apply (ids : IVec S1x10240 32) (tb : FVec Ideal S10240x128 .bf16) (sc rc : IVec S128x1 32)
    (hids : ∀ n : Fin 10240, ids (ix2 (0 : Fin 1) n) = BitVec.ofNat 32 n.val) (hT : Cert.Spec.Real2 (tab tb)) (l k : Fin 128) :
    diffRows ids tb sc rc (ix2 l k)
      = Cert.Spec.look (tab tb) (sc (ix2 l (0 : Fin 1))) k - Cert.Spec.look (tab tb) (rc (ix2 l (0 : Fin 1))) k := by
  unfold diffRows
  show FloatOps.matmul dotD none (subf (hot ids sc) (hot ids rc)) tb (constant S128x128 .f32 0x00000000#32) (ix2 l k) = _
  rw [Ideal.matmul_constant_zero_apply, ← Equiv.sum_comp (contrEquiv1 dotD 10240 rfl rfl).symm,
    ← Cert.Spec.onehot_look (tab tb) hT (fun n => hot ids sc (ix2 l n)) (fun n => hot ids rc (ix2 l n)) _ _
      (fun n => hot_apply ids sc hids l n) (fun n => hot_apply ids rc hids l n) k]
  refine Finset.sum_congr rfl fun n _ => ?_
  have c2 := contrEquiv1_symm_val dotD 10240 rfl rfl n
  have l2 : dotD.lhsIdx (ix2 l k) ((contrEquiv1 dotD 10240 rfl rfl).symm n) = ix2 l n := by
    funext ax; apply Fin.ext
    match ax with
    | ⟨0, _⟩ => exact lhs_dotD_0 _ _
    | ⟨1, _⟩ => exact (lhs_dotD_1 _ _).trans c2
  have r2 : dotD.rhsIdx (ix2 l k) ((contrEquiv1 dotD 10240 rfl rfl).symm n) = ix2 n k := by
    funext ax; apply Fin.ext
    match ax with
    | ⟨0, _⟩ => exact (rhs_dotD_0 _ _).trans c2
    | ⟨1, _⟩ => exact rhs_dotD_1 _ _
  rw [l2, r2, subf_apply]

/-- The lane sum of squares with its printed accumulator word. -/
theorem rowSum_apply (src : FVec Ideal S128x128 .f32) (hacc : (0x00000000#32 : BitVec 32) = 0x00000000#32) (l : Fin 128) :
    multiReduction (F := Ideal) .add [1] S128 src 0x00000000#32 reduces_S128x128_S128 (.inl rfl) hacc (ix1 l)
      = ∑ k : Fin 128, src (ix2 l k) := by
  refine (Ideal.multiReduction_add_single src 0x00000000#32 reduces_S128x128_S128 (.inl rfl) hacc (ix1 l)).trans ?_
  refine Finset.sum_congr rfl fun k _ => congrArg src ?_
  funext ax; apply Fin.ext
  match ax with
  | ⟨0, _⟩ => rfl
  | ⟨1, _⟩ => rfl

/-- The squared length of row `l` of the product. -/
theorem sqCol_apply (ids : IVec S1x10240 32) (tb : FVec Ideal S10240x128 .bf16) (sc rc : IVec S128x1 32)
    (hids : ∀ n : Fin 10240, ids (ix2 (0 : Fin 1) n) = BitVec.ofNat 32 n.val) (hT : Cert.Spec.Real2 (tab tb)) (l : Fin 128) (u : Fin 1) :
    sqCol ids tb sc rc (ix2 l u)
      = ∑ k : Fin 128, (Cert.Spec.look (tab tb) (sc (ix2 l (0 : Fin 1))) k - Cert.Spec.look (tab tb) (rc (ix2 l (0 : Fin 1))) k)
          * (Cert.Spec.look (tab tb) (sc (ix2 l (0 : Fin 1))) k - Cert.Spec.look (tab tb) (rc (ix2 l (0 : Fin 1))) k) := by
  unfold sqCol
  rw [shapeCast_a_a1_apply, rowSum_apply]
  refine Finset.sum_congr rfl fun k _ => ?_
  rw [mulf_apply, diffRows_apply ids tb sc rc hids hT]

/-- A row stood up as a column, at `(l, u)`. -/
theorem colI_apply (x : IVec S1x128 32) (l : Fin 128) (u : Fin 1) : colI x (ix2 l u) = x (ix2 u l) := by
  unfold colI
  rw [transpose_ix2_apply, shapeCast_self]
theorem colF_apply (x : FVec Ideal S1x128 .f32) (l : Fin 128) (u : Fin 1) : colF x (ix2 l u) = x (ix2 u l) := by
  unfold colF
  rw [transpose_ix2_apply, shapeCast_self]

/-- The numbers `0 … 10239` along the lanes. -/
theorem ids0_apply (n : Fin 10240) : ids0 (ix2 (0 : Fin 1) n) = BitVec.ofNat 32 n.val :=
  iota_single_apply .tc S1x10240 32 1 iota_S1x10240_d1_w32 (ix2 (0 : Fin 1) n)

/-- ONE ROW'S RESULT AT A LANE: the weight times the squared distance between the two looked-up rows. -/
theorem row_apply (tb : FVec Ideal S10240x128 .bf16) (s r : IVec S1x128 32) (w : FVec Ideal S1x128 .f32)
    (hT : Cert.Spec.Real2 (tab tb)) (x : S1x128.Idx) :
    rowOut (colF w) (sqCol ids0 tb (colI s) (colI r)) x
      = w x * ∑ k : Fin 128, (Cert.Spec.look (tab tb) (s x) k - Cert.Spec.look (tab tb) (r x) k)
          * (Cert.Spec.look (tab tb) (s x) k - Cert.Spec.look (tab tb) (r x) k) := by
  obtain ⟨u, l, rfl⟩ : ∃ (u : Fin 1) (l : Fin 128), x = ix2 u l := ⟨x 0, x 1, eq_ix2 x⟩
  have hu : u = 0 := Fin.ext (by omega)
  subst hu
  unfold rowOut
  rw [transpose_ix2_apply, mulf_apply, colF_apply, sqCol_apply ids0 tb _ _ ids0_apply hT, colI_apply, colI_apply]

/-! ## The output block after the body: eight rows of one function -/

theorem hz : (![0, 0] : Fin 2 → Nat) = fun _ => 0 := funext fun a => by fin_cases a <;> rfl

/-- What the output block holds after the body, as one function of the input blocks, index by index. -/
def blockG (x0 x1 : Vec Ideal S8x128 .i32) (x2 : Vec Ideal S8x128 .f32) (x3 : Vec Ideal S10240x128 .bf16) : Vec Ideal S8x128 .f32 :=
  fun y => x2 y * ∑ k : Fin 128, (Cert.Spec.look (tab x3) (x0 y) k - Cert.Spec.look (tab x3) (x1 y) k)
    * (Cert.Spec.look (tab x3) (x0 y) k - Cert.Spec.look (tab x3) (x1 y) k)

/-- The table as the body reads it is the table's block. -/
theorem table_eq (x3 : Vec Ideal S10240x128 .bf16) : k1_pay2 (F := Ideal) (View.ld x3 r1_0) = x3 := by
  unfold k1_pay2
  rw [shapeCast_self, View.ld_unit_zero (S := S10240x128) hz]

/-- The eight stores, one per row of the block, are the eight rows of `blockG`: each row's payload is the common
    computation of that row's loads, which `row_apply` reads at a lane. -/
theorem out_eq (x0 x1 : Vec Ideal S8x128 .i32) (x2 : Vec Ideal S8x128 .f32) (x3 : Vec Ideal S10240x128 .bf16)
    (hT : Cert.Spec.Real2 (tab x3)) : out1_4 (F := Ideal) x0 x1 x2 x3 = blockG x0 x1 x2 x3 := by
  funext y
  unfold out1_4
  refine View.canon_apply_of_pieces (blockG x0 x1 x2 x3) _ ?_ y (cover1_4 _ _ _ _ _ _ _ _ y)
  intro p hp x
  simp only [List.mem_cons, List.not_mem_nil, or_false] at hp
  rcases hp with rfl | rfl | rfl | rfl | rfl | rfl | rfl | rfl
  · show k1_pay1 _ (k1_pay2 (View.ld x3 r1_0)) _ _ _ x = _
    rw [pay1_eq, table_eq]; exact row_apply x3 _ _ _ hT x
  · show k1_pay19 _ (k1_pay2 (View.ld x3 r1_0)) _ _ _ x = _
    rw [pay19_eq, table_eq]; exact row_apply x3 _ _ _ hT x
  · show k1_pay18 _ (k1_pay17 _ (k1_pay2 (View.ld x3 r1_0)) _ _) x = _
    rw [pay18_eq, table_eq]; exact row_apply x3 _ _ _ hT x
  · show k1_pay15 _ (k1_pay2 (View.ld x3 r1_0)) _ _ _ x = _
    rw [pay15_eq, table_eq]; exact row_apply x3 _ _ _ hT x
  · show k1_pay11 _ (k1_pay2 (View.ld x3 r1_0)) _ _ _ x = _
    rw [pay11_eq, table_eq]; exact row_apply x3 _ _ _ hT x
  · show k1_pay10 _ (k1_pay9 _ (k1_pay2 (View.ld x3 r1_0)) _ _) x = _
    rw [pay10_eq, table_eq]; exact row_apply x3 _ _ _ hT x
  · show k1_pay7 _ (k1_pay2 (View.ld x3 r1_0)) _ _ _ x = _
    rw [pay7_eq, table_eq]; exact row_apply x3 _ _ _ hT x
  · show k1_pay3 (View.ld x3 r1_0) _ _ _ x = _
    rw [pay3_eq, table_eq]; exact row_apply x3 _ _ _ hT x

/-! ## From blocks to the array -/

section Array

variable (V : (c : Dev nD) → (b : Ref sig .tc) → Buf (Elt Ideal) ((c : Thread nD τ).loc b))

/-- The printed index maps, decided over the grid: the three edge-layout inputs move with the output, block row `t` at
    point `t`; the table's one block is the whole table. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The output array as one function of the region's four input arrays, index by index. -/
def edgeG (S R : S5000x128.Idx → BitVec 32) (W : S5000x128.Idx → EReal) (T : S10240x128.Idx → EReal) : S5000x128.Idx → EReal :=
  fun i => W i * ∑ k : Fin 128, (Cert.Spec.look (tab T) (S i) k - Cert.Spec.look (tab T) (R i) k)
    * (Cert.Spec.look (tab T) (S i) k - Cert.Spec.look (tab T) (R i) k)

/-- A block entry and an array entry that read the same words, weight and table give the same result. -/
theorem blockG_eq_edgeG (x0 x1 : Vec Ideal S8x128 .i32) (x2 : Vec Ideal S8x128 .f32) (x3 : Vec Ideal S10240x128 .bf16)
    (S R : S5000x128.Idx → BitVec 32) (W : S5000x128.Idx → EReal) (j : S8x128.Idx) (i : S5000x128.Idx)
    (h0 : x0 j = S i) (h1 : x1 j = R i) (h2 : x2 j = W i) : blockG x0 x1 x2 x3 j = edgeG S R W x3 i := by
  unfold blockG edgeG
  rw [h0, h1, h2]

/-- The table's block at every point is the whole table. -/
theorem iblk_table (c : Dev nD) (t : Fin cfg1.N) : iblk1 V c 3 t = V c (Pipeline.arrRef spec1 3) := by
  obtain ⟨-, -, -, -, -, -, e0, e1, -, -⟩ := idx_facts t
  funext y
  show V c (Pipeline.arrRef spec1 3) (((cfg1.win 3).blk t).view.emb y) = V c (Pipeline.arrRef spec1 3) y
  congr 1
  funext a; apply Fin.ext
  match a with
  | ⟨0, _⟩ => show win1_3.index t (0 : Fin 2) * 10240 + 1 * (y 0).val = (y 0).val; omega
  | ⟨1, _⟩ => show win1_3.index t (1 : Fin 2) * 128 + 1 * (y 1).val = (y 1).val; omega

/-- WHAT POINT `t` WRITES BACK is block `t` of `edgeG` of the arrays as the region finds them. -/
theorem flushed_eq (c : Dev nD) (hT : Cert.Spec.Real2 (tab (V c (Pipeline.arrRef spec1 3)))) (t : Fin cfg1.N) :
    (dat1 V c).flushed 4 t = ((cfg1.win 4).blk t).view.read (Elt Ideal)
      (edgeG (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4, iblk_table, out_eq _ _ _ _ hT]
  obtain ⟨a0, a1, b0, b1, c0, c1, -, -, d0, d1⟩ := idx_facts t
  funext j
  have h0 : ((cfg1.win 0).blk t).view.emb j = ((cfg1.win 4).blk t).view.emb j := by
    funext a; apply Fin.ext
    match a with
    | ⟨0, _⟩ => show win1_0.index t (0 : Fin 2) * 8 + 1 * (j 0).val = win1_4.index t (0 : Fin 2) * 8 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 8 + 1 * (j 0).val = win1_4.index t (0 : Fin 2) * 8 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb j = ((cfg1.win 4).blk t).view.emb j := by
    funext a; apply Fin.ext
    match a with
    | ⟨0, _⟩ => show win1_2.index t (0 : Fin 2) * 8 + 1 * (j 0).val = win1_4.index t (0 : Fin 2) * 8 + 1 * (j 0).val; omega
    | ⟨1, _⟩ => show win1_2.index t (1 : Fin 2) * 128 + 1 * (j 1).val = win1_4.index t (1 : Fin 2) * 128 + 1 * (j 1).val; omega
  have r0 : iblk1 V c 0 t j = V c (Pipeline.arrRef spec1 0) (((cfg1.win 4).blk t).view.emb j) :=
    (show iblk1 V c 0 t j = V c (Pipeline.arrRef spec1 0) (((cfg1.win 0).blk t).view.emb j) from rfl).trans
      (congrArg (V c (Pipeline.arrRef spec1 0)) h0)
  have r1 : iblk1 V c 1 t j = V c (Pipeline.arrRef spec1 1) (((cfg1.win 4).blk t).view.emb j) :=
    (show iblk1 V c 1 t j = V c (Pipeline.arrRef spec1 1) (((cfg1.win 1).blk t).view.emb j) from rfl).trans
      (congrArg (V c (Pipeline.arrRef spec1 1)) h1)
  have r2 : iblk1 V c 2 t j = V c (Pipeline.arrRef spec1 2) (((cfg1.win 4).blk t).view.emb j) :=
    (show iblk1 V c 2 t j = V c (Pipeline.arrRef spec1 2) (((cfg1.win 2).blk t).view.emb j) from rfl).trans
      (congrArg (V c (Pipeline.arrRef spec1 2)) h2)
  exact blockG_eq_edgeG _ _ _ _ _ _ _ j _ r0 r1 r2

end Array

section Final

variable (V : (c : Dev nD) → (b : Ref sig .tc) → Buf (Elt Ideal) ((c : Thread nD τ).loc b))

/-- An index of the array is in point `t`'s block iff each coordinate is in the block's range on its axis. -/
theorem mem_blk (t : Fin cfg1.N) (i : S5000x128.Idx) :
    i ∈ ((cfg1.win 4).blk t).view.set ↔ ∀ a : Fin 2, win1_4.index t a * S8x128.size a ≤ (i a).val ∧ (i a).val < win1_4.index t a * S8x128.size a + S8x128.size a := by
  show i ∈ ((View.whole main_v8).slice (win1_4.rect t)).set ↔ _
  rw [View.set_slice_whole, Rect.mem_set_unit]
  exact Iff.rfl

/-- Every index of the output array is in some point's block: row `r` is written at point `r / 8`. -/
theorem cover (i : S5000x128.Idx) : ∃ t : Fin cfg1.N, (cfg1.win 4).flush t = true ∧ i ∈ ((cfg1.win 4).blk t).view.set := by
  have hi0 : (i 0).val < 5000 := (i 0).isLt
  have hi1 : (i 1).val < 128 := (i 1).isLt
  have ht : (i 0).val / 8 < cfg1.N := by show (i 0).val / 8 < 625; omega
  obtain ⟨-, -, -, -, -, -, -, -, d0, d1⟩ := idx_facts ⟨(i 0).val / 8, ht⟩
  refine ⟨⟨(i 0).val / 8, ht⟩, flush1_4 _, ?_⟩
  rw [mem_blk]
  intro a
  match a with
  | ⟨0, _⟩ =>
    show win1_4.index ⟨(i 0).val / 8, ht⟩ (0 : Fin 2) * 8 ≤ (i 0).val ∧ (i 0).val < win1_4.index ⟨(i 0).val / 8, ht⟩ (0 : Fin 2) * 8 + 8
    rw [d0]; show (i 0).val / 8 * 8 ≤ (i 0).val ∧ (i 0).val < (i 0).val / 8 * 8 + 8; omega
  | ⟨1, _⟩ =>
    show win1_4.index ⟨(i 0).val / 8, ht⟩ (1 : Fin 2) * 128 ≤ (i 1).val ∧ (i 1).val < win1_4.index ⟨(i 0).val / 8, ht⟩ (1 : Fin 2) * 128 + 128
    omega

/-- THE OUTPUT ARRAY after the region: `edgeG` of the arrays as the region finds them. -/
theorem final (c : Dev nD) (hT : Cert.Spec.Real2 (tab (V c (Pipeline.arrRef spec1 3)))) :
    (dat1 V c).arrAt 4 cfg1.N
      = edgeG (V c (Pipeline.arrRef spec1 0)) (V c (Pipeline.arrRef spec1 1)) (V c (Pipeline.arrRef spec1 2)) (V c (Pipeline.arrRef spec1 3)) :=
  (dat1 V c).arrAt_eq_of_cover 4 _ (fun t _ => flushed_eq V c hT t) cover

/-- The region's four input arrays as it finds them, at their literal shapes: the senders' and the receivers' words
    and the weights in the edge layout, and the padded table. -/
abbrev sendersAt (c : Dev nD) : S5000x128.Idx → BitVec 32 := V c (Pipeline.arrRef spec1 0)
abbrev receiversAt (c : Dev nD) : S5000x128.Idx → BitVec 32 := V c (Pipeline.arrRef spec1 1)
abbrev weightsAt (c : Dev nD) : S5000x128.Idx → EReal := V c (Pipeline.arrRef spec1 2)
abbrev tableAt (c : Dev nD) : Fin 10240 → Fin 128 → EReal := fun n d => V c (Pipeline.arrRef spec1 3) (ix2 n d)

/-- REGION 1's VALUE at edge `(p, l)`: the edge's weight times the squared distance between the rows of the table looked
    up by the sender's and by the receiver's words. -/
theorem edge_value (c : Dev nD) (p : Fin 5000) (l : Fin 128)
    (hreal : Cert.Spec.Real2 (fun (n : Fin 10240) (d : Fin 128) => V c (Pipeline.arrRef spec1 3) (ix2 n d))) :
    (dat1 (F := Ideal) V c).arrAt 4 cfg1.N (ix2 p l)
      = weightsAt V c (ix2 p l) * ∑ d : Fin 128,
          (Cert.Spec.look (tableAt V c) (sendersAt V c (ix2 p l)) d - Cert.Spec.look (tableAt V c) (receiversAt V c (ix2 p l)) d)
          * (Cert.Spec.look (tableAt V c) (sendersAt V c (ix2 p l)) d - Cert.Spec.look (tableAt V c) (receiversAt V c (ix2 p l)) d) := by
  rw [final V c hreal]
  rfl

end Final

end Cert.KernelIdeal.EdgeValue

end
-- ==== Proof.KernelE.lean ====
/-
  The kernel program's flat list of edge outputs, in terms of the launched arrays.

  The second region writes a 5000 × 128 table whose entry (p, l) is edge 128 p + l's weight times the squared
  distance of the two rows that the edge's sender and receiver words look up in a table of 10240 rows: the
  perceptron's 10000 rows and 240 zero rows below. Looking a word up in that table or in the perceptron's own
  10000 rows gives the same row (a word of 10000 or more finds a zero row in either), so each entry is the
  edge's output as the specification states it; the recast to a list of 640000 puts entry (e / 128, e % 128)
  at position e.
-/
import proofs.«426342_j11098195493609_3_alg».proof.Proof.Gen.KernelIdeal.Frame
import proofs.«426342_j11098195493609_3_alg».proof.Proof.KernelGlue
import proofs.«426342_j11098195493609_3_alg».proof.Proof.EdgeValue
import proofs.«426342_j11098195493609_3_alg».proof.Proof.KernelH
import proofs.«426342_j11098195493609_3_alg».proof.Proof.Arrays
import proofs.«426342_j11098195493609_3_alg».proof.Proof.Spec
import Idealize.ShloMosaic.Lib.ValueIdx

set_option maxRecDepth 16384

noncomputable section

namespace Cert.KernelIdeal.KernelE

open Idealize.ShloMosaic Idealize.ShloMosaic.TcCoe
open Idealize.ShloMosaic.ValueIdx
open Cert.KernelIdeal Cert.KernelIdeal.Gen

variable (m : (ℓ : Loc nD τ sig) → Buf (Elt Ideal) ℓ) (ρ : Dev nD → PrngReg) (c : Dev nD)

/-- Edge `e`'s launched sender word, receiver word and weight. -/
abbrev senderOf (e : Fin 640000) : BitVec 32 :=
  (m ((c : Thread nD τ).loc main_arg2) : S640000.Idx → BitVec 32) (ix1 e)
@[inherit_doc senderOf]
abbrev receiverOf (e : Fin 640000) : BitVec 32 :=
  (m ((c : Thread nD τ).loc main_arg3) : S640000.Idx → BitVec 32) (ix1 e)
@[inherit_doc senderOf]
abbrev weightOf (e : Fin 640000) : EReal :=
  (m ((c : Thread nD τ).loc main_arg1) : S640000x1.Idx → EReal) (ix2 e 0)

/-- The padded table the second region is entered with, as a function of a row and a feature. -/
abbrev padded : Fin 10240 → Fin 128 → EReal :=
  fun n d => (V5 m ρ c (Pipeline.arrRef spec1 3) : S10240x128.Idx → EReal) (ix2 n d)

/-- Row `p`, lane `l` of the 5000 × 128 layout is edge `128 p + l`. -/
abbrev edgeAt (p : Fin 5000) (l : Fin 128) : Fin 640000 := ⟨128 * p.val + l.val, Glue.flat_lt p l⟩

/-- An edge's position in the 5000 × 128 layout, read back as a list position, is the edge. -/
theorem unflat (e : Fin 640000) : edgeAt ⟨e.val / 128, Glue.row_lt e⟩ ⟨e.val % 128, Glue.col_lt e⟩ = e :=
  Fin.ext (Nat.div_add_mod e.val 128)

/-- The second region's output at row `p`, lane `l`, with the edge lists read as launched: that edge's weight
    times the squared distance of the two rows its words look up in the padded table. -/
theorem edge_entry (p : Fin 5000) (l : Fin 128) (hreal : Cert.Spec.Real2 (padded m ρ c)) :
    ((dat1 (F := Ideal) (V5 m ρ) c).arrAt 4 cfg1.N : S5000x128.Idx → EReal) (ix2 p l)
      = weightOf m c (edgeAt p l) * ∑ d : Fin 128,
          (Cert.Spec.look (padded m ρ c) (senderOf m c (edgeAt p l)) d
            - Cert.Spec.look (padded m ρ c) (receiverOf m c (edgeAt p l)) d)
          * (Cert.Spec.look (padded m ρ c) (senderOf m c (edgeAt p l)) d
            - Cert.Spec.look (padded m ρ c) (receiverOf m c (edgeAt p l)) d) := by
  have h := EdgeValue.edge_value (V5 m ρ) c p l hreal
  have hs : EdgeValue.sendersAt (V5 m ρ) c (ix2 p l) = senderOf m c (edgeAt p l) := Glue.entry1_senders m ρ c p l
  have hr : EdgeValue.receiversAt (V5 m ρ) c (ix2 p l) = receiverOf m c (edgeAt p l) := Glue.entry1_receivers m ρ c p l
  have hw : EdgeValue.weightsAt (V5 m ρ) c (ix2 p l) = weightOf m c (edgeAt p l) := Glue.entry1_weights m ρ c p l
  rw [hs, hr, hw] at h
  exact h

/-- The list of 640000 the kernel program hands to its tail holds, at every edge, the edge's weight times the
    squared distance between the perceptron's rows at its sender and at its receiver, the perceptron being that of
    the five launched parameter arrays: the second region computes it against the padded table, whose extra rows
    are zero, and a word that is no node's number looks up a zero row in either table. -/
theorem flat_edges_eq
    (hx : Cert.Spec.Real2 (fun (p : Fin 10000) (q : Fin 128) =>
      (m ((c : Thread nD τ).loc main_arg0) : S10000x128.Idx → EReal) (ix2 p q)))
    (hw1 : Cert.Spec.Real2 (fun (j : Fin 128) (k : Fin 512) =>
      (m ((c : Thread nD τ).loc main_arg6) : S128x512.Idx → EReal) (ix2 j k)))
    (hb1 : Cert.Spec.Real1 (fun (k : Fin 512) =>
      (m ((c : Thread nD τ).loc main_arg7) : S512.Idx → EReal) (ix1 k)))
    (hw2 : Cert.Spec.Real2 (fun (k : Fin 512) (q : Fin 128) =>
      (m ((c : Thread nD τ).loc main_arg8) : S512x128.Idx → EReal) (ix2 k q)))
    (hb2 : Cert.Spec.Real1 (fun (q : Fin 128) =>
      (m ((c : Thread nD τ).loc main_arg9) : S128.Idx → EReal) (ix1 q))) :
    (W7 m ρ c (Proc.devRef .tc main_v9) : S640000.Idx → EReal)
      = Cert.Spec.eVec
          (Cert.Spec.hArr (m ((c : Thread nD τ).loc main_arg0)) (m ((c : Thread nD τ).loc main_arg6))
            (m ((c : Thread nD τ).loc main_arg7)) (m ((c : Thread nD τ).loc main_arg8))
            (m ((c : Thread nD τ).loc main_arg9)))
          (m ((c : Thread nD τ).loc main_arg2)) (m ((c : Thread nD τ).loc main_arg3))
          (m ((c : Thread nD τ).loc main_arg1)) := by
  funext i
  obtain ⟨e, rfl⟩ : ∃ e : Fin 640000, i = ix1 e := ⟨i 0, eq_ix1 i⟩
  rw [Cert.Spec.eVec_apply, Glue.flat_edges m ρ c e, Glue.kept_edges m ρ c,
    edge_entry m ρ c ⟨e.val / 128, Glue.row_lt e⟩ ⟨e.val % 128, Glue.col_lt e⟩
      (KernelH.table_real m ρ c hx hw1 hb1 hw2 hb2),
    unflat e]
  exact Cert.Spec.edge_of_padded _ (padded m ρ c) (KernelH.table_eq m ρ c)
    (senderOf m c) (receiverOf m c) (weightOf m c) e

end Cert.KernelIdeal.KernelE

end
-- ==== Proof.KernelSide.lean ====
/-
  The kernel program's run, read as values. The run ends with every buffer at the contents the last host stretch
  leaves. Read back through the host operations: the node output is the shared tail's take of the perceptron's
  rows, which region 0 wrote; the loss is the shared tail's function of the flat edge array, which is region 1's
  result re-laid from [5000, 128] to [640000]. Region 1 multiplies a signed indicator matrix with the perceptron's
  rows padded by zero rows: for real-valued rows that is the difference of the sender's and the receiver's row,
  so the flat edge array holds, edge by edge, the weight times the squared distance of the two rows.
-/
import proofs.«426342_j11098195493609_3_alg».proof.Proof.Gen.KernelIdeal.Frame
import proofs.«426342_j11098195493609_3_alg».proof.Proof.KRun
import proofs.«426342_j11098195493609_3_alg».proof.Proof.Tail
import proofs.«426342_j11098195493609_3_alg».proof.Proof.KernelGlue
import proofs.«426342_j11098195493609_3_alg».proof.Proof.KernelH
import proofs.«426342_j11098195493609_3_alg».proof.Proof.KernelE
import proofs.«426342_j11098195493609_3_alg».proof.Proof.Arrays

noncomputable section

namespace Cert.KernelIdeal.KernelSide

open Idealize.ShloMosaic Idealize.ShloMosaic.TcCoe Idealize.ShloMosaic.ValueIdx Idealize.SL.Sem
open Cert.KernelIdeal Cert.KernelIdeal.Gen

/-- From a memory whose five float parameter arrays are real-valued on every device, every weakly fair execution
    of the kernel program terminates, nothing faulting, with the node output at the tail's take of the perceptron's
    rows, the loss at the tail's function of the edges' weighted squared distances, and the arguments unchanged. -/
theorem kernel_run (m : (ℓ : Loc nD τ sig) → Buf (Elt Ideal) ℓ) (ρ : Dev nD → PrngReg)
    (hx : ∀ c : Dev nD, Cert.Spec.Real2 (fun (p : Fin 10000) (q : Fin 128) => (m ((c.tc : Thread nD τ).loc main_arg0) : S10000x128.Idx → EReal) (ix2 p q)))
    (hw1 : ∀ c : Dev nD, Cert.Spec.Real2 (fun (j : Fin 128) (k : Fin 512) => (m ((c.tc : Thread nD τ).loc main_arg6) : S128x512.Idx → EReal) (ix2 j k)))
    (hb1 : ∀ c : Dev nD, Cert.Spec.Real1 (fun (k : Fin 512) => (m ((c.tc : Thread nD τ).loc main_arg7) : S512.Idx → EReal) (ix1 k)))
    (hw2 : ∀ c : Dev nD, Cert.Spec.Real2 (fun (k : Fin 512) (q : Fin 128) => (m ((c.tc : Thread nD τ).loc main_arg8) : S512x128.Idx → EReal) (ix2 k q)))
    (hb2 : ∀ c : Dev nD, Cert.Spec.Real1 (fun (q : Fin 128) => (m ((c.tc : Thread nD τ).loc main_arg9) : S128.Idx → EReal) (ix1 q))) :
    θ_run (defs (F := Ideal)) (onTc (τ := τ) (main (F := Ideal))) ⟨m, fun _ => 0, ρ⟩ (fun r => ∀ c : Dev nD,
      r.2.mem ((c.tc : Thread nD τ).loc main_v47)
          = Cert.Tail.nodeOf (m ((c.tc : Thread nD τ).loc main_arg4))
              (Cert.Spec.hVec (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_v43)
          = Cert.Tail.lossOf (m ((c.tc : Thread nD τ).loc main_arg5)) (m ((c.tc : Thread nD τ).loc main_arg1))
              (Cert.Spec.eVec (Cert.Spec.hArr (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)))
                (m ((c.tc : Thread nD τ).loc main_arg2)) (m ((c.tc : Thread nD τ).loc main_arg3)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c =>
      ⟨(h c).1.trans (by
          rw [Cert.Tail.ker_nodes m ρ c, Glue.kept_arg4 m ρ c, Glue.kept_rows m ρ c, KernelH.rows_f32 m ρ c]),
       (h c).2.1.trans (by
          rw [Cert.Tail.ker_loss m ρ c, Glue.kept_arg5 m ρ c, Glue.kept_weights m ρ c,
            KernelE.flat_edges_eq m ρ c (hx c) (hw1 c) (hb1 c) (hw2 c) (hb2 c)]),
       (h c).2.2⟩)
    (RunValue.run_results (F := Ideal) m ρ)

end Cert.KernelIdeal.KernelSide

end
-- ==== Proof.RefRun.lean ====
/-
  The reference program's run.

  The reference is a host program with no kernel: a straight line of array operations. Its eleven calls
  (a roll by one place, three running sums, three clamped table reads, the positive part, three selections)
  are functions whose bodies are straight lines themselves, so with every body written out at its call site,
  over the buffers that call names, the whole program is ONE list of 171 operations (`ops`). A straight line
  of operations run from any memory terminates with every buffer at the fold of the operations over the
  launch contents (`StableHlo.after`): each operation rewrites the buffer it writes and leaves the rest.
  No operation writes an argument, so the ten arguments end as they began.
-/
import proofs.«426342_j11098195493609_3_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The program's 171 operations, in order, every called function's operations in place of its call. -/
abbrev ops : List (HloOp τ sig (Elt F)) :=
  [ nullary main_v0 (iotaInDim S100 32 0),
    -- the segment ids rolled by one place: the last entry first, then the first ninety-nine
    TRef.unary (.of main_arg5 : TRef sig ⟨S100, .i32⟩) (.of main_call0_v0 : TRef sig ⟨S1, .i32⟩) (extractStridedSlice S1 ![99] · slices_S100_S1_99),
    TRef.unary (.of main_arg5 : TRef sig ⟨S100, .i32⟩) (.of main_call0_v1 : TRef sig ⟨S99, .i32⟩) (extractStridedSlice S99 ![0] · slices_S100_S99_0),
    TRef.binary (.of main_call0_v0 : TRef sig ⟨S1, .i32⟩) (.of main_call0_v1 : TRef sig ⟨S99, .i32⟩) (.of main_v1 : TRef sig ⟨S100, .i32⟩) (fun a b => concatenate S100 0 [⟨S1, a⟩, ⟨S99, b⟩] concatenates_S1_S99_S100_d0),
    -- the program's own line resumes
    nullary main_c (constantI S_ 32 0#32),
    unary main_c main_v2 (broadcastInDim S1 ![] bcast_S_S1 : (⟨S_, .i32⟩ : BufTy).Contents (Elt F) → (⟨S1, .i32⟩ : BufTy).Contents (Elt F)),
    nullary main_c_0 (constantI S_ 32 0#32),
    ternary main_v1 main_v2 main_c_0 main_v3 ((fun x i u => Host.scatter scatter_S100_S1_S__n_0_0_0 (fun _ b => b) x i u) : (⟨S100, .i32⟩ : BufTy).Contents (Elt F) → (⟨S1, .i32⟩ : BufTy).Contents (Elt F) → (⟨S_, .i32⟩ : BufTy).Contents (Elt F) → (⟨S100, .i32⟩ : BufTy).Contents (Elt F)),
    -- running sums of a 100-vector (a window of 100 ending at each place, zero before the start)
    TRef.nullary (.of main_call1_call0_c : TRef sig ⟨S_, .i32⟩) (constantI S_ 32 0#32),
    TRef.unary (.of main_call1_call0_c : TRef sig ⟨S_, .i32⟩) (.of main_call1_call0_v0 : TRef sig ⟨S_, .i32⟩) (broadcastInDim S_ ![] bcast_S_S_),
    TRef.binary (.of main_v3 : TRef sig ⟨S100, .i32⟩) (.of main_call1_call0_v0 : TRef sig ⟨S_, .i32⟩) (.of main_v4 : TRef sig ⟨S100, .i32⟩) (fun x v => Host.reduceWindow IntOp.addi ![100] ![1] ![99] ![0] x v reduceWindows_S100_S100_w100s1p99_0 h_S_),
    -- the program's own line resumes
    nullary main_c_1 (constantI S_ 32 0#32),
    unary main_c_1 main_v5 (broadcastInDim S640000 ![] bcast_S_S640000 : (⟨S_, .i32⟩ : BufTy).Contents (Elt F) → (⟨S640000, .i32⟩ : BufTy).Contents (Elt F)),
    nullary main_c_2 (constantI S_ 32 0#32),
    unary main_c_2 main_v6 (broadcastInDim S100 ![] bcast_S_S100 : (⟨S_, .i32⟩ : BufTy).Contents (Elt F) → (⟨S100, .i32⟩ : BufTy).Contents (Elt F)),
    binary main_v4 main_v6 main_v7 (cmpi .slt : (⟨S100, .i32⟩ : BufTy).Contents (Elt F) → (⟨S100, .i32⟩ : BufTy).Contents (Elt F) → (⟨S100, .i1⟩ : BufTy).Contents (Elt F)),
    nullary main_c_3 (constantI S_ 32 640000#32),
    unary main_c_3 main_v8 (broadcastInDim S100 ![] bcast_S_S100 : (⟨S_, .i32⟩ : BufTy).Contents (Elt F) → (⟨S100, .i32⟩ : BufTy).Contents (Elt F)),
    binary main_v4 main_v8 main_v9 (addi : (⟨S100, .i32⟩ : BufTy).Contents (Elt F) → (⟨S100, .i32⟩ : BufTy).Contents (Elt F) → (⟨S100, .i32⟩ : BufTy).Contents (Elt F)),
    ternary main_v7 main_v9 main_v4 main_v10 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    unary main_v10 main_v11 (broadcastInDim S100x1 ![0] bcast_S100_S100x1_0 : (⟨S100, .i32⟩ : BufTy).Contents (Elt F) → (⟨S100x1, .i32⟩ : BufTy).Contents (Elt F)),
    nullary main_c_4 (constantI S_ 32 1#32),
    unary main_c_4 main_v12 (broadcastInDim S100 ![] bcast_S_S100 : (⟨S_, .i32⟩ : BufTy).Contents (Elt F) → (⟨S100, .i32⟩ : BufTy).Contents (Elt F)),
    ternary main_v5 main_v11 main_v12 main_v13 ((fun x i u => Host.scatter scatter_S640000_S100x1_S100_n_0_0_1 IntOp.addi x i u) : (⟨S640000, .i32⟩ : BufTy).Contents (Elt F) → (⟨S100x1, .i32⟩ : BufTy).Contents (Elt F) → (⟨S100, .i32⟩ : BufTy).Contents (Elt F) → (⟨S640000, .i32⟩ : BufTy).Contents (Elt F)),
    -- running sums of a 640000-vector
    TRef.nullary (.of main_call2_call0_c : TRef sig ⟨S_, .i32⟩) (constantI S_ 32 0#32),
    TRef.unary (.of main_call2_call0_c : TRef sig ⟨S_, .i32⟩) (.of main_call2_call0_v0 : TRef sig ⟨S_, .i32⟩) (broadcastInDim S_ ![] bcast_S_S_),
    TRef.binary (.of main_v13 : TRef sig ⟨S640000, .i32⟩) (.of main_call2_call0_v0 : TRef sig ⟨S_, .i32⟩) (.of main_v14 : TRef sig ⟨S640000, .i32⟩) (fun x v => Host.reduceWindow IntOp.addi ![640000] ![1] ![639999] ![0] x v reduceWindows_S640000_S640000_w640000s1p639999_0 h_S_),
    -- the program's own line resumes
    nullary main_c_5 (constantI S_ 32 1#32),
    unary main_c_5 main_v15 (broadcastInDim S640000 ![] bcast_S_S640000 : (⟨S_, .i32⟩ : BufTy).Contents (Elt F) → (⟨S640000, .i32⟩ : BufTy).Contents (Elt F)),
    binary main_v14 main_v15 main_v16 (subi : (⟨S640000, .i32⟩ : BufTy).Contents (Elt F) → (⟨S640000, .i32⟩ : BufTy).Contents (Elt F) → (⟨S640000, .i32⟩ : BufTy).Contents (Elt F)),
    -- a clamped table read of a 100-vector at 640000 places: negative places wrap by 100; a place outside 0..99 reads the least integer
    TRef.nullary (.of main_call3_c : TRef sig ⟨S_, .i32⟩) (constantI S_ 32 0#32),
    TRef.unary (.of main_call3_c : TRef sig ⟨S_, .i32⟩) (.of main_call3_v0 : TRef sig ⟨S640000, .i32⟩) (broadcastInDim S640000 ![] bcast_S_S640000),
    TRef.binary (.of main_v16 : TRef sig ⟨S640000, .i32⟩) (.of main_call3_v0 : TRef sig ⟨S640000, .i32⟩) (.of main_call3_v1 : TRef sig ⟨S640000, .i1⟩) (cmpi .slt),
    TRef.nullary (.of main_call3_c_0 : TRef sig ⟨S_, .i32⟩) (constantI S_ 32 100#32),
    TRef.unary (.of main_call3_c_0 : TRef sig ⟨S_, .i32⟩) (.of main_call3_v2 : TRef sig ⟨S640000, .i32⟩) (broadcastInDim S640000 ![] bcast_S_S640000),
    TRef.binary (.of main_v16 : TRef sig ⟨S640000, .i32⟩) (.of main_call3_v2 : TRef sig ⟨S640000, .i32⟩) (.of main_call3_v3 : TRef sig ⟨S640000, .i32⟩) addi,
    TRef.ternary (.of main_call3_v1 : TRef sig ⟨S640000, .i1⟩) (.of main_call3_v3 : TRef sig ⟨S640000, .i32⟩) (.of main_v16 : TRef sig ⟨S640000, .i32⟩) (.of main_call3_v4 : TRef sig ⟨S640000, .i32⟩) select,
    TRef.unary (.of main_call3_v4 : TRef sig ⟨S640000, .i32⟩) (.of main_call3_v5 : TRef sig ⟨S640000x1, .i32⟩) (broadcastInDim S640000x1 ![0] bcast_S640000_S640000x1_0),
    TRef.nullary (.of main_call3_c_1 : TRef sig ⟨S1, .i32⟩) (constantI S1 32 99#32),
    TRef.nullary (.of main_call3_c_2 : TRef sig ⟨S_, .i32⟩) (constantI S_ 32 0#32),
    TRef.unary (.of main_call3_c_2 : TRef sig ⟨S_, .i32⟩) (.of main_call3_v6 : TRef sig ⟨S640000x1, .i32⟩) (broadcastInDim S640000x1 ![] bcast_S_S640000x1),
    TRef.binary (.of main_call3_v5 : TRef sig ⟨S640000x1, .i32⟩) (.of main_call3_v6 : TRef sig ⟨S640000x1, .i32⟩) (.of main_call3_v7 : TRef sig ⟨S640000x1, .i1⟩) (cmpi .sge),
    TRef.unary (.of main_call3_c_1 : TRef sig ⟨S1, .i32⟩) (.of main_call3_v8 : TRef sig ⟨S1x1, .i32⟩) (broadcastInDim S1x1 ![1] bcast_S1_S1x1_1),
    TRef.unary (.of main_call3_v8 : TRef sig ⟨S1x1, .i32⟩) (.of main_call3_v9 : TRef sig ⟨S640000x1, .i32⟩) (broadcastInDim S640000x1 ![0, 1] bcast_S1x1_S640000x1_0_1),
    TRef.binary (.of main_call3_v5 : TRef sig ⟨S640000x1, .i32⟩) (.of main_call3_v9 : TRef sig ⟨S640000x1, .i32⟩) (.of main_call3_v10 : TRef sig ⟨S640000x1, .i1⟩) (cmpi .sle),
    TRef.binary (.of main_call3_v7 : TRef sig ⟨S640000x1, .i1⟩) (.of main_call3_v10 : TRef sig ⟨S640000x1, .i1⟩) (.of main_call3_v11 : TRef sig ⟨S640000x1, .i1⟩) andi,
    TRef.nullary (.of main_call3_c_3 : TRef sig ⟨S_, .i1⟩) (constantI S_ 1 1#1),
    TRef.binary (.of main_call3_v11 : TRef sig ⟨S640000x1, .i1⟩) (.of main_call3_c_3 : TRef sig ⟨S_, .i1⟩) (.of main_call3_v12 : TRef sig ⟨S640000, .i1⟩) (fun x v => Host.reduce IntOp.andi x v reducesTo_S640000x1_S640000_d1 h_S_),
    TRef.binary (.of main_v0 : TRef sig ⟨S100, .i32⟩) (.of main_call3_v5 : TRef sig ⟨S640000x1, .i32⟩) (.of main_call3_v13 : TRef sig ⟨S640000, .i32⟩) (fun x i => Host.gather gather_S100_S640000x1_S640000_n_0_n_n_0_1_1 x i),
    TRef.nullary (.of main_call3_c_4 : TRef sig ⟨S_, .i32⟩) (constantI S_ 32 2147483648#32),
    TRef.unary (.of main_call3_c_4 : TRef sig ⟨S_, .i32⟩) (.of main_call3_v14 : TRef sig ⟨S640000, .i32⟩) (broadcastInDim S640000 ![] bcast_S_S640000),
    TRef.ternary (.of main_call3_v12 : TRef sig ⟨S640000, .i1⟩) (.of main_call3_v13 : TRef sig ⟨S640000, .i32⟩) (.of main_call3_v14 : TRef sig ⟨S640000, .i32⟩) (.of main_v17 : TRef sig ⟨S640000, .i32⟩) select,
    -- the program's own line resumes
    reshape main_arg1 main_v18 rfl shapeCasts_S640000x1_S640000,
    nullary main_cst (constant S_ .f32 0x00000000#32),
    unary main_cst main_v19 (broadcastInDim S100 ![] bcast_S_S100 : (⟨S_, .f32⟩ : BufTy).Contents (Elt F) → (⟨S100, .f32⟩ : BufTy).Contents (Elt F)),
    unary main_v17 main_v20 (broadcastInDim S640000x1 ![0] bcast_S640000_S640000x1_0 : (⟨S640000, .i32⟩ : BufTy).Contents (Elt F) → (⟨S640000x1, .i32⟩ : BufTy).Contents (Elt F)),
    ternary main_v19 main_v20 main_v18 main_v21 ((fun x i u => Host.scatterAdd scatter_S100_S640000x1_S640000_n_0_0_1 x i u) : (⟨S100, .f32⟩ : BufTy).Contents (Elt F) → (⟨S640000x1, .i32⟩ : BufTy).Contents (Elt F) → (⟨S640000, .f32⟩ : BufTy).Contents (Elt F) → (⟨S100, .f32⟩ : BufTy).Contents (Elt F)),
    binary main_arg0 main_arg6 main_v22 ((fun l r => Host.dotGeneral dot_S10000x128_S128x512_S10000x512_1_0_0_1_n_n none l r) : (⟨S10000x128, .f32⟩ : BufTy).Contents (Elt F) → (⟨S128x512, .f32⟩ : BufTy).Contents (Elt F) → (⟨S10000x512, .f32⟩ : BufTy).Contents (Elt F)),
    unary main_arg7 main_v23 (broadcastInDim S1x512 ![1] bcast_S512_S1x512_1 : (⟨S512, .f32⟩ : BufTy).Contents (Elt F) → (⟨S1x512, .f32⟩ : BufTy).Contents (Elt F)),
    unary main_v23 main_v24 (broadcastInDim S10000x512 ![0, 1] bcast_S1x512_S10000x512_0_1 : (⟨S1x512, .f32⟩ : BufTy).Contents (Elt F) → (⟨S10000x512, .f32⟩ : BufTy).Contents (Elt F)),
    binary main_v22 main_v24 main_v25 (addf : (⟨S10000x512, .f32⟩ : BufTy).Contents (Elt F) → (⟨S10000x512, .f32⟩ : BufTy).Contents (Elt F) → (⟨S10000x512, .f32⟩ : BufTy).Contents (Elt F)),
    -- the positive part: the maximum with zero
    TRef.nullary (.of main_call4_cst : TRef sig ⟨S_, .f32⟩) (constant S_ .f32 0x00000000#32),
    TRef.unary (.of main_call4_cst : TRef sig ⟨S_, .f32⟩) (.of main_call4_v0 : TRef sig ⟨S10000x512, .f32⟩) (broadcastInDim S10000x512 ![] bcast_S_S10000x512),
    TRef.binary (.of main_v25 : TRef sig ⟨S10000x512, .f32⟩) (.of main_call4_v0 : TRef sig ⟨S10000x512, .f32⟩) (.of main_v26 : TRef sig ⟨S10000x512, .f32⟩) maximumf,
    -- the program's own line resumes
    binary main_v26 main_arg8 main_v27 ((fun l r => Host.dotGeneral dot_S10000x512_S512x128_S10000x128_1_0_0_1_n_n none l r) : (⟨S10000x512, .f32⟩ : BufTy).Contents (Elt F) → (⟨S512x128, .f32⟩ : BufTy).Contents (Elt F) → (⟨S10000x128, .f32⟩ : BufTy).Contents (Elt F)),
    unary main_arg9 main_v28 (broadcastInDim S1x128 ![1] bcast_S128_S1x128_1 : (⟨S128, .f32⟩ : BufTy).Contents (Elt F) → (⟨S1x128, .f32⟩ : BufTy).Contents (Elt F)),
    unary main_v28 main_v29 (broadcastInDim S10000x128 ![0, 1] bcast_S1x128_S10000x128_0_1 : (⟨S1x128, .f32⟩ : BufTy).Contents (Elt F) → (⟨S10000x128, .f32⟩ : BufTy).Contents (Elt F)),
    binary main_v27 main_v29 main_v30 (addf : (⟨S10000x128, .f32⟩ : BufTy).Contents (Elt F) → (⟨S10000x128, .f32⟩ : BufTy).Contents (Elt F) → (⟨S10000x128, .f32⟩ : BufTy).Contents (Elt F)),
    -- the rows of the 10000 x 128 table at the senders: negative ids wrap by 10000; an id outside 0..9999 reads the not-a-number row
    TRef.nullary (.of main_call5_c : TRef sig ⟨S_, .i32⟩) (constantI S_ 32 0#32),
    TRef.unary (.of main_call5_c : TRef sig ⟨S_, .i32⟩) (.of main_call5_v0 : TRef sig ⟨S640000, .i32⟩) (broadcastInDim S640000 ![] bcast_S_S640000),
    TRef.binary (.of main_arg2 : TRef sig ⟨S640000, .i32⟩) (.of main_call5_v0 : TRef sig ⟨S640000, .i32⟩) (.of main_call5_v1 : TRef sig ⟨S640000, .i1⟩) (cmpi .slt),
    TRef.nullary (.of main_call5_c_0 : TRef sig ⟨S_, .i32⟩) (constantI S_ 32 10000#32),
    TRef.unary (.of main_call5_c_0 : TRef sig ⟨S_, .i32⟩) (.of main_call5_v2 : TRef sig ⟨S640000, .i32⟩) (broadcastInDim S640000 ![] bcast_S_S640000),
    TRef.binary (.of main_arg2 : TRef sig ⟨S640000, .i32⟩) (.of main_call5_v2 : TRef sig ⟨S640000, .i32⟩) (.of main_call5_v3 : TRef sig ⟨S640000, .i32⟩) addi,
    TRef.ternary (.of main_call5_v1 : TRef sig ⟨S640000, .i1⟩) (.of main_call5_v3 : TRef sig ⟨S640000, .i32⟩) (.of main_arg2 : TRef sig ⟨S640000, .i32⟩) (.of main_call5_v4 : TRef sig ⟨S640000, .i32⟩) select,
    TRef.unary (.of main_call5_v4 : TRef sig ⟨S640000, .i32⟩) (.of main_call5_v5 : TRef sig ⟨S640000x1, .i32⟩) (broadcastInDim S640000x1 ![0] bcast_S640000_S640000x1_0),
    TRef.nullary (.of main_call5_c_1 : TRef sig ⟨S1, .i32⟩) (constantI S1 32 9999#32),
    TRef.nullary (.of main_call5_c_2 : TRef sig ⟨S_, .i32⟩) (constantI S_ 32 0#32),
    TRef.unary (.of main_call5_c_2 : TRef sig ⟨S_, .i32⟩) (.of main_call5_v6 : TRef sig ⟨S640000x1, .i32⟩) (broadcastInDim S640000x1 ![] bcast_S_S640000x1),
    TRef.binary (.of main_call5_v5 : TRef sig ⟨S640000x1, .i32⟩) (.of main_call5_v6 : TRef sig ⟨S640000x1, .i32⟩) (.of main_call5_v7 : TRef sig ⟨S640000x1, .i1⟩) (cmpi .sge),
    TRef.unary (.of main_call5_c_1 : TRef sig ⟨S1, .i32⟩) (.of main_call5_v8 : TRef sig ⟨S1x1, .i32⟩) (broadcastInDim S1x1 ![1] bcast_S1_S1x1_1),
    TRef.unary (.of main_call5_v8 : TRef sig ⟨S1x1, .i32⟩) (.of main_call5_v9 : TRef sig ⟨S640000x1, .i32⟩) (broadcastInDim S640000x1 ![0, 1] bcast_S1x1_S640000x1_0_1),
    TRef.binary (.of main_call5_v5 : TRef sig ⟨S640000x1, .i32⟩) (.of main_call5_v9 : TRef sig ⟨S640000x1, .i32⟩) (.of main_call5_v10 : TRef sig ⟨S640000x1, .i1⟩) (cmpi .sle),
    TRef.binary (.of main_call5_v7 : TRef sig ⟨S640000x1, .i1⟩) (.of main_call5_v10 : TRef sig ⟨S640000x1, .i1⟩) (.of main_call5_v11 : TRef sig ⟨S640000x1, .i1⟩) andi,
    TRef.nullary (.of main_call5_c_3 : TRef sig ⟨S_, .i1⟩) (constantI S_ 1 1#1),
    TRef.binary (.of main_call5_v11 : TRef sig ⟨S640000x1, .i1⟩) (.of main_call5_c_3 : TRef sig ⟨S_, .i1⟩) (.of main_call5_v12 : TRef sig ⟨S640000, .i1⟩) (fun x v => Host.reduce IntOp.andi x v reducesTo_S640000x1_S640000_d1 h_S_),
    TRef.binary (.of main_v30 : TRef sig ⟨S10000x128, .f32⟩) (.of main_call5_v5 : TRef sig ⟨S640000x1, .i32⟩) (.of main_call5_v13 : TRef sig ⟨S640000x128, .f32⟩) (fun x i => Host.gather gather_S10000x128_S640000x1_S640000x128_1_0_n_n_0_1_1128 x i),
    TRef.unary (.of main_call5_v12 : TRef sig ⟨S640000, .i1⟩) (.of main_call5_v14 : TRef sig ⟨S640000x128, .i1⟩) (broadcastInDim S640000x128 ![0] bcast_S640000_S640000x128_0),
    TRef.nullary (.of main_call5_cst : TRef sig ⟨S_, .f32⟩) (constant S_ .f32 0x7FC00000#32),
    TRef.unary (.of main_call5_cst : TRef sig ⟨S_, .f32⟩) (.of main_call5_v15 : TRef sig ⟨S640000x128, .f32⟩) (broadcastInDim S640000x128 ![] bcast_S_S640000x128),
    TRef.ternary (.of main_call5_v14 : TRef sig ⟨S640000x128, .i1⟩) (.of main_call5_v13 : TRef sig ⟨S640000x128, .f32⟩) (.of main_call5_v15 : TRef sig ⟨S640000x128, .f32⟩) (.of main_v31 : TRef sig ⟨S640000x128, .f32⟩) select,
    -- the rows of the 10000 x 128 table at the receivers, likewise
    TRef.nullary (.of main_call6_c : TRef sig ⟨S_, .i32⟩) (constantI S_ 32 0#32),
    TRef.unary (.of main_call6_c : TRef sig ⟨S_, .i32⟩) (.of main_call6_v0 : TRef sig ⟨S640000, .i32⟩) (broadcastInDim S640000 ![] bcast_S_S640000),
    TRef.binary (.of main_arg3 : TRef sig ⟨S640000, .i32⟩) (.of main_call6_v0 : TRef sig ⟨S640000, .i32⟩) (.of main_call6_v1 : TRef sig ⟨S640000, .i1⟩) (cmpi .slt),
    TRef.nullary (.of main_call6_c_0 : TRef sig ⟨S_, .i32⟩) (constantI S_ 32 10000#32),
    TRef.unary (.of main_call6_c_0 : TRef sig ⟨S_, .i32⟩) (.of main_call6_v2 : TRef sig ⟨S640000, .i32⟩) (broadcastInDim S640000 ![] bcast_S_S640000),
    TRef.binary (.of main_arg3 : TRef sig ⟨S640000, .i32⟩) (.of main_call6_v2 : TRef sig ⟨S640000, .i32⟩) (.of main_call6_v3 : TRef sig ⟨S640000, .i32⟩) addi,
    TRef.ternary (.of main_call6_v1 : TRef sig ⟨S640000, .i1⟩) (.of main_call6_v3 : TRef sig ⟨S640000, .i32⟩) (.of main_arg3 : TRef sig ⟨S640000, .i32⟩) (.of main_call6_v4 : TRef sig ⟨S640000, .i32⟩) select,
    TRef.unary (.of main_call6_v4 : TRef sig ⟨S640000, .i32⟩) (.of main_call6_v5 : TRef sig ⟨S640000x1, .i32⟩) (broadcastInDim S640000x1 ![0] bcast_S640000_S640000x1_0),
    TRef.nullary (.of main_call6_c_1 : TRef sig ⟨S1, .i32⟩) (constantI S1 32 9999#32),
    TRef.nullary (.of main_call6_c_2 : TRef sig ⟨S_, .i32⟩) (constantI S_ 32 0#32),
    TRef.unary (.of main_call6_c_2 : TRef sig ⟨S_, .i32⟩) (.of main_call6_v6 : TRef sig ⟨S640000x1, .i32⟩) (broadcastInDim S640000x1 ![] bcast_S_S640000x1),
    TRef.binary (.of main_call6_v5 : TRef sig ⟨S640000x1, .i32⟩) (.of main_call6_v6 : TRef sig ⟨S640000x1, .i32⟩) (.of main_call6_v7 : TRef sig ⟨S640000x1, .i1⟩) (cmpi .sge),
    TRef.unary (.of main_call6_c_1 : TRef sig ⟨S1, .i32⟩) (.of main_call6_v8 : TRef sig ⟨S1x1, .i32⟩) (broadcastInDim S1x1 ![1] bcast_S1_S1x1_1),
    TRef.unary (.of main_call6_v8 : TRef sig ⟨S1x1, .i32⟩) (.of main_call6_v9 : TRef sig ⟨S640000x1, .i32⟩) (broadcastInDim S640000x1 ![0, 1] bcast_S1x1_S640000x1_0_1),
    TRef.binary (.of main_call6_v5 : TRef sig ⟨S640000x1, .i32⟩) (.of main_call6_v9 : TRef sig ⟨S640000x1, .i32⟩) (.of main_call6_v10 : TRef sig ⟨S640000x1, .i1⟩) (cmpi .sle),
    TRef.binary (.of main_call6_v7 : TRef sig ⟨S640000x1, .i1⟩) (.of main_call6_v10 : TRef sig ⟨S640000x1, .i1⟩) (.of main_call6_v11 : TRef sig ⟨S640000x1, .i1⟩) andi,
    TRef.nullary (.of main_call6_c_3 : TRef sig ⟨S_, .i1⟩) (constantI S_ 1 1#1),
    TRef.binary (.of main_call6_v11 : TRef sig ⟨S640000x1, .i1⟩) (.of main_call6_c_3 : TRef sig ⟨S_, .i1⟩) (.of main_call6_v12 : TRef sig ⟨S640000, .i1⟩) (fun x v => Host.reduce IntOp.andi x v reducesTo_S640000x1_S640000_d1 h_S_),
    TRef.binary (.of main_v30 : TRef sig ⟨S10000x128, .f32⟩) (.of main_call6_v5 : TRef sig ⟨S640000x1, .i32⟩) (.of main_call6_v13 : TRef sig ⟨S640000x128, .f32⟩) (fun x i => Host.gather gather_S10000x128_S640000x1_S640000x128_1_0_n_n_0_1_1128 x i),
    TRef.unary (.of main_call6_v12 : TRef sig ⟨S640000, .i1⟩) (.of main_call6_v14 : TRef sig ⟨S640000x128, .i1⟩) (broadcastInDim S640000x128 ![0] bcast_S640000_S640000x128_0),
    TRef.nullary (.of main_call6_cst : TRef sig ⟨S_, .f32⟩) (constant S_ .f32 0x7FC00000#32),
    TRef.unary (.of main_call6_cst : TRef sig ⟨S_, .f32⟩) (.of main_call6_v15 : TRef sig ⟨S640000x128, .f32⟩) (broadcastInDim S640000x128 ![] bcast_S_S640000x128),
    TRef.ternary (.of main_call6_v14 : TRef sig ⟨S640000x128, .i1⟩) (.of main_call6_v13 : TRef sig ⟨S640000x128, .f32⟩) (.of main_call6_v15 : TRef sig ⟨S640000x128, .f32⟩) (.of main_v32 : TRef sig ⟨S640000x128, .f32⟩) select,
    -- the program's own line resumes
    binary main_v31 main_v32 main_v33 (subf : (⟨S640000x128, .f32⟩ : BufTy).Contents (Elt F) → (⟨S640000x128, .f32⟩ : BufTy).Contents (Elt F) → (⟨S640000x128, .f32⟩ : BufTy).Contents (Elt F)),
    binary main_v33 main_v33 main_v34 (mulf : (⟨S640000x128, .f32⟩ : BufTy).Contents (Elt F) → (⟨S640000x128, .f32⟩ : BufTy).Contents (Elt F) → (⟨S640000x128, .f32⟩ : BufTy).Contents (Elt F)),
    nullary main_cst_6 (constant S_ .f32 0x00000000#32),
    binary main_v34 main_cst_6 main_v35 ((fun x v => Host.reduceAdd x v reducesTo_S640000x128_S640000_d1 h_S_) : (⟨S640000x128, .f32⟩ : BufTy).Contents (Elt F) → (⟨S_, .f32⟩ : BufTy).Contents (Elt F) → (⟨S640000, .f32⟩ : BufTy).Contents (Elt F)),
    binary main_v18 main_v35 main_v36 (mulf : (⟨S640000, .f32⟩ : BufTy).Contents (Elt F) → (⟨S640000, .f32⟩ : BufTy).Contents (Elt F) → (⟨S640000, .f32⟩ : BufTy).Contents (Elt F)),
    nullary main_cst_7 (constant S_ .f32 0x00000000#32),
    unary main_cst_7 main_v37 (broadcastInDim S100 ![] bcast_S_S100 : (⟨S_, .f32⟩ : BufTy).Contents (Elt F) → (⟨S100, .f32⟩ : BufTy).Contents (Elt F)),
    unary main_v17 main_v38 (broadcastInDim S640000x1 ![0] bcast_S640000_S640000x1_0 : (⟨S640000, .i32⟩ : BufTy).Contents (Elt F) → (⟨S640000x1, .i32⟩ : BufTy).Contents (Elt F)),
    ternary main_v37 main_v38 main_v36 main_v39 ((fun x i u => Host.scatterAdd scatter_S100_S640000x1_S640000_n_0_0_1 x i u) : (⟨S100, .f32⟩ : BufTy).Contents (Elt F) → (⟨S640000x1, .i32⟩ : BufTy).Contents (Elt F) → (⟨S640000, .f32⟩ : BufTy).Contents (Elt F) → (⟨S100, .f32⟩ : BufTy).Contents (Elt F)),
    nullary main_cst_8 (constant S_ .f32 0x00000000#32),
    unary main_cst_8 main_v40 (broadcastInDim S100 ![] bcast_S_S100 : (⟨S_, .f32⟩ : BufTy).Contents (Elt F) → (⟨S100, .f32⟩ : BufTy).Contents (Elt F)),
    binary main_v21 main_v40 main_v41 (cmpf .une : (⟨S100, .f32⟩ : BufTy).Contents (Elt F) → (⟨S100, .f32⟩ : BufTy).Contents (Elt F) → (⟨S100, .i1⟩ : BufTy).Contents (Elt F)),
    nullary main_cst_9 (constant S_ .f32 0x00000000#32),
    unary main_cst_9 main_v42 (broadcastInDim S100 ![] bcast_S_S100 : (⟨S_, .f32⟩ : BufTy).Contents (Elt F) → (⟨S100, .f32⟩ : BufTy).Contents (Elt F)),
    binary main_v21 main_v42 main_v43 (cmpf .une : (⟨S100, .f32⟩ : BufTy).Contents (Elt F) → (⟨S100, .f32⟩ : BufTy).Contents (Elt F) → (⟨S100, .i1⟩ : BufTy).Contents (Elt F)),
    nullary main_cst_10 (constant S_ .f32 0x3F800000#32),
    -- where the segment's weight is nonzero keep it, elsewhere one
    TRef.unary (.of main_cst_10 : TRef sig ⟨S_, .f32⟩) (.of main_call7_v0 : TRef sig ⟨S_, .f32⟩) id,
    TRef.unary (.of main_call7_v0 : TRef sig ⟨S_, .f32⟩) (.of main_call7_v1 : TRef sig ⟨S100, .f32⟩) (broadcastInDim S100 ![] bcast_S_S100),
    TRef.ternary (.of main_v43 : TRef sig ⟨S100, .i1⟩) (.of main_v21 : TRef sig ⟨S100, .f32⟩) (.of main_call7_v1 : TRef sig ⟨S100, .f32⟩) (.of main_v44 : TRef sig ⟨S100, .f32⟩) select,
    -- the program's own line resumes
    binary main_v39 main_v44 main_v45 (Host.divf : (⟨S100, .f32⟩ : BufTy).Contents (Elt F) → (⟨S100, .f32⟩ : BufTy).Contents (Elt F) → (⟨S100, .f32⟩ : BufTy).Contents (Elt F)),
    nullary main_cst_11 (constant S_ .f32 0x00000000#32),
    -- where the segment's weight is nonzero keep the quotient, elsewhere zero
    TRef.unary (.of main_cst_11 : TRef sig ⟨S_, .f32⟩) (.of main_call8_v0 : TRef sig ⟨S_, .f32⟩) id,
    TRef.unary (.of main_call8_v0 : TRef sig ⟨S_, .f32⟩) (.of main_call8_v1 : TRef sig ⟨S100, .f32⟩) (broadcastInDim S100 ![] bcast_S_S100),
    TRef.ternary (.of main_v41 : TRef sig ⟨S100, .i1⟩) (.of main_v45 : TRef sig ⟨S100, .f32⟩) (.of main_call8_v1 : TRef sig ⟨S100, .f32⟩) (.of main_v46 : TRef sig ⟨S100, .f32⟩) select,
    -- the program's own line resumes
    nullary main_cst_12 (constant S_ .f32 0x00000000#32),
    binary main_v46 main_cst_12 main_v47 ((fun x v => Host.reduceAdd x v reducesTo_S100_S_d0 h_S_) : (⟨S100, .f32⟩ : BufTy).Contents (Elt F) → (⟨S_, .f32⟩ : BufTy).Contents (Elt F) → (⟨S_, .f32⟩ : BufTy).Contents (Elt F)),
    nullary main_cst_13 (constant S_ .f32 0x42C80000#32),
    binary main_v47 main_cst_13 main_v48 (Host.divf : (⟨S_, .f32⟩ : BufTy).Contents (Elt F) → (⟨S_, .f32⟩ : BufTy).Contents (Elt F) → (⟨S_, .f32⟩ : BufTy).Contents (Elt F)),
    -- running sums of the 100 segment lengths
    TRef.nullary (.of main_call9_call0_c : TRef sig ⟨S_, .i32⟩) (constantI S_ 32 0#32),
    TRef.unary (.of main_call9_call0_c : TRef sig ⟨S_, .i32⟩) (.of main_call9_call0_v0 : TRef sig ⟨S_, .i32⟩) (broadcastInDim S_ ![] bcast_S_S_),
    TRef.binary (.of main_arg4 : TRef sig ⟨S100, .i32⟩) (.of main_call9_call0_v0 : TRef sig ⟨S_, .i32⟩) (.of main_v49 : TRef sig ⟨S100, .i32⟩) (fun x v => Host.reduceWindow IntOp.addi ![100] ![1] ![99] ![0] x v reduceWindows_S100_S100_w100s1p99_0 h_S_),
    -- the program's own line resumes
    nullary main_c_14 (constantI S_ 32 1#32),
    unary main_c_14 main_v50 (broadcastInDim S100 ![] bcast_S_S100 : (⟨S_, .i32⟩ : BufTy).Contents (Elt F) → (⟨S100, .i32⟩ : BufTy).Contents (Elt F)),
    binary main_v49 main_v50 main_v51 (subi : (⟨S100, .i32⟩ : BufTy).Contents (Elt F) → (⟨S100, .i32⟩ : BufTy).Contents (Elt F) → (⟨S100, .i32⟩ : BufTy).Contents (Elt F)),
    -- the rows of the 10000 x 128 table at each segment's last node, out-of-range ids as above
    TRef.nullary (.of main_call10_c : TRef sig ⟨S_, .i32⟩) (constantI S_ 32 0#32),
    TRef.unary (.of main_call10_c : TRef sig ⟨S_, .i32⟩) (.of main_call10_v0 : TRef sig ⟨S100, .i32⟩) (broadcastInDim S100 ![] bcast_S_S100),
    TRef.binary (.of main_v51 : TRef sig ⟨S100, .i32⟩) (.of main_call10_v0 : TRef sig ⟨S100, .i32⟩) (.of main_call10_v1 : TRef sig ⟨S100, .i1⟩) (cmpi .slt),
    TRef.nullary (.of main_call10_c_0 : TRef sig ⟨S_, .i32⟩) (constantI S_ 32 10000#32),
    TRef.unary (.of main_call10_c_0 : TRef sig ⟨S_, .i32⟩) (.of main_call10_v2 : TRef sig ⟨S100, .i32⟩) (broadcastInDim S100 ![] bcast_S_S100),
    TRef.binary (.of main_v51 : TRef sig ⟨S100, .i32⟩) (.of main_call10_v2 : TRef sig ⟨S100, .i32⟩) (.of main_call10_v3 : TRef sig ⟨S100, .i32⟩) addi,
    TRef.ternary (.of main_call10_v1 : TRef sig ⟨S100, .i1⟩) (.of main_call10_v3 : TRef sig ⟨S100, .i32⟩) (.of main_v51 : TRef sig ⟨S100, .i32⟩) (.of main_call10_v4 : TRef sig ⟨S100, .i32⟩) select,
    TRef.unary (.of main_call10_v4 : TRef sig ⟨S100, .i32⟩) (.of main_call10_v5 : TRef sig ⟨S100x1, .i32⟩) (broadcastInDim S100x1 ![0] bcast_S100_S100x1_0),
    TRef.nullary (.of main_call10_c_1 : TRef sig ⟨S1, .i32⟩) (constantI S1 32 9999#32),
    TRef.nullary (.of main_call10_c_2 : TRef sig ⟨S_, .i32⟩) (constantI S_ 32 0#32),
    TRef.unary (.of main_call10_c_2 : TRef sig ⟨S_, .i32⟩) (.of main_call10_v6 : TRef sig ⟨S100x1, .i32⟩) (broadcastInDim S100x1 ![] bcast_S_S100x1),
    TRef.binary (.of main_call10_v5 : TRef sig ⟨S100x1, .i32⟩) (.of main_call10_v6 : TRef sig ⟨S100x1, .i32⟩) (.of main_call10_v7 : TRef sig ⟨S100x1, .i1⟩) (cmpi .sge),
    TRef.unary (.of main_call10_c_1 : TRef sig ⟨S1, .i32⟩) (.of main_call10_v8 : TRef sig ⟨S1x1, .i32⟩) (broadcastInDim S1x1 ![1] bcast_S1_S1x1_1),
    TRef.unary (.of main_call10_v8 : TRef sig ⟨S1x1, .i32⟩) (.of main_call10_v9 : TRef sig ⟨S100x1, .i32⟩) (broadcastInDim S100x1 ![0, 1] bcast_S1x1_S100x1_0_1),
    TRef.binary (.of main_call10_v5 : TRef sig ⟨S100x1, .i32⟩) (.of main_call10_v9 : TRef sig ⟨S100x1, .i32⟩) (.of main_call10_v10 : TRef sig ⟨S100x1, .i1⟩) (cmpi .sle),
    TRef.binary (.of main_call10_v7 : TRef sig ⟨S100x1, .i1⟩) (.of main_call10_v10 : TRef sig ⟨S100x1, .i1⟩) (.of main_call10_v11 : TRef sig ⟨S100x1, .i1⟩) andi,
    TRef.nullary (.of main_call10_c_3 : TRef sig ⟨S_, .i1⟩) (constantI S_ 1 1#1),
    TRef.binary (.of main_call10_v11 : TRef sig ⟨S100x1, .i1⟩) (.of main_call10_c_3 : TRef sig ⟨S_, .i1⟩) (.of main_call10_v12 : TRef sig ⟨S100, .i1⟩) (fun x v => Host.reduce IntOp.andi x v reducesTo_S100x1_S100_d1 h_S_),
    TRef.binary (.of main_v30 : TRef sig ⟨S10000x128, .f32⟩) (.of main_call10_v5 : TRef sig ⟨S100x1, .i32⟩) (.of main_call10_v13 : TRef sig ⟨S100x128, .f32⟩) (fun x i => Host.gather gather_S10000x128_S100x1_S100x128_1_0_n_n_0_1_1128 x i),
    TRef.unary (.of main_call10_v12 : TRef sig ⟨S100, .i1⟩) (.of main_call10_v14 : TRef sig ⟨S100x128, .i1⟩) (broadcastInDim S100x128 ![0] bcast_S100_S100x128_0),
    TRef.nullary (.of main_call10_cst : TRef sig ⟨S_, .f32⟩) (constant S_ .f32 0x7FC00000#32),
    TRef.unary (.of main_call10_cst : TRef sig ⟨S_, .f32⟩) (.of main_call10_v15 : TRef sig ⟨S100x128, .f32⟩) (broadcastInDim S100x128 ![] bcast_S_S100x128),
    TRef.ternary (.of main_call10_v14 : TRef sig ⟨S100x128, .i1⟩) (.of main_call10_v13 : TRef sig ⟨S100x128, .f32⟩) (.of main_call10_v15 : TRef sig ⟨S100x128, .f32⟩) (.of main_v52 : TRef sig ⟨S100x128, .f32⟩) select ]

set_option maxRecDepth 8192 in
set_option maxHeartbeats 4000000 in
/-- The program is that straight line: with the functions' definitions unfolded at their calls and the calls'
    records at their fields, both sides are one chain of single steps once sequencing is reassociated. -/
theorem main_eq (c : Dev nD) : main (F := F) c = seq ops := by
  simp only [main, main_part0, main_part1, fn_roll_static.body, fn_cumsum_0.body, fn_cumsum.body, fn_cumsum_2.body,
    fn_cumsum_1.body, fn_where.body, fn_take.body, fn_relu.body, fn_where_4.body, fn_take_3.body, fn_where_5.body,
    fn_cumsum_7.body, fn_cumsum_6.body, fn_where_9.body, fn_take_8.body, seq, bind_assoc, pure_bind]

/-- The program names no scoped buffer. -/
theorem scopedRefs_eq : (Finset.univ.filter fun b : Ref sig .tc => b.isScoped) = ∅ := by decide
/-- The program names no scoped counter. -/
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., unary_bufs_sub .., unary_bufs_sub .., binary_bufs_sub .., nullary_bufs_sub .., unary_bufs_sub ..,
    nullary_bufs_sub .., ternary_bufs_sub .., nullary_bufs_sub .., unary_bufs_sub .., binary_bufs_sub .., nullary_bufs_sub ..,
    unary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., reshape_bufs_sub .., nullary_bufs_sub ..,
    unary_bufs_sub .., unary_bufs_sub .., ternary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., binary_bufs_sub .., nullary_bufs_sub .., binary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., binary_bufs_sub .., nullary_bufs_sub .., unary_bufs_sub .., unary_bufs_sub .., ternary_bufs_sub ..,
    nullary_bufs_sub .., binary_bufs_sub .., nullary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub ..⟩

/-- Every operation determines what it writes: none leaves a buffer at an arbitrary value. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- On every device, for any float values, from any memory with zero counters: every weakly fair execution of the
    program terminates, and every final state has each buffer at the fold of the 171 operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## What the line leaves alone

Each operation writes one buffer; the 171 written buffers, in order, are `ops_W`. A buffer outside that list is
read at most, so it ends at its launch contents. The ten arguments are such buffers. -/

/-- The buffer each operation writes, in order. -/
abbrev ops_W : List (Ref sig .tc) :=
  [ main_v0, main_call0_v0, main_call0_v1, main_v1, main_c, main_v2, main_c_0, main_v3,
    main_call1_call0_c, main_call1_call0_v0, main_v4, main_c_1, main_v5, main_c_2, main_v6, main_v7,
    main_c_3, main_v8, main_v9, main_v10, main_v11, main_c_4, main_v12, main_v13,
    main_call2_call0_c, main_call2_call0_v0, main_v14, main_c_5, main_v15, main_v16, main_call3_c, main_call3_v0,
    main_call3_v1, main_call3_c_0, main_call3_v2, main_call3_v3, main_call3_v4, main_call3_v5, main_call3_c_1, main_call3_c_2,
    main_call3_v6, main_call3_v7, main_call3_v8, main_call3_v9, main_call3_v10, main_call3_v11, main_call3_c_3, main_call3_v12,
    main_call3_v13, main_call3_c_4, main_call3_v14, main_v17, main_v18, main_cst, main_v19, main_v20,
    main_v21, main_v22, main_v23, main_v24, main_v25, main_call4_cst, main_call4_v0, main_v26,
    main_v27, main_v28, main_v29, main_v30, main_call5_c, main_call5_v0, main_call5_v1, main_call5_c_0,
    main_call5_v2, main_call5_v3, main_call5_v4, main_call5_v5, main_call5_c_1, main_call5_c_2, main_call5_v6, main_call5_v7,
    main_call5_v8, main_call5_v9, main_call5_v10, main_call5_v11, main_call5_c_3, main_call5_v12, main_call5_v13, main_call5_v14,
    main_call5_cst, main_call5_v15, main_v31, main_call6_c, main_call6_v0, main_call6_v1, main_call6_c_0, main_call6_v2,
    main_call6_v3, main_call6_v4, main_call6_v5, main_call6_c_1, main_call6_c_2, main_call6_v6, main_call6_v7, main_call6_v8,
    main_call6_v9, main_call6_v10, main_call6_v11, main_call6_c_3, main_call6_v12, main_call6_v13, main_call6_v14, main_call6_cst,
    main_call6_v15, main_v32, main_v33, main_v34, main_cst_6, main_v35, main_v36, main_cst_7,
    main_v37, main_v38, main_v39, main_cst_8, main_v40, main_v41, main_cst_9, main_v42,
    main_v43, main_cst_10, main_call7_v0, main_call7_v1, main_v44, main_v45, main_cst_11, main_call8_v0,
    main_call8_v1, main_v46, main_cst_12, main_v47, main_cst_13, main_v48, main_call9_call0_c, main_call9_call0_v0,
    main_v49, main_c_14, main_v50, main_v51, main_call10_c, main_call10_v0, main_call10_v1, main_call10_c_0,
    main_call10_v2, main_call10_v3, main_call10_v4, main_call10_v5, main_call10_c_1, main_call10_c_2, main_call10_v6, main_call10_v7,
    main_call10_v8, main_call10_v9, main_call10_v10, main_call10_v11, main_call10_c_3, main_call10_v12, main_call10_v13, main_call10_v14,
    main_call10_cst, main_call10_v15, main_v52 ]

theorem ops_writes : (ops : List (HloOp τ sig (Elt F))).Forall fun op => op.writes ⊆ (ops_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer no operation writes ends as it began. -/
theorem after_ops_of_not_written (M : Valuation τ sig (Elt F)) {r : Ref sig .tc} (h : r ∉ ops_W) :
    after ops M (Proc.devRef .tc r) = M (Proc.devRef .tc r) :=
  after_of_writes_sub ops M ops_writes h

theorem after_arg0 (M : Valuation τ sig (Elt F)) : after ops M (Proc.devRef .tc main_arg0) = M (Proc.devRef .tc main_arg0) :=
  after_ops_of_not_written M (by decide)
theorem after_arg1 (M : Valuation τ sig (Elt F)) : after ops M (Proc.devRef .tc main_arg1) = M (Proc.devRef .tc main_arg1) :=
  after_ops_of_not_written M (by decide)
theorem after_arg2 (M : Valuation τ sig (Elt F)) : after ops M (Proc.devRef .tc main_arg2) = M (Proc.devRef .tc main_arg2) :=
  after_ops_of_not_written M (by decide)
theorem after_arg3 (M : Valuation τ sig (Elt F)) : after ops M (Proc.devRef .tc main_arg3) = M (Proc.devRef .tc main_arg3) :=
  after_ops_of_not_written M (by decide)
theorem after_arg4 (M : Valuation τ sig (Elt F)) : after ops M (Proc.devRef .tc main_arg4) = M (Proc.devRef .tc main_arg4) :=
  after_ops_of_not_written M (by decide)
theorem after_arg5 (M : Valuation τ sig (Elt F)) : after ops M (Proc.devRef .tc main_arg5) = M (Proc.devRef .tc main_arg5) :=
  after_ops_of_not_written M (by decide)
theorem after_arg6 (M : Valuation τ sig (Elt F)) : after ops M (Proc.devRef .tc main_arg6) = M (Proc.devRef .tc main_arg6) :=
  after_ops_of_not_written M (by decide)
theorem after_arg7 (M : Valuation τ sig (Elt F)) : after ops M (Proc.devRef .tc main_arg7) = M (Proc.devRef .tc main_arg7) :=
  after_ops_of_not_written M (by decide)
theorem after_arg8 (M : Valuation τ sig (Elt F)) : after ops M (Proc.devRef .tc main_arg8) = M (Proc.devRef .tc main_arg8) :=
  after_ops_of_not_written M (by decide)
theorem after_arg9 (M : Valuation τ sig (Elt F)) : after ops M (Proc.devRef .tc main_arg9) = M (Proc.devRef .tc main_arg9) :=
  after_ops_of_not_written M (by decide)

end Cert.ReferenceIdeal.Value

end
-- ==== Proof.RefValue.lean ====
/-
  The reference's two heavy stages, each read at one index.

  The first stage is the node perceptron: a product of the node table with the first weight matrix, the
  first bias added along the rows, the positive part, a product with the second weight matrix, the second
  bias added. At node `p` and feature `q` this is `Cert.Spec.mlp`.

  The second stage takes, for every edge, the perceptron's rows at the edge's sender and at its receiver
  (a row lookup that first wraps a negative number by the table's height and then fills a row whose number
  is still outside the table with a not-a-number word), subtracts them, squares, sums over the 128
  features and multiplies by the edge's weight. When every sender and receiver is a number below the
  table's height, the wrap keeps it, the range test passes everywhere, the filling word is never read, and
  the lookup is the table's row: the stage is `Cert.Spec.edge`.
-/
import proofs.«426342_j11098195493609_3_alg».proof.Proof.Gen.ReferenceIdeal
import proofs.«426342_j11098195493609_3_alg».proof.Proof.Spec
import Idealize.ShloMosaic.PureOps.Ideal.Laws
import Idealize.ShloMosaic.Lib.ValueIdx
import Idealize.ShloMosaic.Lib.IdealHost
import Idealize.ShloMosaic.Lib.StableHlo.Predicate
import Idealize.ShloMosaic.Lib.Pipeline.Value

noncomputable section

namespace Cert.ReferenceIdeal.RefValue

open Idealize.ShloMosaic Idealize.ShloMosaic.ValueIdx
open Cert.ReferenceIdeal Cert.ReferenceIdeal.Facts₀

/-! ## The perceptron -/

/-- The positive part: the maximum with a table of zeros. -/
def refRelu (x : FVec Ideal S10000x512 .f32) : FVec Ideal S10000x512 .f32 :=
  maximumf x (broadcastInDim S10000x512 ![] bcast_S_S10000x512 (constant (F := Ideal) S_ .f32 0x00000000#32))

/-- The node stage: two affine maps with the positive part between them. -/
def refH (nodes : FVec Ideal S10000x128 .f32) (W1 : FVec Ideal S128x512 .f32) (b1 : FVec Ideal S512 .f32)
    (W2 : FVec Ideal S512x128 .f32) (b2 : FVec Ideal S128 .f32) : FVec Ideal S10000x128 .f32 :=
  addf
    (Host.dotGeneral (F := Ideal) dot_S10000x512_S512x128_S10000x128_1_0_0_1_n_n none
      (refRelu
        (addf
          (Host.dotGeneral (F := Ideal) dot_S10000x128_S128x512_S10000x512_1_0_0_1_n_n none nodes W1)
          (broadcastInDim S10000x512 ![0, 1] bcast_S1x512_S10000x512_0_1
            (broadcastInDim S1x512 ![1] bcast_S512_S1x512_1 b1))))
      W2)
    (broadcastInDim S10000x128 ![0, 1] bcast_S1x128_S10000x128_0_1
      (broadcastInDim S1x128 ![1] bcast_S128_S1x128_1 b2))

/-! ### The two products at an index -/

/-- The first product's dimension numbers: rows of the node table against columns of the first weights. -/
abbrev dotA : DotDims S10000x128 S128x512 S10000x512 := dot_S10000x128_S128x512_S10000x512_1_0_0_1_n_n
/-- The second product's: rows of the hidden table against columns of the second weights. -/
abbrev dotB : DotDims S10000x512 S512x128 S10000x128 := dot_S10000x512_S512x128_S10000x128_1_0_0_1_n_n

theorem dotA_lhs_0 (j : S10000x512.Idx) (k : dotA.contr.Idx) : (dotA.lhsIdx j k 0 : ℕ) = j 0 := by
  simp [DotDims.lhsIdx, dotA, dot_S10000x128_S128x512_S10000x512_1_0_0_1_n_n]; rfl
theorem dotA_lhs_1 (j : S10000x512.Idx) (k : dotA.contr.Idx) : (dotA.lhsIdx j k 1 : ℕ) = k ⟨0, by decide⟩ := by
  simp [DotDims.lhsIdx, dotA, dot_S10000x128_S128x512_S10000x512_1_0_0_1_n_n]; rfl
theorem dotA_rhs_0 (j : S10000x512.Idx) (k : dotA.contr.Idx) : (dotA.rhsIdx j k 0 : ℕ) = k ⟨0, by decide⟩ := by
  simp [DotDims.rhsIdx, dotA, dot_S10000x128_S128x512_S10000x512_1_0_0_1_n_n]; rfl
theorem dotA_rhs_1 (j : S10000x512.Idx) (k : dotA.contr.Idx) : (dotA.rhsIdx j k 1 : ℕ) = j 1 := by
  simp [DotDims.rhsIdx, dotA, dot_S10000x128_S128x512_S10000x512_1_0_0_1_n_n]; rfl

theorem dotB_lhs_0 (j : S10000x128.Idx) (k : dotB.contr.Idx) : (dotB.lhsIdx j k 0 : ℕ) = j 0 := by
  simp [DotDims.lhsIdx, dotB, dot_S10000x512_S512x128_S10000x128_1_0_0_1_n_n]; rfl
theorem dotB_lhs_1 (j : S10000x128.Idx) (k : dotB.contr.Idx) : (dotB.lhsIdx j k 1 : ℕ) = k ⟨0, by decide⟩ := by
  simp [DotDims.lhsIdx, dotB, dot_S10000x512_S512x128_S10000x128_1_0_0_1_n_n]; rfl
theorem dotB_rhs_0 (j : S10000x128.Idx) (k : dotB.contr.Idx) : (dotB.rhsIdx j k 0 : ℕ) = k ⟨0, by decide⟩ := by
  simp [DotDims.rhsIdx, dotB, dot_S10000x512_S512x128_S10000x128_1_0_0_1_n_n]; rfl
theorem dotB_rhs_1 (j : S10000x128.Idx) (k : dotB.contr.Idx) : (dotB.rhsIdx j k 1 : ℕ) = j 1 := by
  simp [DotDims.rhsIdx, dotB, dot_S10000x512_S512x128_S10000x128_1_0_0_1_n_n]; rfl

/-- The first product's contraction index is its one coordinate, below 128. -/
def contrA : dotA.contr.Idx ≃ Fin 128 := contrEquiv1 dotA 128 rfl rfl
/-- The second product's, below 512. -/
def contrB : dotB.contr.Idx ≃ Fin 512 := contrEquiv1 dotB 512 rfl rfl

theorem contrA_symm_val (c : Fin 128) : ((contrA.symm c) ⟨0, by decide⟩ : ℕ) = c.val :=
  contrEquiv1_symm_val dotA 128 rfl rfl c
theorem contrB_symm_val (c : Fin 512) : ((contrB.symm c) ⟨0, by decide⟩ : ℕ) = c.val :=
  contrEquiv1_symm_val dotB 512 rfl rfl c

/-- The first product at row `p`, column `k`: the sum over the 128 shared coordinates. -/
theorem dotA_apply (l : FVec Ideal S10000x128 .f32) (r : FVec Ideal S128x512 .f32) (p : Fin 10000) (k : Fin 512) :
    Host.dotGeneral (F := Ideal) dotA none l r (ix2 p k) = ∑ c : Fin 128, l (ix2 p c) * r (ix2 c k) := by
  simp only [Host.dotGeneral]
  rw [Ideal.dotGeneral_apply, ← Equiv.sum_comp contrA.symm]
  refine Finset.sum_congr rfl fun c _ => ?_
  have hl : dotA.lhsIdx (ix2 p k) (contrA.symm c) = ix2 p c := by
    funext a; apply Fin.ext
    match a with
    | ⟨0, _⟩ => exact dotA_lhs_0 _ _
    | ⟨1, _⟩ => exact (dotA_lhs_1 _ _).trans (contrA_symm_val c)
  have hr : dotA.rhsIdx (ix2 p k) (contrA.symm c) = ix2 c k := by
    funext a; apply Fin.ext
    match a with
    | ⟨0, _⟩ => exact (dotA_rhs_0 _ _).trans (contrA_symm_val c)
    | ⟨1, _⟩ => exact dotA_rhs_1 _ _
  rw [hl, hr]

/-- The second product at row `p`, column `q`: the sum over the 512 shared coordinates. -/
theorem dotB_apply (l : FVec Ideal S10000x512 .f32) (r : FVec Ideal S512x128 .f32) (p : Fin 10000) (q : Fin 128) :
    Host.dotGeneral (F := Ideal) dotB none l r (ix2 p q) = ∑ c : Fin 512, l (ix2 p c) * r (ix2 c q) := by
  simp only [Host.dotGeneral]
  rw [Ideal.dotGeneral_apply, ← Equiv.sum_comp contrB.symm]
  refine Finset.sum_congr rfl fun c _ => ?_
  have hl : dotB.lhsIdx (ix2 p q) (contrB.symm c) = ix2 p c := by
    funext a; apply Fin.ext
    match a with
    | ⟨0, _⟩ => exact dotB_lhs_0 _ _
    | ⟨1, _⟩ => exact (dotB_lhs_1 _ _).trans (contrB_symm_val c)
  have hr : dotB.rhsIdx (ix2 p q) (contrB.symm c) = ix2 c q := by
    funext a; apply Fin.ext
    match a with
    | ⟨0, _⟩ => exact (dotB_rhs_0 _ _).trans (contrB_symm_val c)
    | ⟨1, _⟩ => exact dotB_rhs_1 _ _
  rw [hl, hr]

/-! ### The biases, the positive part, and the stage -/

/-- The first bias laid along the rows of the hidden table reads, at (`p`, `k`), its entry `k`. -/
theorem bias1_apply (b1 : FVec Ideal S512 .f32) (p : Fin 10000) (k : Fin 512) :
    broadcastInDim S10000x512 ![0, 1] bcast_S1x512_S10000x512_0_1
      (broadcastInDim S1x512 ![1] bcast_S512_S1x512_1 b1) (ix2 p k) = b1 (ix1 k) := by
  rw [broadcastInDim_apply _ _ _ (ix2 p k) (ix2 (0 : Fin 1) k) (fun a => match a with | ⟨0, _⟩ => rfl | ⟨1, _⟩ => rfl)]
  exact broadcastInDim_apply _ _ _ (ix2 (0 : Fin 1) k) (ix1 k) (fun a => match a with | ⟨0, _⟩ => rfl)

/-- The second bias laid along the rows of the output table reads, at (`p`, `q`), its entry `q`. -/
theorem bias2_apply (b2 : FVec Ideal S128 .f32) (p : Fin 10000) (q : Fin 128) :
    broadcastInDim S10000x128 ![0, 1] bcast_S1x128_S10000x128_0_1
      (broadcastInDim S1x128 ![1] bcast_S128_S1x128_1 b2) (ix2 p q) = b2 (ix1 q) := by
  rw [broadcastInDim_apply _ _ _ (ix2 p q) (ix2 (0 : Fin 1) q) (fun a => match a with | ⟨0, _⟩ => rfl | ⟨1, _⟩ => rfl)]
  exact broadcastInDim_apply _ _ _ (ix2 (0 : Fin 1) q) (ix1 q) (fun a => match a with | ⟨0, _⟩ => rfl)

/-- The positive part at an index: the maximum of the entry and zero. -/
theorem refRelu_apply (x : FVec Ideal S10000x512 .f32) (i : S10000x512.Idx) : refRelu x i = max (x i) 0 := by
  unfold refRelu
  rw [maximumf_apply, broadcastInDim_scalar_apply, constant_apply, Ideal.ofBits_zero_f32]

/-- THE NODE STAGE AT (`p`, `q`) is the perceptron of the specification. -/
theorem refH_apply (nodes : FVec Ideal S10000x128 .f32) (W1 : FVec Ideal S128x512 .f32) (b1 : FVec Ideal S512 .f32)
    (W2 : FVec Ideal S512x128 .f32) (b2 : FVec Ideal S128 .f32) (p : Fin 10000) (q : Fin 128) :
    refH nodes W1 b1 W2 b2 (ix2 p q)
      = Cert.Spec.mlp (fun a b => nodes (ix2 a b)) (fun a b => W1 (ix2 a b)) (fun k => b1 (ix1 k))
          (fun a b => W2 (ix2 a b)) (fun k => b2 (ix1 k)) p q := by
  unfold refH Cert.Spec.mlp Cert.Spec.hidden
  rw [addf_apply, bias2_apply]
  show Host.dotGeneral (F := Ideal) dotB none _ W2 (ix2 p q) + _ = _
  rw [dotB_apply]
  congr 1
  refine Finset.sum_congr rfl fun k _ => ?_
  rw [refRelu_apply, addf_apply, bias1_apply]
  show max (Host.dotGeneral (F := Ideal) dotA none nodes W1 (ix2 p k) + _) 0 * _ = _
  rw [dotA_apply]

/-! ## The edge stage -/

/-- A negative row number wrapped once by the table's height: the number plus 10000 where it is below zero,
    the number itself elsewhere. -/
def wrapIx (ix : IVec S640000 32) : IVec S640000 32 :=
  select (cmpi .slt ix (broadcastInDim S640000 ![] bcast_S_S640000 (constantI S_ 32 0#32)))
    (addi ix (broadcastInDim S640000 ![] bcast_S_S640000 (constantI S_ 32 10000#32))) ix

/-- The wrapped row numbers as a column of start positions. -/
def colIx (ix : IVec S640000 32) : IVec S640000x1 32 :=
  broadcastInDim S640000x1 ![0] bcast_S640000_S640000x1_0 (wrapIx ix)

/-- The range test of each wrapped row number, 0 ≤ n and n ≤ 9999, taken over the column's one entry. -/
def inRange (ix : IVec S640000 32) : IVec S640000 1 :=
  Host.reduce IntOp.andi
    (andi
      (cmpi .sge (colIx ix) (broadcastInDim S640000x1 ![] bcast_S_S640000x1 (constantI S_ 32 0#32)))
      (cmpi .sle (colIx ix)
        (broadcastInDim S640000x1 ![0, 1] bcast_S1x1_S640000x1_0_1
          (broadcastInDim S1x1 ![1] bcast_S1_S1x1_1 (constantI S1 32 9999#32)))))
    (constantI S_ 1 1#1) reducesTo_S640000x1_S640000_d1 h_S_

/-- The row lookup: the table's rows at the wrapped numbers where the range test passes, rows of the
    not-a-number word where it fails. -/
def refTake (h : FVec Ideal S10000x128 .f32) (ix : IVec S640000 32) : FVec Ideal S640000x128 .f32 :=
  select (broadcastInDim S640000x128 ![0] bcast_S640000_S640000x128_0 (inRange ix))
    (Host.gather gather_S10000x128_S640000x1_S640000x128_1_0_n_n_0_1_1128 h (colIx ix))
    (broadcastInDim S640000x128 ![] bcast_S_S640000x128 (constant (F := Ideal) S_ .f32 0x7FC00000#32))

/-- The edge stage: the weight times the sum over the features of the squared difference of the two
    looked-up rows. -/
def refEdge (h : FVec Ideal S10000x128 .f32) (senders receivers : IVec S640000 32)
    (edges : FVec Ideal S640000x1 .f32) : FVec Ideal S640000 .f32 :=
  mulf (shapeCast S640000 edges shapeCasts_S640000x1_S640000)
    (Host.reduceAdd (F := Ideal)
      (mulf (subf (refTake h senders) (refTake h receivers)) (subf (refTake h senders) (refTake h receivers)))
      (constant (F := Ideal) S_ .f32 0x00000000#32) reducesTo_S640000x128_S640000_d1 h_S_)

/-! ### The row lookup at an index -/

/-- A number below the table's height is not below zero as a signed word: the wrap keeps it. -/
theorem wrapIx_apply (ix : IVec S640000 32) (e : Fin 640000) (h : (ix (ix1 e)).toNat < 10000) :
    wrapIx ix (ix1 e) = ix (ix1 e) := by
  unfold wrapIx
  rw [select_apply]
  have hc : cmpi .slt ix (broadcastInDim S640000 ![] bcast_S_S640000 (constantI S_ 32 0#32)) (ix1 e) = 0#1 := by
    apply eq_zero_of_ne_one
    show ¬ IntOp.cmpi .slt (ix (ix1 e)) (broadcastInDim S640000 ![] bcast_S_S640000 (constantI S_ 32 0#32) (ix1 e)) = 1#1
    rw [broadcastInDim_scalar_apply]
    show ¬ IntOp.cmpi .slt (ix (ix1 e)) 0#32 = 1#1
    rw [StableHlo.Predicate.slt_iff_toNat (by omega) (by decide)]
    exact Nat.not_lt_zero _
  rw [hc, select_zero]

/-- The column of start positions at row `e` is the wrapped number of `e`. -/
theorem colIx_apply (ix : IVec S640000 32) (e : Fin 640000) (c : Fin 1) : colIx ix (ix2 e c) = wrapIx ix (ix1 e) := by
  unfold colIx
  exact broadcastInDim_apply _ _ _ (ix2 e c) (ix1 e) (fun a => match a with | ⟨0, _⟩ => rfl)

/-- A left fold of one-bit conjunction from 1 over entries that are all 1 is 1. -/
theorem foldl_andi_ones {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons_self ..)]
    exact ih (fun n hn => h n (List.mem_cons_of_mem _ hn))

/-- When every row number is below the table's height, the range test passes at every position. -/
theorem inRange_apply (ix : IVec S640000 32) (h : ∀ e : Fin 640000, (ix (ix1 e)).toNat < 10000) (j : S640000.Idx) :
    inRange ix j = 1#1 := by
  unfold inRange
  rw [Host.reduce_eq_foldl]
  refine foldl_andi_ones _ _ fun i _ => ?_
  obtain ⟨a, c, rfl⟩ : ∃ (a : Fin 640000) (c : Fin 1), i = ix2 a c := ⟨i 0, i 1, eq_ix2 i⟩
  show IntOp.andi (IntOp.cmpi .sge (colIx ix (ix2 a c)) _) (IntOp.cmpi .sle (colIx ix (ix2 a c)) _) = 1#1
  rw [colIx_apply, wrapIx_apply ix a (h a), broadcastInDim_scalar_apply]
  rw [broadcastInDim_apply _ _ _ (ix2 a c) (ix2 (0 : Fin 1) (0 : Fin 1)) (fun b => match b with | ⟨0, _⟩ => rfl | ⟨1, _⟩ => rfl)]
  rw [broadcastInDim_apply _ _ _ (ix2 (0 : Fin 1) (0 : Fin 1)) (ix1 (0 : Fin 1)) (fun b => match b with | ⟨0, _⟩ => rfl)]
  show IntOp.andi (IntOp.cmpi .sge (ix (ix1 a)) 0#32) (IntOp.cmpi .sle (ix (ix1 a)) 9999#32) = 1#1
  have h0 := h a
  rw [(StableHlo.Predicate.sge_iff_toNat (a := ix (ix1 a)) (b := 0#32) (by omega) (by decide)).mpr (Nat.zero_le _),
    (StableHlo.Predicate.sle_iff_toNat (a := ix (ix1 a)) (b := 9999#32) (by omega) (by decide)).mpr
      (by show (ix (ix1 a)).toNat ≤ 9999; omega)]
  rfl

/-- The gather's dimension numbers: whole rows of the table (its first axis collapsed and start-indexed,
    its second axis kept as the result's second axis). -/
abbrev gRows : GatherDims S10000x128 S640000x1 S640000x128 :=
  gather_S10000x128_S640000x1_S640000x128_1_0_n_n_0_1_1128

/-- THE ROW GATHER AT (`e`, `d`): the table at the row the start position of `e` names, read signed and
    clamped into the table, and at feature `d`. -/
theorem gatherRows_apply (h : FVec Ideal S10000x128 .f32) (idx : IVec S640000x1 32) (e : Fin 640000) (d : Fin 128) :
    Host.gather gRows h idx (ix2 e d)
      = h (ix2 (⟨min (idx (ix2 e 0)).toInt.toNat 9999, by omega⟩ : Fin 10000) d) := by
  unfold Host.gather
  congr 1
  funext a
  apply Fin.ext
  match a with
  | ⟨0, _⟩ =>
    show gRows.start (ix2 e d) idx 0 + gRows.batchCoord (ix2 e d) 0 + gRows.offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gRows.startIndexMap from List.mem_singleton.mpr rfl)]
    have hsi : gRows.siIdx (ix2 e d) ⟨List.idxOf (0 : Fin 2) gRows.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gRows.start (ix2 e d) idx 1 + gRows.batchCoord (ix2 e d) 1 + gRows.offCoord (ix2 e d) 1 = _
    rw [GatherDims.batchCoord_eq_zero _ _ _ List.not_mem_nil]
    unfold GatherDims.start
    rw [dif_neg (show (1 : Fin 2) ∉ gRows.startIndexMap from by decide)]
    unfold GatherDims.offCoord
    rw [dif_pos (show (1 : Fin 2) ∈ gRows.sKept from by decide)]
    simp only [Nat.zero_add]
    rfl

/-- THE ROW LOOKUP AT (`e`, `d`), when every row number is below the table's height: the table's row of
    that number. The wrap keeps the number, the range test passes, the clamp keeps the number, and the
    filling word is not read. -/
theorem refTake_apply (h : FVec Ideal S10000x128 .f32) (ix : IVec S640000 32)
    (hix : ∀ e : Fin 640000, (ix (ix1 e)).toNat < 10000) (e : Fin 640000) (d : Fin 128) :
    refTake h ix (ix2 e d) = h (ix2 (⟨(ix (ix1 e)).toNat, hix e⟩ : Fin 10000) d) := by
  unfold refTake
  rw [select_apply,
    broadcastInDim_apply _ _ _ (ix2 e d) (ix1 e) (fun a => match a with | ⟨0, _⟩ => rfl),
    inRange_apply ix hix, select_one]
  show Host.gather gRows h (colIx ix) (ix2 e d) = _
  rw [gatherRows_apply]
  have hv : min (colIx ix (ix2 e 0)).toInt.toNat 9999 = (ix (ix1 e)).toNat := by
    have h0 := hix e
    rw [colIx_apply, wrapIx_apply ix e h0, StableHlo.Predicate.toInt_eq_toNat_of_lt (by omega), Int.toNat_natCast]
    omega
  congr 1
  funext a
  match a with
  | ⟨0, _⟩ => exact Fin.ext hv
  | ⟨1, _⟩ => rfl

/-! ### The stage -/

/-- The feature axis of the [640000 × 128] table of squared differences reduces away. -/
theorem reducesFeatures : S640000x128.Reduces [1] S640000 := by decide

/-- THE EDGE STAGE AT `e`, when every sender and receiver is a number below the table's height, is the
    specification's edge value over the table's rows. -/
theorem refEdge_apply (h : FVec Ideal S10000x128 .f32) (senders receivers : IVec S640000 32)
    (edges : FVec Ideal S640000x1 .f32)
    (hs : ∀ e : Fin 640000, (senders (ix1 e)).toNat < 10000)
    (hr : ∀ e : Fin 640000, (receivers (ix1 e)).toNat < 10000) (e : Fin 640000) :
    refEdge h senders receivers edges (ix1 e)
      = Cert.Spec.edge (fun a b => h (ix2 a b)) (fun e => senders (ix1 e)) (fun e => receivers (ix1 e))
          (fun e => edges (ix2 e 0)) e := by
  unfold refEdge Cert.Spec.edge
  rw [mulf_apply]
  refine congrArg₂ (· * ·) ?_ ?_
  · exact shapeCast_apply edges _ (ix1 e) (ix2 e 0)
      (by rw [Shape.rowMajor_val_two, Shape.rowMajor_val_one]; show e.val * 1 + 0 = e.val; omega)
  · rw [hostReduceAdd_apply, Ideal.hostReduceAdd_single _ reducesFeatures, constant_apply, Ideal.ofBits_zero_f32,
      zero_add]
    show ∑ d : Fin 128, _ = _
    refine Finset.sum_congr rfl fun d _ => ?_
    have hl : reducesFeatures.lift (ix1 e) d = ix2 e d := by
      funext a; apply Fin.ext
      match a with
      | ⟨0, _⟩ => rfl
      | ⟨1, _⟩ => rfl
    rw [hl, mulf_apply, subf_apply, refTake_apply h senders hs, refTake_apply h receivers hr]
    unfold Cert.Spec.look
    rw [dif_pos (hs e), dif_pos (hr e)]

end Cert.ReferenceIdeal.RefValue

end
-- ==== Proof.RefLink.lean ====
/-
  The reference's run meets the two stage functions.

  After the reference's straight line of operations, the buffer of the node stage holds the node stage
  function of the five argument buffers it reads, and the buffer of the edge stage holds the edge stage
  function of the node stage's buffer, the two buffers of row numbers and the buffer of edge weights.
-/
import proofs.«426342_j11098195493609_3_alg».proof.Proof.RefRun
import proofs.«426342_j11098195493609_3_alg».proof.Proof.RefValue
import Idealize.ShloMosaic.Lib.StableHlo.Run

noncomputable section

namespace Cert.ReferenceIdeal.RefLink

open Cert.ReferenceIdeal Idealize.ShloMosaic Idealize.ShloMosaic.TcCoe Idealize.SL.Sem Idealize.ShloMosaic.StableHlo

/-- After the run the node stage's buffer holds the node stage function of the node table, the two weight
    matrices and the two biases as they were at the launch. -/
theorem link_h (M : Valuation τ sig (Elt Ideal)) :
    after (Value.ops (F := Ideal)) M (Proc.devRef .tc main_v30)
      = RefValue.refH (M (Proc.devRef .tc main_arg0)) (M (Proc.devRef .tc main_arg6)) (M (Proc.devRef .tc main_arg7))
          (M (Proc.devRef .tc main_arg8)) (M (Proc.devRef .tc main_arg9)) := by
  after_results_simp
  rfl

/-- Contents carried to a buffer's own type and back are the contents. -/
theorem ofBuf_toBuf {T : BufTy} (x : TRef sig T) (v : T.Contents (Elt Ideal)) : x.ofBuf (x.toBuf v) = v := by
  cases x with
  | mk r h hd hu => cases h; rfl

/-- The senders' lookup, carried to its buffer's own type, is itself. -/
theorem toBuf_v31 (v : FVec Ideal S640000x128 .f32) :
    ((TRef.of main_v31 : TRef sig ⟨S640000x128, .f32⟩).toBuf (Val := Elt Ideal) v : FVec Ideal S640000x128 .f32) = v := rfl
/-- The receivers' lookup likewise. -/
theorem toBuf_v32 (v : FVec Ideal S640000x128 .f32) :
    ((TRef.of main_v32 : TRef sig ⟨S640000x128, .f32⟩).toBuf (Val := Elt Ideal) v : FVec Ideal S640000x128 .f32) = v := rfl

set_option maxHeartbeats 4000000 in
/-- After the run the edge stage's buffer holds the edge stage function of the node stage's buffer after
    the run, of the senders' and receivers' row numbers and of the edge weights as they were at the launch. -/
theorem link_e (M : Valuation τ sig (Elt Ideal)) :
    after (Value.ops (F := Ideal)) M (Proc.devRef .tc main_v36)
      = RefValue.refEdge (after (Value.ops (F := Ideal)) M (Proc.devRef .tc main_v30)) (M (Proc.devRef .tc main_arg2))
          (M (Proc.devRef .tc main_arg3)) (M (Proc.devRef .tc main_arg1)) := by
  have e := link_h M
  simp (disch := decide) only [after_cons, after_nil, nullary_result', unary_result', binary_result', ternary_result',
    reshape_result', nullary_result_ne', unary_result_ne', binary_result_ne', ternary_result_ne', reshape_result_ne',
    ofBuf_toBuf] at e ⊢
  rw [e, toBuf_v31, toBuf_v32]
  generalize RefValue.refH _ _ _ _ _ = H
  generalize hH : (TRef.of main_v30 : TRef sig ⟨S10000x128, .f32⟩).ofBuf (Val := Elt Ideal) H = H'
  obtain rfl : H = H' := hH
  generalize hs : (TRef.of main_arg2 : TRef sig ⟨S640000, .i32⟩).ofBuf (Val := Elt Ideal) (M (Proc.devRef .tc main_arg2)) = s
  have hs' : M (Proc.devRef .tc main_arg2) = s := hs
  generalize hr : (TRef.of main_arg3 : TRef sig ⟨S640000, .i32⟩).ofBuf (Val := Elt Ideal) (M (Proc.devRef .tc main_arg3)) = r
  have hr' : M (Proc.devRef .tc main_arg3) = r := hr
  rw [hs', hr']
  rfl

end Cert.ReferenceIdeal.RefLink

end
-- ==== Proof.TailRef.lean ====
/-
  The reference's node output is the shared last stretch's.

  The reference's last 29 operations take running sums of the per-graph node counts, subtract one (the last
  node of every graph), and look the perceptron's rows up there: negative positions wrap, positions outside
  the table read a filler row. They read two buffers written earlier or never, the node counts and the
  perceptron's output, and write neither. So the reference's whole line splits into its first 142 operations
  and these 29; the fold over the whole is the fold of the 29 over the fold of the 142; the 29 leave both
  buffers they read as they found them; and what they leave in the result buffer is, operation by operation,
  the chain `nodeOf` of the two.
-/
import proofs.«426342_j11098195493609_3_alg».proof.Proof.RefRun
import proofs.«426342_j11098195493609_3_alg».proof.Proof.TailDefs
import Idealize.ShloMosaic.Lib.StableHlo.Run

noncomputable section

namespace Cert.TailRef

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The fold over two lines run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The reference's last 29 operations: running sums of the node counts, one less, the table read. -/
abbrev tailOps : List (HloOp τ sig (Elt F)) :=
  [ TRef.nullary (.of main_call9_call0_c : TRef sig ⟨S_, .i32⟩) (constantI S_ 32 0#32),
    TRef.unary (.of main_call9_call0_c : TRef sig ⟨S_, .i32⟩) (.of main_call9_call0_v0 : TRef sig ⟨S_, .i32⟩) (broadcastInDim S_ ![] bcast_S_S_),
    TRef.binary (.of main_arg4 : TRef sig ⟨S100, .i32⟩) (.of main_call9_call0_v0 : TRef sig ⟨S_, .i32⟩) (.of main_v49 : TRef sig ⟨S100, .i32⟩) (fun x v => Host.reduceWindow IntOp.addi ![100] ![1] ![99] ![0] x v reduceWindows_S100_S100_w100s1p99_0 h_S_),
    nullary main_c_14 (constantI S_ 32 1#32),
    unary main_c_14 main_v50 (broadcastInDim S100 ![] bcast_S_S100 : (⟨S_, .i32⟩ : BufTy).Contents (Elt F) → (⟨S100, .i32⟩ : BufTy).Contents (Elt F)),
    binary main_v49 main_v50 main_v51 (subi : (⟨S100, .i32⟩ : BufTy).Contents (Elt F) → (⟨S100, .i32⟩ : BufTy).Contents (Elt F) → (⟨S100, .i32⟩ : BufTy).Contents (Elt F)),
    TRef.nullary (.of main_call10_c : TRef sig ⟨S_, .i32⟩) (constantI S_ 32 0#32),
    TRef.unary (.of main_call10_c : TRef sig ⟨S_, .i32⟩) (.of main_call10_v0 : TRef sig ⟨S100, .i32⟩) (broadcastInDim S100 ![] bcast_S_S100),
    TRef.binary (.of main_v51 : TRef sig ⟨S100, .i32⟩) (.of main_call10_v0 : TRef sig ⟨S100, .i32⟩) (.of main_call10_v1 : TRef sig ⟨S100, .i1⟩) (cmpi .slt),
    TRef.nullary (.of main_call10_c_0 : TRef sig ⟨S_, .i32⟩) (constantI S_ 32 10000#32),
    TRef.unary (.of main_call10_c_0 : TRef sig ⟨S_, .i32⟩) (.of main_call10_v2 : TRef sig ⟨S100, .i32⟩) (broadcastInDim S100 ![] bcast_S_S100),
    TRef.binary (.of main_v51 : TRef sig ⟨S100, .i32⟩) (.of main_call10_v2 : TRef sig ⟨S100, .i32⟩) (.of main_call10_v3 : TRef sig ⟨S100, .i32⟩) addi,
    TRef.ternary (.of main_call10_v1 : TRef sig ⟨S100, .i1⟩) (.of main_call10_v3 : TRef sig ⟨S100, .i32⟩) (.of main_v51 : TRef sig ⟨S100, .i32⟩) (.of main_call10_v4 : TRef sig ⟨S100, .i32⟩) select,
    TRef.unary (.of main_call10_v4 : TRef sig ⟨S100, .i32⟩) (.of main_call10_v5 : TRef sig ⟨S100x1, .i32⟩) (broadcastInDim S100x1 ![0] bcast_S100_S100x1_0),
    TRef.nullary (.of main_call10_c_1 : TRef sig ⟨S1, .i32⟩) (constantI S1 32 9999#32),
    TRef.nullary (.of main_call10_c_2 : TRef sig ⟨S_, .i32⟩) (constantI S_ 32 0#32),
    TRef.unary (.of main_call10_c_2 : TRef sig ⟨S_, .i32⟩) (.of main_call10_v6 : TRef sig ⟨S100x1, .i32⟩) (broadcastInDim S100x1 ![] bcast_S_S100x1),
    TRef.binary (.of main_call10_v5 : TRef sig ⟨S100x1, .i32⟩) (.of main_call10_v6 : TRef sig ⟨S100x1, .i32⟩) (.of main_call10_v7 : TRef sig ⟨S100x1, .i1⟩) (cmpi .sge),
    TRef.unary (.of main_call10_c_1 : TRef sig ⟨S1, .i32⟩) (.of main_call10_v8 : TRef sig ⟨S1x1, .i32⟩) (broadcastInDim S1x1 ![1] bcast_S1_S1x1_1),
    TRef.unary (.of main_call10_v8 : TRef sig ⟨S1x1, .i32⟩) (.of main_call10_v9 : TRef sig ⟨S100x1, .i32⟩) (broadcastInDim S100x1 ![0, 1] bcast_S1x1_S100x1_0_1),
    TRef.binary (.of main_call10_v5 : TRef sig ⟨S100x1, .i32⟩) (.of main_call10_v9 : TRef sig ⟨S100x1, .i32⟩) (.of main_call10_v10 : TRef sig ⟨S100x1, .i1⟩) (cmpi .sle),
    TRef.binary (.of main_call10_v7 : TRef sig ⟨S100x1, .i1⟩) (.of main_call10_v10 : TRef sig ⟨S100x1, .i1⟩) (.of main_call10_v11 : TRef sig ⟨S100x1, .i1⟩) andi,
    TRef.nullary (.of main_call10_c_3 : TRef sig ⟨S_, .i1⟩) (constantI S_ 1 1#1),
    TRef.binary (.of main_call10_v11 : TRef sig ⟨S100x1, .i1⟩) (.of main_call10_c_3 : TRef sig ⟨S_, .i1⟩) (.of main_call10_v12 : TRef sig ⟨S100, .i1⟩) (fun x v => Host.reduce IntOp.andi x v reducesTo_S100x1_S100_d1 h_S_),
    TRef.binary (.of main_v30 : TRef sig ⟨S10000x128, .f32⟩) (.of main_call10_v5 : TRef sig ⟨S100x1, .i32⟩) (.of main_call10_v13 : TRef sig ⟨S100x128, .f32⟩) (fun x i => Host.gather gather_S10000x128_S100x1_S100x128_1_0_n_n_0_1_1128 x i),
    TRef.unary (.of main_call10_v12 : TRef sig ⟨S100, .i1⟩) (.of main_call10_v14 : TRef sig ⟨S100x128, .i1⟩) (broadcastInDim S100x128 ![0] bcast_S100_S100x128_0),
    TRef.nullary (.of main_call10_cst : TRef sig ⟨S_, .f32⟩) (constant S_ .f32 0x7FC00000#32),
    TRef.unary (.of main_call10_cst : TRef sig ⟨S_, .f32⟩) (.of main_call10_v15 : TRef sig ⟨S100x128, .f32⟩) (broadcastInDim S100x128 ![] bcast_S_S100x128),
    TRef.ternary (.of main_call10_v14 : TRef sig ⟨S100x128, .i1⟩) (.of main_call10_v13 : TRef sig ⟨S100x128, .f32⟩) (.of main_call10_v15 : TRef sig ⟨S100x128, .f32⟩) (.of main_v52 : TRef sig ⟨S100x128, .f32⟩) select ]

/-- The reference's first 142 operations. -/
def headOps : List (HloOp τ sig (Elt F)) := ops.take 142

/-- The whole line is its first 142 operations, then these 29. -/
theorem ops_split : (ops : List (HloOp τ sig (Elt F))) = headOps ++ tailOps := rfl

/-- So the fold over the whole line is the fold of the 29 over the fold of the 142. -/
theorem after_split (M : Valuation τ sig (Elt F)) : after ops M = after tailOps (after headOps M) := by
  rw [ops_split, after_app]

/-- The buffer each of the 29 writes, in order. -/
abbrev tail_W : List (Ref sig .tc) :=
  [ main_call9_call0_c, main_call9_call0_v0, main_v49, main_c_14, main_v50, main_v51, main_call10_c, main_call10_v0,
    main_call10_v1, main_call10_c_0, main_call10_v2, main_call10_v3, main_call10_v4, main_call10_v5, main_call10_c_1, main_call10_c_2,
    main_call10_v6, main_call10_v7, main_call10_v8, main_call10_v9, main_call10_v10, main_call10_v11, main_call10_c_3, main_call10_v12,
    main_call10_v13, main_call10_v14, main_call10_cst, main_call10_v15, main_v52 ]

theorem tail_writes : (tailOps : List (HloOp τ sig (Elt F))).Forall fun op => op.writes ⊆ (tail_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer none of the 29 writes passes through them. -/
theorem tail_keeps (X : Valuation τ sig (Elt F)) {r : Ref sig .tc} (h : r ∉ tail_W) :
    after tailOps X (Proc.devRef .tc r) = X (Proc.devRef .tc r) :=
  after_of_writes_sub tailOps X tail_writes h

set_option maxRecDepth 16384 in
set_option maxHeartbeats 4000000 in
/-- What the 29 leave in the result buffer: every operation's result is its function of its operands' contents,
    and composed they are the chain from the node counts and the perceptron's output. -/
theorem tail_nodes (X : Valuation τ sig (Elt Ideal)) :
    after tailOps X (Proc.devRef .tc main_v52)
      = Cert.Tail.nodeOf (X (Proc.devRef .tc main_arg4)) (X (Proc.devRef .tc main_v30)) := by
  after_results_simp
  simp only [TRef.ofBuf, TRef.toBuf, cast_eq]
  rfl

/-- The reference's node output is the shared chain of the node counts as launched and the perceptron's output
    as the reference leaves it. -/
theorem ref_nodes (M : Valuation τ sig (Elt Ideal)) :
    after ops M (Proc.devRef .tc main_v52)
      = Cert.Tail.nodeOf (M (Proc.devRef .tc main_arg4)) (after ops M (Proc.devRef .tc main_v30)) := by
  have h30 : after ops M (Proc.devRef .tc main_v30) = after headOps M (Proc.devRef .tc main_v30) := by
    rw [after_split]; exact tail_keeps _ (by decide)
  have h4 : after headOps M (Proc.devRef .tc main_arg4) = M (Proc.devRef .tc main_arg4) := by
    rw [← tail_keeps (after headOps M) (r := main_arg4) (by decide), ← after_split]; exact after_arg4 M
  rw [h30, ← h4, after_split]
  exact tail_nodes _

end Cert.TailRef

end
-- ==== Proof.TailRefLoss.lean ====
/-
  The reference's loss is the shared last stretch's.

  The loss is computed by operations spread over the reference's line. From the per-graph edge counts the first
  52 operations make every edge's graph number; the next five sum the edge weights per graph; 62 operations
  then compute the perceptron and the edge outputs, of which the loss reads the last buffer only; 23 more sum
  the edge outputs per graph, divide by the weight sums where these are not zero and average. The line is cut
  at these places. Each piece leaves in the buffer it ends in a function of what it read, each piece passes
  through the buffers it does not write, and composed the functions are the chain `lossOf` of the edge counts
  and the edge weights as launched and the edge outputs as the reference leaves them.
-/
import proofs.«426342_j11098195493609_3_alg».proof.Proof.TailRef
import proofs.«426342_j11098195493609_3_alg».proof.Proof.TailDefs

noncomputable section

namespace Cert.TailRef

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Operations 1 … 30: the numbers 0 … 99, and from the per-graph edge counts the running count of graphs begun, less one, at every edge. -/
abbrev edgeIdx : List (HloOp τ sig (Elt F)) :=
  [ nullary main_v0 (iotaInDim S100 32 0),
    TRef.unary (.of main_arg5 : TRef sig ⟨S100, .i32⟩) (.of main_call0_v0 : TRef sig ⟨S1, .i32⟩) (extractStridedSlice S1 ![99] · slices_S100_S1_99),
    TRef.unary (.of main_arg5 : TRef sig ⟨S100, .i32⟩) (.of main_call0_v1 : TRef sig ⟨S99, .i32⟩) (extractStridedSlice S99 ![0] · slices_S100_S99_0),
    TRef.binary (.of main_call0_v0 : TRef sig ⟨S1, .i32⟩) (.of main_call0_v1 : TRef sig ⟨S99, .i32⟩) (.of main_v1 : TRef sig ⟨S100, .i32⟩) (fun a b => concatenate S100 0 [⟨S1, a⟩, ⟨S99, b⟩] concatenates_S1_S99_S100_d0),
    nullary main_c (constantI S_ 32 0#32),
    unary main_c main_v2 (broadcastInDim S1 ![] bcast_S_S1 : (⟨S_, .i32⟩ : BufTy).Contents (Elt F) → (⟨S1, .i32⟩ : BufTy).Contents (Elt F)),
    nullary main_c_0 (constantI S_ 32 0#32),
    ternary main_v1 main_v2 main_c_0 main_v3 ((fun x i u => Host.scatter scatter_S100_S1_S__n_0_0_0 (fun _ b => b) x i u) : (⟨S100, .i32⟩ : BufTy).Contents (Elt F) → (⟨S1, .i32⟩ : BufTy).Contents (Elt F) → (⟨S_, .i32⟩ : BufTy).Contents (Elt F) → (⟨S100, .i32⟩ : BufTy).Contents (Elt F)),
    TRef.nullary (.of main_call1_call0_c : TRef sig ⟨S_, .i32⟩) (constantI S_ 32 0#32),
    TRef.unary (.of main_call1_call0_c : TRef sig ⟨S_, .i32⟩) (.of main_call1_call0_v0 : TRef sig ⟨S_, .i32⟩) (broadcastInDim S_ ![] bcast_S_S_),
    TRef.binary (.of main_v3 : TRef sig ⟨S100, .i32⟩) (.of main_call1_call0_v0 : TRef sig ⟨S_, .i32⟩) (.of main_v4 : TRef sig ⟨S100, .i32⟩) (fun x v => Host.reduceWindow IntOp.addi ![100] ![1] ![99] ![0] x v reduceWindows_S100_S100_w100s1p99_0 h_S_),
    nullary main_c_1 (constantI S_ 32 0#32),
    unary main_c_1 main_v5 (broadcastInDim S640000 ![] bcast_S_S640000 : (⟨S_, .i32⟩ : BufTy).Contents (Elt F) → (⟨S640000, .i32⟩ : BufTy).Contents (Elt F)),
    nullary main_c_2 (constantI S_ 32 0#32),
    unary main_c_2 main_v6 (broadcastInDim S100 ![] bcast_S_S100 : (⟨S_, .i32⟩ : BufTy).Contents (Elt F) → (⟨S100, .i32⟩ : BufTy).Contents (Elt F)),
    binary main_v4 main_v6 main_v7 (cmpi .slt : (⟨S100, .i32⟩ : BufTy).Contents (Elt F) → (⟨S100, .i32⟩ : BufTy).Contents (Elt F) → (⟨S100, .i1⟩ : BufTy).Contents (Elt F)),
    nullary main_c_3 (constantI S_ 32 640000#32),
    unary main_c_3 main_v8 (broadcastInDim S100 ![] bcast_S_S100 : (⟨S_, .i32⟩ : BufTy).Contents (Elt F) → (⟨S100, .i32⟩ : BufTy).Contents (Elt F)),
    binary main_v4 main_v8 main_v9 (addi : (⟨S100, .i32⟩ : BufTy).Contents (Elt F) → (⟨S100, .i32⟩ : BufTy).Contents (Elt F) → (⟨S100, .i32⟩ : BufTy).Contents (Elt F)),
    ternary main_v7 main_v9 main_v4 main_v10 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    unary main_v10 main_v11 (broadcastInDim S100x1 ![0] bcast_S100_S100x1_0 : (⟨S100, .i32⟩ : BufTy).Contents (Elt F) → (⟨S100x1, .i32⟩ : BufTy).Contents (Elt F)),
    nullary main_c_4 (constantI S_ 32 1#32),
    unary main_c_4 main_v12 (broadcastInDim S100 ![] bcast_S_S100 : (⟨S_, .i32⟩ : BufTy).Contents (Elt F) → (⟨S100, .i32⟩ : BufTy).Contents (Elt F)),
    ternary main_v5 main_v11 main_v12 main_v13 ((fun x i u => Host.scatter scatter_S640000_S100x1_S100_n_0_0_1 IntOp.addi x i u) : (⟨S640000, .i32⟩ : BufTy).Contents (Elt F) → (⟨S100x1, .i32⟩ : BufTy).Contents (Elt F) → (⟨S100, .i32⟩ : BufTy).Contents (Elt F) → (⟨S640000, .i32⟩ : BufTy).Contents (Elt F)),
    TRef.nullary (.of main_call2_call0_c : TRef sig ⟨S_, .i32⟩) (constantI S_ 32 0#32),
    TRef.unary (.of main_call2_call0_c : TRef sig ⟨S_, .i32⟩) (.of main_call2_call0_v0 : TRef sig ⟨S_, .i32⟩) (broadcastInDim S_ ![] bcast_S_S_),
    TRef.binary (.of main_v13 : TRef sig ⟨S640000, .i32⟩) (.of main_call2_call0_v0 : TRef sig ⟨S_, .i32⟩) (.of main_v14 : TRef sig ⟨S640000, .i32⟩) (fun x v => Host.reduceWindow IntOp.addi ![640000] ![1] ![639999] ![0] x v reduceWindows_S640000_S640000_w640000s1p639999_0 h_S_),
    nullary main_c_5 (constantI S_ 32 1#32),
    unary main_c_5 main_v15 (broadcastInDim S640000 ![] bcast_S_S640000 : (⟨S_, .i32⟩ : BufTy).Contents (Elt F) → (⟨S640000, .i32⟩ : BufTy).Contents (Elt F)),
    binary main_v14 main_v15 main_v16 (subi : (⟨S640000, .i32⟩ : BufTy).Contents (Elt F) → (⟨S640000, .i32⟩ : BufTy).Contents (Elt F) → (⟨S640000, .i32⟩ : BufTy).Contents (Elt F)) ]

/-- The buffer each of them writes, in order. -/
abbrev edgeIdx_W : List (Ref sig .tc) :=
  [ main_v0, main_call0_v0, main_call0_v1, main_v1, main_c, main_v2, main_c_0, main_v3,
    main_call1_call0_c, main_call1_call0_v0, main_v4, main_c_1, main_v5, main_c_2, main_v6, main_v7,
    main_c_3, main_v8, main_v9, main_v10, main_v11, main_c_4, main_v12, main_v13,
    main_call2_call0_c, main_call2_call0_v0, main_v14, main_c_5, main_v15, main_v16 ]

theorem edgeIdx_writes : (edgeIdx : List (HloOp τ sig (Elt F))).Forall fun op => op.writes ⊆ (edgeIdx_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer none of them writes passes through. -/
theorem edgeIdx_keeps (X : Valuation τ sig (Elt F)) {r : Ref sig .tc} (h : r ∉ edgeIdx_W) :
    after edgeIdx X (Proc.devRef .tc r) = X (Proc.devRef .tc r) :=
  after_of_writes_sub edgeIdx X edgeIdx_writes h

/-- Operations 31 … 52: the table of numbers read at every edge's position. -/
abbrev edgeLook : List (HloOp τ sig (Elt F)) :=
  [ TRef.nullary (.of main_call3_c : TRef sig ⟨S_, .i32⟩) (constantI S_ 32 0#32),
    TRef.unary (.of main_call3_c : TRef sig ⟨S_, .i32⟩) (.of main_call3_v0 : TRef sig ⟨S640000, .i32⟩) (broadcastInDim S640000 ![] bcast_S_S640000),
    TRef.binary (.of main_v16 : TRef sig ⟨S640000, .i32⟩) (.of main_call3_v0 : TRef sig ⟨S640000, .i32⟩) (.of main_call3_v1 : TRef sig ⟨S640000, .i1⟩) (cmpi .slt),
    TRef.nullary (.of main_call3_c_0 : TRef sig ⟨S_, .i32⟩) (constantI S_ 32 100#32),
    TRef.unary (.of main_call3_c_0 : TRef sig ⟨S_, .i32⟩) (.of main_call3_v2 : TRef sig ⟨S640000, .i32⟩) (broadcastInDim S640000 ![] bcast_S_S640000),
    TRef.binary (.of main_v16 : TRef sig ⟨S640000, .i32⟩) (.of main_call3_v2 : TRef sig ⟨S640000, .i32⟩) (.of main_call3_v3 : TRef sig ⟨S640000, .i32⟩) addi,
    TRef.ternary (.of main_call3_v1 : TRef sig ⟨S640000, .i1⟩) (.of main_call3_v3 : TRef sig ⟨S640000, .i32⟩) (.of main_v16 : TRef sig ⟨S640000, .i32⟩) (.of main_call3_v4 : TRef sig ⟨S640000, .i32⟩) select,
    TRef.unary (.of main_call3_v4 : TRef sig ⟨S640000, .i32⟩) (.of main_call3_v5 : TRef sig ⟨S640000x1, .i32⟩) (broadcastInDim S640000x1 ![0] bcast_S640000_S640000x1_0),
    TRef.nullary (.of main_call3_c_1 : TRef sig ⟨S1, .i32⟩) (constantI S1 32 99#32),
    TRef.nullary (.of main_call3_c_2 : TRef sig ⟨S_, .i32⟩) (constantI S_ 32 0#32),
    TRef.unary (.of main_call3_c_2 : TRef sig ⟨S_, .i32⟩) (.of main_call3_v6 : TRef sig ⟨S640000x1, .i32⟩) (broadcastInDim S640000x1 ![] bcast_S_S640000x1),
    TRef.binary (.of main_call3_v5 : TRef sig ⟨S640000x1, .i32⟩) (.of main_call3_v6 : TRef sig ⟨S640000x1, .i32⟩) (.of main_call3_v7 : TRef sig ⟨S640000x1, .i1⟩) (cmpi .sge),
    TRef.unary (.of main_call3_c_1 : TRef sig ⟨S1, .i32⟩) (.of main_call3_v8 : TRef sig ⟨S1x1, .i32⟩) (broadcastInDim S1x1 ![1] bcast_S1_S1x1_1),
    TRef.unary (.of main_call3_v8 : TRef sig ⟨S1x1, .i32⟩) (.of main_call3_v9 : TRef sig ⟨S640000x1, .i32⟩) (broadcastInDim S640000x1 ![0, 1] bcast_S1x1_S640000x1_0_1),
    TRef.binary (.of main_call3_v5 : TRef sig ⟨S640000x1, .i32⟩) (.of main_call3_v9 : TRef sig ⟨S640000x1, .i32⟩) (.of main_call3_v10 : TRef sig ⟨S640000x1, .i1⟩) (cmpi .sle),
    TRef.binary (.of main_call3_v7 : TRef sig ⟨S640000x1, .i1⟩) (.of main_call3_v10 : TRef sig ⟨S640000x1, .i1⟩) (.of main_call3_v11 : TRef sig ⟨S640000x1, .i1⟩) andi,
    TRef.nullary (.of main_call3_c_3 : TRef sig ⟨S_, .i1⟩) (constantI S_ 1 1#1),
    TRef.binary (.of main_call3_v11 : TRef sig ⟨S640000x1, .i1⟩) (.of main_call3_c_3 : TRef sig ⟨S_, .i1⟩) (.of main_call3_v12 : TRef sig ⟨S640000, .i1⟩) (fun x v => Host.reduce IntOp.andi x v reducesTo_S640000x1_S640000_d1 h_S_),
    TRef.binary (.of main_v0 : TRef sig ⟨S100, .i32⟩) (.of main_call3_v5 : TRef sig ⟨S640000x1, .i32⟩) (.of main_call3_v13 : TRef sig ⟨S640000, .i32⟩) (fun x i => Host.gather gather_S100_S640000x1_S640000_n_0_n_n_0_1_1 x i),
    TRef.nullary (.of main_call3_c_4 : TRef sig ⟨S_, .i32⟩) (constantI S_ 32 2147483648#32),
    TRef.unary (.of main_call3_c_4 : TRef sig ⟨S_, .i32⟩) (.of main_call3_v14 : TRef sig ⟨S640000, .i32⟩) (broadcastInDim S640000 ![] bcast_S_S640000),
    TRef.ternary (.of main_call3_v12 : TRef sig ⟨S640000, .i1⟩) (.of main_call3_v13 : TRef sig ⟨S640000, .i32⟩) (.of main_call3_v14 : TRef sig ⟨S640000, .i32⟩) (.of main_v17 : TRef sig ⟨S640000, .i32⟩) select ]

/-- The buffer each of them writes, in order. -/
abbrev edgeLook_W : List (Ref sig .tc) :=
  [ main_call3_c, main_call3_v0, main_call3_v1, main_call3_c_0, main_call3_v2, main_call3_v3, main_call3_v4, main_call3_v5,
    main_call3_c_1, main_call3_c_2, main_call3_v6, main_call3_v7, main_call3_v8, main_call3_v9, main_call3_v10, main_call3_v11,
    main_call3_c_3, main_call3_v12, main_call3_v13, main_call3_c_4, main_call3_v14, main_v17 ]

theorem edgeLook_writes : (edgeLook : List (HloOp τ sig (Elt F))).Forall fun op => op.writes ⊆ (edgeLook_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer none of them writes passes through. -/
theorem edgeLook_keeps (X : Valuation τ sig (Elt F)) {r : Ref sig .tc} (h : r ∉ edgeLook_W) :
    after edgeLook X (Proc.devRef .tc r) = X (Proc.devRef .tc r) :=
  after_of_writes_sub edgeLook X edgeLook_writes h

/-- Operations 53 … 57: the edge weights flattened and summed per graph. -/
abbrev weightSum : List (HloOp τ sig (Elt F)) :=
  [ reshape main_arg1 main_v18 rfl shapeCasts_S640000x1_S640000,
    nullary main_cst (constant S_ .f32 0x00000000#32),
    unary main_cst main_v19 (broadcastInDim S100 ![] bcast_S_S100 : (⟨S_, .f32⟩ : BufTy).Contents (Elt F) → (⟨S100, .f32⟩ : BufTy).Contents (Elt F)),
    unary main_v17 main_v20 (broadcastInDim S640000x1 ![0] bcast_S640000_S640000x1_0 : (⟨S640000, .i32⟩ : BufTy).Contents (Elt F) → (⟨S640000x1, .i32⟩ : BufTy).Contents (Elt F)),
    ternary main_v19 main_v20 main_v18 main_v21 ((fun x i u => Host.scatterAdd scatter_S100_S640000x1_S640000_n_0_0_1 x i u) : (⟨S100, .f32⟩ : BufTy).Contents (Elt F) → (⟨S640000x1, .i32⟩ : BufTy).Contents (Elt F) → (⟨S640000, .f32⟩ : BufTy).Contents (Elt F) → (⟨S100, .f32⟩ : BufTy).Contents (Elt F)) ]

/-- The buffer each of them writes, in order. -/
abbrev weightSum_W : List (Ref sig .tc) :=
  [ main_v18, main_cst, main_v19, main_v20, main_v21 ]

theorem weightSum_writes : (weightSum : List (HloOp τ sig (Elt F))).Forall fun op => op.writes ⊆ (weightSum_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer none of them writes passes through. -/
theorem weightSum_keeps (X : Valuation τ sig (Elt F)) {r : Ref sig .tc} (h : r ∉ weightSum_W) :
    after weightSum X (Proc.devRef .tc r) = X (Proc.devRef .tc r) :=
  after_of_writes_sub weightSum X weightSum_writes h

/-- Operations 58 … 119: the perceptron, the two table reads and the edge outputs. The loss reads only their last buffer. -/
abbrev middle : List (HloOp τ sig (Elt F)) :=
  [ binary main_arg0 main_arg6 main_v22 ((fun l r => Host.dotGeneral dot_S10000x128_S128x512_S10000x512_1_0_0_1_n_n none l r) : (⟨S10000x128, .f32⟩ : BufTy).Contents (Elt F) → (⟨S128x512, .f32⟩ : BufTy).Contents (Elt F) → (⟨S10000x512, .f32⟩ : BufTy).Contents (Elt F)),
    unary main_arg7 main_v23 (broadcastInDim S1x512 ![1] bcast_S512_S1x512_1 : (⟨S512, .f32⟩ : BufTy).Contents (Elt F) → (⟨S1x512, .f32⟩ : BufTy).Contents (Elt F)),
    unary main_v23 main_v24 (broadcastInDim S10000x512 ![0, 1] bcast_S1x512_S10000x512_0_1 : (⟨S1x512, .f32⟩ : BufTy).Contents (Elt F) → (⟨S10000x512, .f32⟩ : BufTy).Contents (Elt F)),
    binary main_v22 main_v24 main_v25 (addf : (⟨S10000x512, .f32⟩ : BufTy).Contents (Elt F) → (⟨S10000x512, .f32⟩ : BufTy).Contents (Elt F) → (⟨S10000x512, .f32⟩ : BufTy).Contents (Elt F)),
    TRef.nullary (.of main_call4_cst : TRef sig ⟨S_, .f32⟩) (constant S_ .f32 0x00000000#32),
    TRef.unary (.of main_call4_cst : TRef sig ⟨S_, .f32⟩) (.of main_call4_v0 : TRef sig ⟨S10000x512, .f32⟩) (broadcastInDim S10000x512 ![] bcast_S_S10000x512),
    TRef.binary (.of main_v25 : TRef sig ⟨S10000x512, .f32⟩) (.of main_call4_v0 : TRef sig ⟨S10000x512, .f32⟩) (.of main_v26 : TRef sig ⟨S10000x512, .f32⟩) maximumf,
    binary main_v26 main_arg8 main_v27 ((fun l r => Host.dotGeneral dot_S10000x512_S512x128_S10000x128_1_0_0_1_n_n none l r) : (⟨S10000x512, .f32⟩ : BufTy).Contents (Elt F) → (⟨S512x128, .f32⟩ : BufTy).Contents (Elt F) → (⟨S10000x128, .f32⟩ : BufTy).Contents (Elt F)),
    unary main_arg9 main_v28 (broadcastInDim S1x128 ![1] bcast_S128_S1x128_1 : (⟨S128, .f32⟩ : BufTy).Contents (Elt F) → (⟨S1x128, .f32⟩ : BufTy).Contents (Elt F)),
    unary main_v28 main_v29 (broadcastInDim S10000x128 ![0, 1] bcast_S1x128_S10000x128_0_1 : (⟨S1x128, .f32⟩ : BufTy).Contents (Elt F) → (⟨S10000x128, .f32⟩ : BufTy).Contents (Elt F)),
    binary main_v27 main_v29 main_v30 (addf : (⟨S10000x128, .f32⟩ : BufTy).Contents (Elt F) → (⟨S10000x128, .f32⟩ : BufTy).Contents (Elt F) → (⟨S10000x128, .f32⟩ : BufTy).Contents (Elt F)),
    TRef.nullary (.of main_call5_c : TRef sig ⟨S_, .i32⟩) (constantI S_ 32 0#32),
    TRef.unary (.of main_call5_c : TRef sig ⟨S_, .i32⟩) (.of main_call5_v0 : TRef sig ⟨S640000, .i32⟩) (broadcastInDim S640000 ![] bcast_S_S640000),
    TRef.binary (.of main_arg2 : TRef sig ⟨S640000, .i32⟩) (.of main_call5_v0 : TRef sig ⟨S640000, .i32⟩) (.of main_call5_v1 : TRef sig ⟨S640000, .i1⟩) (cmpi .slt),
    TRef.nullary (.of main_call5_c_0 : TRef sig ⟨S_, .i32⟩) (constantI S_ 32 10000#32),
    TRef.unary (.of main_call5_c_0 : TRef sig ⟨S_, .i32⟩) (.of main_call5_v2 : TRef sig ⟨S640000, .i32⟩) (broadcastInDim S640000 ![] bcast_S_S640000),
    TRef.binary (.of main_arg2 : TRef sig ⟨S640000, .i32⟩) (.of main_call5_v2 : TRef sig ⟨S640000, .i32⟩) (.of main_call5_v3 : TRef sig ⟨S640000, .i32⟩) addi,
    TRef.ternary (.of main_call5_v1 : TRef sig ⟨S640000, .i1⟩) (.of main_call5_v3 : TRef sig ⟨S640000, .i32⟩) (.of main_arg2 : TRef sig ⟨S640000, .i32⟩) (.of main_call5_v4 : TRef sig ⟨S640000, .i32⟩) select,
    TRef.unary (.of main_call5_v4 : TRef sig ⟨S640000, .i32⟩) (.of main_call5_v5 : TRef sig ⟨S640000x1, .i32⟩) (broadcastInDim S640000x1 ![0] bcast_S640000_S640000x1_0),
    TRef.nullary (.of main_call5_c_1 : TRef sig ⟨S1, .i32⟩) (constantI S1 32 9999#32),
    TRef.nullary (.of main_call5_c_2 : TRef sig ⟨S_, .i32⟩) (constantI S_ 32 0#32),
    TRef.unary (.of main_call5_c_2 : TRef sig ⟨S_, .i32⟩) (.of main_call5_v6 : TRef sig ⟨S640000x1, .i32⟩) (broadcastInDim S640000x1 ![] bcast_S_S640000x1),
    TRef.binary (.of main_call5_v5 : TRef sig ⟨S640000x1, .i32⟩) (.of main_call5_v6 : TRef sig ⟨S640000x1, .i32⟩) (.of main_call5_v7 : TRef sig ⟨S640000x1, .i1⟩) (cmpi .sge),
    TRef.unary (.of main_call5_c_1 : TRef sig ⟨S1, .i32⟩) (.of main_call5_v8 : TRef sig ⟨S1x1, .i32⟩) (broadcastInDim S1x1 ![1] bcast_S1_S1x1_1),
    TRef.unary (.of main_call5_v8 : TRef sig ⟨S1x1, .i32⟩) (.of main_call5_v9 : TRef sig ⟨S640000x1, .i32⟩) (broadcastInDim S640000x1 ![0, 1] bcast_S1x1_S640000x1_0_1),
    TRef.binary (.of main_call5_v5 : TRef sig ⟨S640000x1, .i32⟩) (.of main_call5_v9 : TRef sig ⟨S640000x1, .i32⟩) (.of main_call5_v10 : TRef sig ⟨S640000x1, .i1⟩) (cmpi .sle),
    TRef.binary (.of main_call5_v7 : TRef sig ⟨S640000x1, .i1⟩) (.of main_call5_v10 : TRef sig ⟨S640000x1, .i1⟩) (.of main_call5_v11 : TRef sig ⟨S640000x1, .i1⟩) andi,
    TRef.nullary (.of main_call5_c_3 : TRef sig ⟨S_, .i1⟩) (constantI S_ 1 1#1),
    TRef.binary (.of main_call5_v11 : TRef sig ⟨S640000x1, .i1⟩) (.of main_call5_c_3 : TRef sig ⟨S_, .i1⟩) (.of main_call5_v12 : TRef sig ⟨S640000, .i1⟩) (fun x v => Host.reduce IntOp.andi x v reducesTo_S640000x1_S640000_d1 h_S_),
    TRef.binary (.of main_v30 : TRef sig ⟨S10000x128, .f32⟩) (.of main_call5_v5 : TRef sig ⟨S640000x1, .i32⟩) (.of main_call5_v13 : TRef sig ⟨S640000x128, .f32⟩) (fun x i => Host.gather gather_S10000x128_S640000x1_S640000x128_1_0_n_n_0_1_1128 x i),
    TRef.unary (.of main_call5_v12 : TRef sig ⟨S640000, .i1⟩) (.of main_call5_v14 : TRef sig ⟨S640000x128, .i1⟩) (broadcastInDim S640000x128 ![0] bcast_S640000_S640000x128_0),
    TRef.nullary (.of main_call5_cst : TRef sig ⟨S_, .f32⟩) (constant S_ .f32 0x7FC00000#32),
    TRef.unary (.of main_call5_cst : TRef sig ⟨S_, .f32⟩) (.of main_call5_v15 : TRef sig ⟨S640000x128, .f32⟩) (broadcastInDim S640000x128 ![] bcast_S_S640000x128),
    TRef.ternary (.of main_call5_v14 : TRef sig ⟨S640000x128, .i1⟩) (.of main_call5_v13 : TRef sig ⟨S640000x128, .f32⟩) (.of main_call5_v15 : TRef sig ⟨S640000x128, .f32⟩) (.of main_v31 : TRef sig ⟨S640000x128, .f32⟩) select,
    TRef.nullary (.of main_call6_c : TRef sig ⟨S_, .i32⟩) (constantI S_ 32 0#32),
    TRef.unary (.of main_call6_c : TRef sig ⟨S_, .i32⟩) (.of main_call6_v0 : TRef sig ⟨S640000, .i32⟩) (broadcastInDim S640000 ![] bcast_S_S640000),
    TRef.binary (.of main_arg3 : TRef sig ⟨S640000, .i32⟩) (.of main_call6_v0 : TRef sig ⟨S640000, .i32⟩) (.of main_call6_v1 : TRef sig ⟨S640000, .i1⟩) (cmpi .slt),
    TRef.nullary (.of main_call6_c_0 : TRef sig ⟨S_, .i32⟩) (constantI S_ 32 10000#32),
    TRef.unary (.of main_call6_c_0 : TRef sig ⟨S_, .i32⟩) (.of main_call6_v2 : TRef sig ⟨S640000, .i32⟩) (broadcastInDim S640000 ![] bcast_S_S640000),
    TRef.binary (.of main_arg3 : TRef sig ⟨S640000, .i32⟩) (.of main_call6_v2 : TRef sig ⟨S640000, .i32⟩) (.of main_call6_v3 : TRef sig ⟨S640000, .i32⟩) addi,
    TRef.ternary (.of main_call6_v1 : TRef sig ⟨S640000, .i1⟩) (.of main_call6_v3 : TRef sig ⟨S640000, .i32⟩) (.of main_arg3 : TRef sig ⟨S640000, .i32⟩) (.of main_call6_v4 : TRef sig ⟨S640000, .i32⟩) select,
    TRef.unary (.of main_call6_v4 : TRef sig ⟨S640000, .i32⟩) (.of main_call6_v5 : TRef sig ⟨S640000x1, .i32⟩) (broadcastInDim S640000x1 ![0] bcast_S640000_S640000x1_0),
    TRef.nullary (.of main_call6_c_1 : TRef sig ⟨S1, .i32⟩) (constantI S1 32 9999#32),
    TRef.nullary (.of main_call6_c_2 : TRef sig ⟨S_, .i32⟩) (constantI S_ 32 0#32),
    TRef.unary (.of main_call6_c_2 : TRef sig ⟨S_, .i32⟩) (.of main_call6_v6 : TRef sig ⟨S640000x1, .i32⟩) (broadcastInDim S640000x1 ![] bcast_S_S640000x1),
    TRef.binary (.of main_call6_v5 : TRef sig ⟨S640000x1, .i32⟩) (.of main_call6_v6 : TRef sig ⟨S640000x1, .i32⟩) (.of main_call6_v7 : TRef sig ⟨S640000x1, .i1⟩) (cmpi .sge),
    TRef.unary (.of main_call6_c_1 : TRef sig ⟨S1, .i32⟩) (.of main_call6_v8 : TRef sig ⟨S1x1, .i32⟩) (broadcastInDim S1x1 ![1] bcast_S1_S1x1_1),
    TRef.unary (.of main_call6_v8 : TRef sig ⟨S1x1, .i32⟩) (.of main_call6_v9 : TRef sig ⟨S640000x1, .i32⟩) (broadcastInDim S640000x1 ![0, 1] bcast_S1x1_S640000x1_0_1),
    TRef.binary (.of main_call6_v5 : TRef sig ⟨S640000x1, .i32⟩) (.of main_call6_v9 : TRef sig ⟨S640000x1, .i32⟩) (.of main_call6_v10 : TRef sig ⟨S640000x1, .i1⟩) (cmpi .sle),
    TRef.binary (.of main_call6_v7 : TRef sig ⟨S640000x1, .i1⟩) (.of main_call6_v10 : TRef sig ⟨S640000x1, .i1⟩) (.of main_call6_v11 : TRef sig ⟨S640000x1, .i1⟩) andi,
    TRef.nullary (.of main_call6_c_3 : TRef sig ⟨S_, .i1⟩) (constantI S_ 1 1#1),
    TRef.binary (.of main_call6_v11 : TRef sig ⟨S640000x1, .i1⟩) (.of main_call6_c_3 : TRef sig ⟨S_, .i1⟩) (.of main_call6_v12 : TRef sig ⟨S640000, .i1⟩) (fun x v => Host.reduce IntOp.andi x v reducesTo_S640000x1_S640000_d1 h_S_),
    TRef.binary (.of main_v30 : TRef sig ⟨S10000x128, .f32⟩) (.of main_call6_v5 : TRef sig ⟨S640000x1, .i32⟩) (.of main_call6_v13 : TRef sig ⟨S640000x128, .f32⟩) (fun x i => Host.gather gather_S10000x128_S640000x1_S640000x128_1_0_n_n_0_1_1128 x i),
    TRef.unary (.of main_call6_v12 : TRef sig ⟨S640000, .i1⟩) (.of main_call6_v14 : TRef sig ⟨S640000x128, .i1⟩) (broadcastInDim S640000x128 ![0] bcast_S640000_S640000x128_0),
    TRef.nullary (.of main_call6_cst : TRef sig ⟨S_, .f32⟩) (constant S_ .f32 0x7FC00000#32),
    TRef.unary (.of main_call6_cst : TRef sig ⟨S_, .f32⟩) (.of main_call6_v15 : TRef sig ⟨S640000x128, .f32⟩) (broadcastInDim S640000x128 ![] bcast_S_S640000x128),
    TRef.ternary (.of main_call6_v14 : TRef sig ⟨S640000x128, .i1⟩) (.of main_call6_v13 : TRef sig ⟨S640000x128, .f32⟩) (.of main_call6_v15 : TRef sig ⟨S640000x128, .f32⟩) (.of main_v32 : TRef sig ⟨S640000x128, .f32⟩) select,
    binary main_v31 main_v32 main_v33 (subf : (⟨S640000x128, .f32⟩ : BufTy).Contents (Elt F) → (⟨S640000x128, .f32⟩ : BufTy).Contents (Elt F) → (⟨S640000x128, .f32⟩ : BufTy).Contents (Elt F)),
    binary main_v33 main_v33 main_v34 (mulf : (⟨S640000x128, .f32⟩ : BufTy).Contents (Elt F) → (⟨S640000x128, .f32⟩ : BufTy).Contents (Elt F) → (⟨S640000x128, .f32⟩ : BufTy).Contents (Elt F)),
    nullary main_cst_6 (constant S_ .f32 0x00000000#32),
    binary main_v34 main_cst_6 main_v35 ((fun x v => Host.reduceAdd x v reducesTo_S640000x128_S640000_d1 h_S_) : (⟨S640000x128, .f32⟩ : BufTy).Contents (Elt F) → (⟨S_, .f32⟩ : BufTy).Contents (Elt F) → (⟨S640000, .f32⟩ : BufTy).Contents (Elt F)),
    binary main_v18 main_v35 main_v36 (mulf : (⟨S640000, .f32⟩ : BufTy).Contents (Elt F) → (⟨S640000, .f32⟩ : BufTy).Contents (Elt F) → (⟨S640000, .f32⟩ : BufTy).Contents (Elt F)) ]

/-- The buffer each of them writes, in order. -/
abbrev middle_W : List (Ref sig .tc) :=
  [ main_v22, main_v23, main_v24, main_v25, main_call4_cst, main_call4_v0, main_v26, main_v27,
    main_v28, main_v29, main_v30, main_call5_c, main_call5_v0, main_call5_v1, main_call5_c_0, main_call5_v2,
    main_call5_v3, main_call5_v4, main_call5_v5, main_call5_c_1, main_call5_c_2, main_call5_v6, main_call5_v7, main_call5_v8,
    main_call5_v9, main_call5_v10, main_call5_v11, main_call5_c_3, main_call5_v12, main_call5_v13, main_call5_v14, main_call5_cst,
    main_call5_v15, main_v31, main_call6_c, main_call6_v0, main_call6_v1, main_call6_c_0, main_call6_v2, main_call6_v3,
    main_call6_v4, main_call6_v5, main_call6_c_1, main_call6_c_2, main_call6_v6, main_call6_v7, main_call6_v8, main_call6_v9,
    main_call6_v10, main_call6_v11, main_call6_c_3, main_call6_v12, main_call6_v13, main_call6_v14, main_call6_cst, main_call6_v15,
    main_v32, main_v33, main_v34, main_cst_6, main_v35, main_v36 ]

theorem middle_writes : (middle : List (HloOp τ sig (Elt F))).Forall fun op => op.writes ⊆ (middle_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer none of them writes passes through. -/
theorem middle_keeps (X : Valuation τ sig (Elt F)) {r : Ref sig .tc} (h : r ∉ middle_W) :
    after middle X (Proc.devRef .tc r) = X (Proc.devRef .tc r) :=
  after_of_writes_sub middle X middle_writes h

/-- Operations 120 … 142: the edge outputs summed per graph, the guarded quotient, the mean. -/
abbrev lossEnd : List (HloOp τ sig (Elt F)) :=
  [ nullary main_cst_7 (constant S_ .f32 0x00000000#32),
    unary main_cst_7 main_v37 (broadcastInDim S100 ![] bcast_S_S100 : (⟨S_, .f32⟩ : BufTy).Contents (Elt F) → (⟨S100, .f32⟩ : BufTy).Contents (Elt F)),
    unary main_v17 main_v38 (broadcastInDim S640000x1 ![0] bcast_S640000_S640000x1_0 : (⟨S640000, .i32⟩ : BufTy).Contents (Elt F) → (⟨S640000x1, .i32⟩ : BufTy).Contents (Elt F)),
    ternary main_v37 main_v38 main_v36 main_v39 ((fun x i u => Host.scatterAdd scatter_S100_S640000x1_S640000_n_0_0_1 x i u) : (⟨S100, .f32⟩ : BufTy).Contents (Elt F) → (⟨S640000x1, .i32⟩ : BufTy).Contents (Elt F) → (⟨S640000, .f32⟩ : BufTy).Contents (Elt F) → (⟨S100, .f32⟩ : BufTy).Contents (Elt F)),
    nullary main_cst_8 (constant S_ .f32 0x00000000#32),
    unary main_cst_8 main_v40 (broadcastInDim S100 ![] bcast_S_S100 : (⟨S_, .f32⟩ : BufTy).Contents (Elt F) → (⟨S100, .f32⟩ : BufTy).Contents (Elt F)),
    binary main_v21 main_v40 main_v41 (cmpf .une : (⟨S100, .f32⟩ : BufTy).Contents (Elt F) → (⟨S100, .f32⟩ : BufTy).Contents (Elt F) → (⟨S100, .i1⟩ : BufTy).Contents (Elt F)),
    nullary main_cst_9 (constant S_ .f32 0x00000000#32),
    unary main_cst_9 main_v42 (broadcastInDim S100 ![] bcast_S_S100 : (⟨S_, .f32⟩ : BufTy).Contents (Elt F) → (⟨S100, .f32⟩ : BufTy).Contents (Elt F)),
    binary main_v21 main_v42 main_v43 (cmpf .une : (⟨S100, .f32⟩ : BufTy).Contents (Elt F) → (⟨S100, .f32⟩ : BufTy).Contents (Elt F) → (⟨S100, .i1⟩ : BufTy).Contents (Elt F)),
    nullary main_cst_10 (constant S_ .f32 0x3F800000#32),
    TRef.unary (.of main_cst_10 : TRef sig ⟨S_, .f32⟩) (.of main_call7_v0 : TRef sig ⟨S_, .f32⟩) id,
    TRef.unary (.of main_call7_v0 : TRef sig ⟨S_, .f32⟩) (.of main_call7_v1 : TRef sig ⟨S100, .f32⟩) (broadcastInDim S100 ![] bcast_S_S100),
    TRef.ternary (.of main_v43 : TRef sig ⟨S100, .i1⟩) (.of main_v21 : TRef sig ⟨S100, .f32⟩) (.of main_call7_v1 : TRef sig ⟨S100, .f32⟩) (.of main_v44 : TRef sig ⟨S100, .f32⟩) select,
    binary main_v39 main_v44 main_v45 (Host.divf : (⟨S100, .f32⟩ : BufTy).Contents (Elt F) → (⟨S100, .f32⟩ : BufTy).Contents (Elt F) → (⟨S100, .f32⟩ : BufTy).Contents (Elt F)),
    nullary main_cst_11 (constant S_ .f32 0x00000000#32),
    TRef.unary (.of main_cst_11 : TRef sig ⟨S_, .f32⟩) (.of main_call8_v0 : TRef sig ⟨S_, .f32⟩) id,
    TRef.unary (.of main_call8_v0 : TRef sig ⟨S_, .f32⟩) (.of main_call8_v1 : TRef sig ⟨S100, .f32⟩) (broadcastInDim S100 ![] bcast_S_S100),
    TRef.ternary (.of main_v41 : TRef sig ⟨S100, .i1⟩) (.of main_v45 : TRef sig ⟨S100, .f32⟩) (.of main_call8_v1 : TRef sig ⟨S100, .f32⟩) (.of main_v46 : TRef sig ⟨S100, .f32⟩) select,
    nullary main_cst_12 (constant S_ .f32 0x00000000#32),
    binary main_v46 main_cst_12 main_v47 ((fun x v => Host.reduceAdd x v reducesTo_S100_S_d0 h_S_) : (⟨S100, .f32⟩ : BufTy).Contents (Elt F) → (⟨S_, .f32⟩ : BufTy).Contents (Elt F) → (⟨S_, .f32⟩ : BufTy).Contents (Elt F)),
    nullary main_cst_13 (constant S_ .f32 0x42C80000#32),
    binary main_v47 main_cst_13 main_v48 (Host.divf : (⟨S_, .f32⟩ : BufTy).Contents (Elt F) → (⟨S_, .f32⟩ : BufTy).Contents (Elt F) → (⟨S_, .f32⟩ : BufTy).Contents (Elt F)) ]

/-- The buffer each of them writes, in order. -/
abbrev lossEnd_W : List (Ref sig .tc) :=
  [ main_cst_7, main_v37, main_v38, main_v39, main_cst_8, main_v40, main_v41, main_cst_9,
    main_v42, main_v43, main_cst_10, main_call7_v0, main_call7_v1, main_v44, main_v45, main_cst_11,
    main_call8_v0, main_call8_v1, main_v46, main_cst_12, main_v47, main_cst_13, main_v48 ]

theorem lossEnd_writes : (lossEnd : List (HloOp τ sig (Elt F))).Forall fun op => op.writes ⊆ (lossEnd_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer none of them writes passes through. -/
theorem lossEnd_keeps (X : Valuation τ sig (Elt F)) {r : Ref sig .tc} (h : r ∉ lossEnd_W) :
    after lossEnd X (Proc.devRef .tc r) = X (Proc.devRef .tc r) :=
  after_of_writes_sub lossEnd X lossEnd_writes h

/-- The first 142 operations are the five pieces in order. -/
theorem head_eq : (headOps : List (HloOp τ sig (Elt F))) = edgeIdx ++ edgeLook ++ weightSum ++ middle ++ lossEnd := rfl

/-- So their fold is the pieces' folds one over the other. -/
theorem after_head (M : Valuation τ sig (Elt F)) :
    after headOps M = after lossEnd (after middle (after weightSum (after edgeLook (after edgeIdx M)))) := by
  rw [head_eq, after_app, after_app, after_app, after_app]

/-! ## What each piece leaves -/

set_option maxRecDepth 16384 in
set_option maxHeartbeats 8000000 in
/-- The numbers 0 … 99. -/
theorem edgeIdx_ids (X : Valuation τ sig (Elt Ideal)) :
    after edgeIdx X (Proc.devRef .tc main_v0) = Cert.Tail.graphIds := by
  after_results_simp
  try simp only [TRef.ofBuf, TRef.toBuf, cast_eq]
  rfl

set_option maxRecDepth 16384 in
set_option maxHeartbeats 8000000 in
/-- The counts rotated, their first place zeroed, summed along; a one at each graph's first edge, summed along;
    one less. -/
theorem edgeIdx_idx (X : Valuation τ sig (Elt Ideal)) :
    after edgeIdx X (Proc.devRef .tc main_v16)
      = Cert.Tail.lessOneEdges (Cert.Tail.runSumEdges (Cert.Tail.marks (Cert.Tail.runSum100 (Cert.Tail.headZero
          (Cert.Tail.rolled (X (Proc.devRef .tc main_arg5))))))) := by
  after_results_simp
  try simp only [TRef.ofBuf, TRef.toBuf, cast_eq]
  rfl

set_option maxRecDepth 16384 in
set_option maxHeartbeats 8000000 in
/-- The table read at every edge's position. -/
theorem edgeLook_gid (Y : Valuation τ sig (Elt Ideal)) :
    after edgeLook Y (Proc.devRef .tc main_v17) = Cert.Tail.lookEdges (Y (Proc.devRef .tc main_v0)) (Y (Proc.devRef .tc main_v16)) := by
  after_results_simp
  try simp only [TRef.ofBuf, TRef.toBuf, cast_eq]
  rfl

set_option maxRecDepth 16384 in
set_option maxHeartbeats 8000000 in
/-- The flattened weights summed per graph. -/
theorem weightSum_w (Y : Valuation τ sig (Elt Ideal)) :
    after weightSum Y (Proc.devRef .tc main_v21)
      = Cert.Tail.graphSum (Y (Proc.devRef .tc main_v17)) (Cert.Tail.flatWeights (Y (Proc.devRef .tc main_arg1))) := by
  after_results_simp
  try simp only [TRef.ofBuf, TRef.toBuf, cast_eq]
  rfl

set_option maxRecDepth 16384 in
set_option maxHeartbeats 8000000 in
/-- The edge outputs summed per graph, divided by the weight sums where these are not zero, averaged. -/
theorem lossEnd_loss (X : Valuation τ sig (Elt Ideal)) :
    after lossEnd X (Proc.devRef .tc main_v48)
      = Cert.Tail.lossFrom (X (Proc.devRef .tc main_v21)) (Cert.Tail.graphSum (X (Proc.devRef .tc main_v17)) (X (Proc.devRef .tc main_v36))) := by
  after_results_simp
  try simp only [TRef.ofBuf, TRef.toBuf, cast_eq]
  rfl

/-! ## Composed -/

/-- Every edge's graph number after the first 52 operations. -/
theorem gid_at_look (M : Valuation τ sig (Elt Ideal)) :
    after edgeLook (after edgeIdx M) (Proc.devRef .tc main_v17) = Cert.Tail.graphOfEdge (M (Proc.devRef .tc main_arg5)) := by
  rw [edgeLook_gid, edgeIdx_ids, edgeIdx_idx]
  rfl

/-- The per-graph weight sums after the first 57. -/
theorem w_at_sum (M : Valuation τ sig (Elt Ideal)) :
    after weightSum (after edgeLook (after edgeIdx M)) (Proc.devRef .tc main_v21)
      = Cert.Tail.graphSum (Cert.Tail.graphOfEdge (M (Proc.devRef .tc main_arg5))) (Cert.Tail.flatWeights (M (Proc.devRef .tc main_arg1))) := by
  rw [weightSum_w, gid_at_look, edgeLook_keeps (r := main_arg1) _ (by decide), edgeIdx_keeps (r := main_arg1) _ (by decide)]

/-- Every edge's graph number is still there after the first 57. -/
theorem gid_at_sum (M : Valuation τ sig (Elt Ideal)) :
    after weightSum (after edgeLook (after edgeIdx M)) (Proc.devRef .tc main_v17) = Cert.Tail.graphOfEdge (M (Proc.devRef .tc main_arg5)) := by
  rw [weightSum_keeps (r := main_v17) _ (by decide), gid_at_look]

/-- The reference's loss is the shared chain of the edge counts and the edge weights as launched and the edge
    outputs as the reference leaves them. -/
theorem ref_loss (M : Valuation τ sig (Elt Ideal)) :
    after ops M (Proc.devRef .tc main_v48)
      = Cert.Tail.lossOf (M (Proc.devRef .tc main_arg5)) (M (Proc.devRef .tc main_arg1)) (after ops M (Proc.devRef .tc main_v36)) := by
  have h36 : after ops M (Proc.devRef .tc main_v36)
      = after middle (after weightSum (after edgeLook (after edgeIdx M))) (Proc.devRef .tc main_v36) := by
    rw [after_split, tail_keeps (r := main_v36) _ (by decide), after_head, lossEnd_keeps (r := main_v36) _ (by decide)]
  rw [h36, after_split, tail_keeps (r := main_v48) _ (by decide), after_head, lossEnd_loss,
    middle_keeps (r := main_v21) _ (by decide), middle_keeps (r := main_v17) _ (by decide), w_at_sum, gid_at_sum]
  rfl

end Cert.TailRef

end
-- ==== Proof.RefSide.lean ====
/-
  The reference program's run, stated over the specification's arrays.

  The reference is a straight line of array operations, so every buffer ends at the fold of the operations
  over the launch contents. Two of its intermediate arrays carry all the arithmetic: the perceptron's output
  for every node, and every edge's weighted squared distance. Read at an index, the first is the
  specification's perceptron, and — when every sender and receiver word is below the table's height — the
  second is the specification's edge value. Everything after them is a function of those two arrays and of
  the argument arrays: the node result of the perceptron array and the segment lengths, the loss of the edge
  array, the edge weights and the segment ids. No operation writes an argument, so the ten arguments end as
  they began.
-/
import proofs.«426342_j11098195493609_3_alg».proof.Proof.RefRun
import proofs.«426342_j11098195493609_3_alg».proof.Proof.RefValue
import proofs.«426342_j11098195493609_3_alg».proof.Proof.RefLink
import proofs.«426342_j11098195493609_3_alg».proof.Proof.TailDefs
import proofs.«426342_j11098195493609_3_alg».proof.Proof.TailRef
import proofs.«426342_j11098195493609_3_alg».proof.Proof.TailRefLoss
import proofs.«426342_j11098195493609_3_alg».proof.Proof.Arrays

noncomputable section

namespace Cert.ReferenceIdeal.RefSide

open Cert.ReferenceIdeal Cert.ReferenceIdeal.Gen Idealize.ShloMosaic Idealize.ShloMosaic.TcCoe Idealize.SL.Sem
open Idealize.ShloMosaic.StableHlo Idealize.ShloMosaic.ValueIdx

/-- The node stage, as an array, is the specification's perceptron array: the two agree at every index. -/
theorem refH_eq_hVec (a0 : FVec Ideal S10000x128 .f32) (a6 : FVec Ideal S128x512 .f32) (a7 : FVec Ideal S512 .f32)
    (a8 : FVec Ideal S512x128 .f32) (a9 : FVec Ideal S128 .f32) :
    RefValue.refH a0 a6 a7 a8 a9 = Cert.Spec.hVec a0 a6 a7 a8 a9 := by
  funext i
  obtain ⟨p, q, rfl⟩ : ∃ (p : Fin 10000) (q : Fin 128), i = ix2 p q := ⟨i 0, i 1, eq_ix2 i⟩
  exact RefValue.refH_apply a0 a6 a7 a8 a9 p q

/-- The edge stage over the perceptron array, as an array, is the specification's edge array, when every
    sender and receiver word is below 10000. -/
theorem refEdge_eq_eVec (a0 : FVec Ideal S10000x128 .f32) (a6 : FVec Ideal S128x512 .f32) (a7 : FVec Ideal S512 .f32)
    (a8 : FVec Ideal S512x128 .f32) (a9 : FVec Ideal S128 .f32) (a2 a3 : IVec S640000 32) (a1 : FVec Ideal S640000x1 .f32)
    (hs : ∀ e : Fin 640000, (a2 (ix1 e)).toNat < 10000) (hr : ∀ e : Fin 640000, (a3 (ix1 e)).toNat < 10000) :
    RefValue.refEdge (Cert.Spec.hVec a0 a6 a7 a8 a9) a2 a3 a1
      = Cert.Spec.eVec (Cert.Spec.hArr a0 a6 a7 a8 a9) a2 a3 a1 := by
  funext i
  obtain ⟨e, rfl⟩ : ∃ e : Fin 640000, i = ix1 e := ⟨i 0, eq_ix1 i⟩
  exact RefValue.refEdge_apply (Cert.Spec.hVec a0 a6 a7 a8 a9) a2 a3 a1 hs hr e

/-- The perceptron array the reference holds, and then its node result, over any launch contents. -/
theorem after_v52 (M : Valuation τ sig (Elt Ideal)) :
    StableHlo.after (Value.ops (F := Ideal)) M (Proc.devRef .tc main_v52)
      = Cert.Tail.nodeOf (M (Proc.devRef .tc main_arg4))
          (Cert.Spec.hVec (M (Proc.devRef .tc main_arg0)) (M (Proc.devRef .tc main_arg6)) (M (Proc.devRef .tc main_arg7))
            (M (Proc.devRef .tc main_arg8)) (M (Proc.devRef .tc main_arg9))) := by
  rw [Cert.TailRef.ref_nodes M, RefLink.link_h M, refH_eq_hVec]

/-- The reference's loss result over any launch contents whose sender and receiver words are below 10000. -/
theorem after_v48 (M : Valuation τ sig (Elt Ideal))
    (hs : ∀ e : Fin 640000, ((M (Proc.devRef .tc main_arg2) : IVec S640000 32) (ix1 e)).toNat < 10000)
    (hr : ∀ e : Fin 640000, ((M (Proc.devRef .tc main_arg3) : IVec S640000 32) (ix1 e)).toNat < 10000) :
    StableHlo.after (Value.ops (F := Ideal)) M (Proc.devRef .tc main_v48)
      = Cert.Tail.lossOf (M (Proc.devRef .tc main_arg5)) (M (Proc.devRef .tc main_arg1))
          (Cert.Spec.eVec (Cert.Spec.hArr (M (Proc.devRef .tc main_arg0)) (M (Proc.devRef .tc main_arg6))
              (M (Proc.devRef .tc main_arg7)) (M (Proc.devRef .tc main_arg8)) (M (Proc.devRef .tc main_arg9)))
            (M (Proc.devRef .tc main_arg2)) (M (Proc.devRef .tc main_arg3)) (M (Proc.devRef .tc main_arg1))) := by
  rw [Cert.TailRef.ref_loss M, RefLink.link_e M, RefLink.link_h M, refH_eq_hVec, refEdge_eq_eVec _ _ _ _ _ _ _ _ hs hr]

/-- THE RUN: from any memory whose sender and receiver words are below 10000, the reference terminates with its
    node result the common tail's node function of the specification's perceptron array, its loss the common
    tail's loss function of the specification's edge array, and its ten argument arrays unchanged. -/
theorem ref_run (m' : (ℓ : Loc nD τ sig) → Buf (Elt Ideal) ℓ) (ρ' : Dev nD → PrngReg)
    (hs : ∀ (c : Dev nD) (e : Fin 640000), ((m' ((c.tc : Thread nD τ).loc main_arg2) : S640000.Idx → BitVec 32) (ix1 e)).toNat < 10000)
    (hr : ∀ (c : Dev nD) (e : Fin 640000), ((m' ((c.tc : Thread nD τ).loc main_arg3) : S640000.Idx → BitVec 32) (ix1 e)).toNat < 10000) :
    θ_run (defs (F := Ideal)) (onTc (τ := τ) (main (F := Ideal))) ⟨m', fun _ => 0, ρ'⟩ (fun r => ∀ c : Dev nD,
      r.2.mem ((c.tc : Thread nD τ).loc main_v52) = Cert.Tail.nodeOf (m' ((c.tc : Thread nD τ).loc main_arg4))
          (Cert.Spec.hVec (m' ((c.tc : Thread nD τ).loc main_arg0)) (m' ((c.tc : Thread nD τ).loc main_arg6)) (m' ((c.tc : Thread nD τ).loc main_arg7))
            (m' ((c.tc : Thread nD τ).loc main_arg8)) (m' ((c.tc : Thread nD τ).loc main_arg9)))
      ∧ r.2.mem ((c.tc : Thread nD τ).loc main_v48) = Cert.Tail.lossOf (m' ((c.tc : Thread nD τ).loc main_arg5)) (m' ((c.tc : Thread nD τ).loc main_arg1))
          (Cert.Spec.eVec (Cert.Spec.hArr (m' ((c.tc : Thread nD τ).loc main_arg0)) (m' ((c.tc : Thread nD τ).loc main_arg6)) (m' ((c.tc : Thread nD τ).loc main_arg7))
              (m' ((c.tc : Thread nD τ).loc main_arg8)) (m' ((c.tc : Thread nD τ).loc main_arg9)))
            (m' ((c.tc : Thread nD τ).loc main_arg2)) (m' ((c.tc : Thread nD τ).loc main_arg3)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)) :=
  (θ_run (defs (F := Ideal)) _ _).mono (fun _ h c =>
    ⟨(h c main_v52).trans (after_v52 (launchContents m' c)),
     (h c main_v48).trans (after_v48 (launchContents m' c) (hs c) (hr c)),
     (h c main_arg0).trans (Value.after_arg0 _),
     (h c main_arg1).trans (Value.after_arg1 _),
     (h c main_arg2).trans (Value.after_arg2 _),
     (h c main_arg3).trans (Value.after_arg3 _),
     (h c main_arg4).trans (Value.after_arg4 _),
     (h c main_arg5).trans (Value.after_arg5 _),
     (h c main_arg6).trans (Value.after_arg6 _),
     (h c main_arg7).trans (Value.after_arg7 _),
     (h c main_arg8).trans (Value.after_arg8 _),
     (h c main_arg9).trans (Value.after_arg9 _)⟩)
    (Value.run_after (F := Ideal) m' ρ')

/-- THE FRAME: from any memory the reference terminates with its ten argument arrays unchanged. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun _ h c =>
    ⟨(h c main_arg0).trans (Value.after_arg0 _),
     (h c main_arg1).trans (Value.after_arg1 _),
     (h c main_arg2).trans (Value.after_arg2 _),
     (h c main_arg3).trans (Value.after_arg3 _),
     (h c main_arg4).trans (Value.after_arg4 _),
     (h c main_arg5).trans (Value.after_arg5 _),
     (h c main_arg6).trans (Value.after_arg6 _),
     (h c main_arg7).trans (Value.after_arg7 _),
     (h c main_arg8).trans (Value.after_arg8 _),
     (h c main_arg9).trans (Value.after_arg9 _)⟩)
    (Value.run_after (F := Ideal) m ρ)

end Cert.ReferenceIdeal.RefSide

end
-- ==== Proof.lean ====
/-
  The kernel computes a graph-network step in two launches: a two-layer perceptron over the nodes' features, and
  for every edge its weight times the squared distance between the perceptron's rows at the edge's two ends, the
  rows fetched by multiplying a signed indicator matrix with the table of rows; sums per graph, a mean and a take
  of one row per graph follow on the host. The reference fetches the rows by index instead and runs the same host
  code. Over the extended reals, with every float input real-valued and every sender and receiver a node number,
  the two agree: the perceptron is the same sums; an indicator row against a real table is the indexed row, and a
  difference of two indicator rows the difference of two rows; everything after is the same function of the same
  arrays. The frames of the two kernel programs are the generated ones; the reference's frame is its run with the
  results dropped; the kernel's idealization rewrote nothing.
-/
import proofs.«426342_j11098195493609_3_alg».proof.Defs
import proofs.«426342_j11098195493609_3_alg».proof.Proof.Gen.Kernel
import proofs.«426342_j11098195493609_3_alg».proof.Proof.Gen.Kernel.Frame
import proofs.«426342_j11098195493609_3_alg».proof.Proof.Gen.KernelIdeal
import proofs.«426342_j11098195493609_3_alg».proof.Proof.Gen.KernelIdeal.Frame
import proofs.«426342_j11098195493609_3_alg».proof.Proof.Gen.ReferenceIdeal
import proofs.«426342_j11098195493609_3_alg».proof.Proof.Gen.Pre_finite_inputs
import proofs.«426342_j11098195493609_3_alg».proof.Proof.PreDecode
import proofs.«426342_j11098195493609_3_alg».proof.Proof.KernelSide
import proofs.«426342_j11098195493609_3_alg».proof.Proof.RefSide

noncomputable section

namespace Cert.Proof

open Idealize.ShloMosaic Idealize.SL.Sem Idealize.ShloMosaic.ValueIdx

/-- The word-level kernel runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: no host operation writes one. -/
theorem frame_ri : Cert.frame_ReferenceIdeal (hReferenceIdeal := Cert.ReferenceIdeal.Gen.facts) (hPre_finite_inputs := Cert.Pre_finite_inputs.Gen.facts) :=
  fun m ρ _ => Cert.ReferenceIdeal.RefSide.ref_frame m ρ

/-- Both programs end with the tail's take of the perceptron's rows and the tail's loss of the edges' weighted
    squared distances, as functions of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hd := fun c => Cert.PreDecode.decode _ _ _ _ _ _ _ _ _ _ (hpre c)
  have hs : ∀ (c : Dev Cert.ReferenceIdeal.nD) (e : Fin 640000),
      ((m' ((c.tc : Thread Cert.ReferenceIdeal.nD Cert.ReferenceIdeal.τ).loc Cert.ReferenceIdeal.main_arg2) : Cert.ReferenceIdeal.S640000.Idx → BitVec 32) (ix1 e)).toNat < 10000 := fun c e => by
    rw [(hagree c).2.2.1]; exact (hd c).2.2.2.2.2.2.1 e
  have hr : ∀ (c : Dev Cert.ReferenceIdeal.nD) (e : Fin 640000),
      ((m' ((c.tc : Thread Cert.ReferenceIdeal.nD Cert.ReferenceIdeal.τ).loc Cert.ReferenceIdeal.main_arg3) : Cert.ReferenceIdeal.S640000.Idx → BitVec 32) (ix1 e)).toNat < 10000 := fun c e => by
    rw [(hagree c).2.2.2.1]; exact (hd c).2.2.2.2.2.2.2 e
  refine ⟨fun c => Cert.Tail.nodeOf (m ((c.tc : Thread Cert.KernelIdeal.nD Cert.KernelIdeal.τ).loc Cert.KernelIdeal.main_arg4)) (Cert.Spec.hVec (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    fun c => Cert.Tail.lossOf (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (Cert.Spec.eVec (Cert.Spec.hArr (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg1))),
    Cert.KernelIdeal.KernelSide.kernel_run m ρ (fun c => (hd c).1) (fun c => (hd c).2.2.1) (fun c => (hd c).2.2.2.1)
      (fun c => (hd c).2.2.2.2.1) (fun c => (hd c).2.2.2.2.2.1), ?_⟩
  refine (θ_run _ _ _).mono (fun r h c => ?_) (Cert.ReferenceIdeal.RefSide.ref_run m' ρ' hs hr)
  obtain ⟨a0, a1, a2, a3, a4, a5, a6, a7, a8, a9⟩ := hagree c
  refine ⟨(h c).1.trans ?_, (h c).2.1.trans ?_, (h c).2.2⟩
  · rw [a0, a4, a6, a7, a8, a9]
  · rw [a0, a1, a2, a3, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
